-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S25600 : Shape := ⟨1, ![25600]⟩
abbrev S5120 : Shape := ⟨1, ![5120]⟩
abbrev S5120x25600 : Shape := ⟨2, ![5120, 25600]⟩
abbrev S512 : Shape := ⟨1, ![512]⟩
abbrev S512x5120 : Shape := ⟨2, ![512, 5120]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5120x25600 : S_.BroadcastsInDim S5120x25600 (![] : Fin 0 → Fin S5120x25600.rank)
  reducesTo_S5120x25600_S_d0_1 : S5120x25600.ReducesTo [0, 1] S_
  bcast_S_S512x5120 : S_.BroadcastsInDim S512x5120 (![] : Fin 0 → Fin S512x5120.rank)
  reducesTo_S512x5120_S_d0_1 : S512x5120.ReducesTo [0, 1] S_
  bcast_S_S256x128 : S_.BroadcastsInDim S256x128 (![] : Fin 0 → Fin S256x128.rank)
  reducesTo_S256x128_S_d0_1 : S256x128.ReducesTo [0, 1] S_
  bcast_S_S25600 : S_.BroadcastsInDim S25600 (![] : Fin 0 → Fin S25600.rank)
  reducesTo_S25600_S_d0 : S25600.ReducesTo [0] S_
  bcast_S_S5120 : S_.BroadcastsInDim S5120 (![] : Fin 0 → Fin S5120.rank)
  reducesTo_S5120_S_d0 : S5120.ReducesTo [0] S_
  bcast_S_S512 : S_.BroadcastsInDim S512 (![] : Fin 0 → Fin S512.rank)
  reducesTo_S512_S_d0 : S512.ReducesTo [0] S_

variable [Facts]

def fn_part3 {F : FTy → Type} [FloatOps F] (main_arg6 : IVec S5120 32) (main_v44 : IVec S_ 1) (main_v49 : IVec S512 1) (main_c_19 : IVec S_ 1) : IVec S_ 1 :=
  let main_v50 : IVec S_ 1 := (fun x v => Host.reduce IntOp.andi x v reducesTo_S512_S_d0 h_S_) main_v49 main_c_19
  let main_v51 : IVec S_ 1 := andi main_v44 main_v50
  let main_c_20 : IVec S_ 32 := constantI S_ 32 0#32
  let main_v52 : IVec S5120 32 := broadcastInDim S5120 ![] bcast_S_S5120 main_c_20
  let main_v53 : IVec S5120 1 := cmpi .sge main_arg6 main_v52
  let main_c_21 : IVec S_ 32 := constantI S_ 32 5120#32
  let main_v54 : IVec S5120 32 := broadcastInDim S5120 ![] bcast_S_S5120 main_c_21
  let main_v55 : IVec S5120 1 := cmpi .slt main_arg6 main_v54
  let main_v56 : IVec S5120 1 := andi main_v53 main_v55
  let main_c_22 : IVec S_ 1 := constantI S_ 1 1#1
  let main_v57 : IVec S_ 1 := (fun x v => Host.reduce IntOp.andi x v reducesTo_S5120_S_d0 h_S_) main_v56 main_c_22
  let main_v58 : IVec S_ 1 := andi main_v51 main_v57
  main_v58

def fn_part2 {F : FTy → Type} [FloatOps F] (main_arg2 : IVec S5120 32) (main_arg3 : IVec S25600 32) (main_arg5 : IVec S512 32) (main_arg6 : IVec S5120 32) (main_v30 : IVec S_ 1) (main_v32 : IVec S5120 1) (main_c_12 : IVec S_ 32) : IVec S_ 1 :=
  let main_v33 : IVec S5120 32 := broadcastInDim S5120 ![] bcast_S_S5120 main_c_12
  let main_v34 : IVec S5120 1 := cmpi .slt main_arg2 main_v33
  let main_v35 : IVec S5120 1 := andi main_v32 main_v34
  let main_c_13 : IVec S_ 1 := constantI S_ 1 1#1
  let main_v36 : IVec S_ 1 := (fun x v => Host.reduce IntOp.andi x v reducesTo_S5120_S_d0 h_S_) main_v35 main_c_13
  let main_v37 : IVec S_ 1 := andi main_v30 main_v36
  let main_c_14 : IVec S_ 32 := constantI S_ 32 0#32
  let main_v38 : IVec S25600 32 := broadcastInDim S25600 ![] bcast_S_S25600 main_c_14
  let main_v39 : IVec S25600 1 := cmpi .sge main_arg3 main_v38
  let main_c_15 : IVec S_ 32 := constantI S_ 32 25600#32
  let main_v40 : IVec S25600 32 := broadcastInDim S25600 ![] bcast_S_S25600 main_c_15
  let main_v41 : IVec S25600 1 := cmpi .slt main_arg3 main_v40
  let main_v42 : IVec S25600 1 := andi main_v39 main_v41
  let main_c_16 : IVec S_ 1 := constantI S_ 1 1#1
  let main_v43 : IVec S_ 1 := (fun x v => Host.reduce IntOp.andi x v reducesTo_S25600_S_d0 h_S_) main_v42 main_c_16
  let main_v44 : IVec S_ 1 := andi main_v37 main_v43
  let main_c_17 : IVec S_ 32 := constantI S_ 32 0#32
  let main_v45 : IVec S512 32 := broadcastInDim S512 ![] bcast_S_S512 main_c_17
  let main_v46 : IVec S512 1 := cmpi .sge main_arg5 main_v45
  let main_c_18 : IVec S_ 32 := constantI S_ 32 5120#32
  let main_v47 : IVec S512 32 := broadcastInDim S512 ![] bcast_S_S512 main_c_18
  let main_v48 : IVec S512 1 := cmpi .slt main_arg5 main_v47
  let main_v49 : IVec S512 1 := andi main_v46 main_v48
  let main_c_19 : IVec S_ 1 := constantI S_ 1 1#1
  fn_part3 (F := F) main_arg6 main_v44 main_v49 main_c_19

def fn_part1 {F : FTy → Type} [FloatOps F] (main_arg1 : IVec S25600 32) (main_arg2 : IVec S5120 32) (main_arg3 : IVec S25600 32) (main_arg5 : IVec S512 32) (main_arg6 : IVec S5120 32) (main_arg9 : FVec F S256x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg9
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_c_8 : IVec S_ 32 := constantI S_ 32 0#32
  let main_v24 : IVec S25600 32 := broadcastInDim S25600 ![] bcast_S_S25600 main_c_8
  let main_v25 : IVec S25600 1 := cmpi .sge main_arg1 main_v24
  let main_c_9 : IVec S_ 32 := constantI S_ 32 100000#32
  let main_v26 : IVec S25600 32 := broadcastInDim S25600 ![] bcast_S_S25600 main_c_9
  let main_v27 : IVec S25600 1 := cmpi .slt main_arg1 main_v26
  let main_v28 : IVec S25600 1 := andi main_v25 main_v27
  let main_c_10 : IVec S_ 1 := constantI S_ 1 1#1
  let main_v29 : IVec S_ 1 := (fun x v => Host.reduce IntOp.andi x v reducesTo_S25600_S_d0 h_S_) main_v28 main_c_10
  let main_v30 : IVec S_ 1 := andi main_v23 main_v29
  let main_c_11 : IVec S_ 32 := constantI S_ 32 0#32
  let main_v31 : IVec S5120 32 := broadcastInDim S5120 ![] bcast_S_S5120 main_c_11
  let main_v32 : IVec S5120 1 := cmpi .sge main_arg2 main_v31
  let main_c_12 : IVec S_ 32 := constantI S_ 32 25600#32
  fn_part2 (F := F) main_arg2 main_arg3 main_arg5 main_arg6 main_v30 main_v32 main_c_12

def fn {F : FTy → Type} [FloatOps F] (main_arg0 : FVec F S100000x128 .f32) (main_arg1 : IVec S25600 32) (main_arg2 : IVec S5120 32) (main_arg3 : IVec S25600 32) (main_arg4 : FVec F S5120x25600 .f32) (main_arg5 : IVec S512 32) (main_arg6 : IVec S5120 32) (main_arg7 : FVec F S512x5120 .f32) (main_arg8 : FVec F S256x128 .f32) (main_arg9 : FVec F S256x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5120x25600 .f32 := Host.absf main_arg4
  let main_cst_0 : FVec F S_ .f32 := constant S_ .f32 0x7F800000#32
  let main_v5 : FVec F S5120x25600 .f32 := broadcastInDim S5120x25600 ![] bcast_S_S5120x25600 main_cst_0
  let main_v6 : IVec S5120x25600 1 := cmpf .olt main_v4 main_v5
  let main_c_1 : IVec S_ 1 := constantI S_ 1 1#1
  let main_v7 : IVec S_ 1 := (fun x v => Host.reduce IntOp.andi x v reducesTo_S5120x25600_S_d0_1 h_S_) main_v6 main_c_1
  let main_v8 : IVec S_ 1 := andi main_v3 main_v7
  let main_v9 : FVec F S512x5120 .f32 := Host.absf main_arg7
  let main_cst_2 : FVec F S_ .f32 := constant S_ .f32 0x7F800000#32
  let main_v10 : FVec F S512x5120 .f32 := broadcastInDim S512x5120 ![] bcast_S_S512x5120 main_cst_2
  let main_v11 : IVec S512x5120 1 := cmpf .olt main_v9 main_v10
  let main_c_3 : IVec S_ 1 := constantI S_ 1 1#1
  let main_v12 : IVec S_ 1 := (fun x v => Host.reduce IntOp.andi x v reducesTo_S512x5120_S_d0_1 h_S_) main_v11 main_c_3
  let main_v13 : IVec S_ 1 := andi main_v8 main_v12
  let main_v14 : FVec F S256x128 .f32 := Host.absf main_arg8
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg2 main_arg3 main_arg5 main_arg6 main_arg9 main_v13 main_v16
-- ==== Kernel.lean ====
abbrev S100000x128 : Shape := ⟨2, ![100000, 128]⟩
abbrev S25600 : Shape := ⟨1, ![25600]⟩
abbrev S5120 : Shape := ⟨1, ![5120]⟩
abbrev S5120x25600 : Shape := ⟨2, ![5120, 25600]⟩
abbrev S512 : Shape := ⟨1, ![512]⟩
abbrev S512x5120 : Shape := ⟨2, ![512, 5120]⟩
abbrev S256x128 : Shape := ⟨2, ![256, 128]⟩
abbrev S_ : Shape := ⟨0, ![]⟩
abbrev S25600x1 : Shape := ⟨2, ![25600, 1]⟩
abbrev S1 : Shape := ⟨1, ![1]⟩
abbrev S1x1 : Shape := ⟨2, ![1, 1]⟩
abbrev S5120x1 : Shape := ⟨2, ![5120, 1]⟩
abbrev S25600x128 : Shape := ⟨2, ![25600, 128]⟩
abbrev S5120x128 : Shape := ⟨2, ![5120, 128]⟩
abbrev S128x128 : Shape := ⟨2, ![128, 128]⟩
abbrev S512x128 : Shape := ⟨2, ![512, 128]⟩
abbrev S512x1 : Shape := ⟨2, ![512, 1]⟩
abbrev S128x5120 : Shape := ⟨2, ![128, 5120]⟩

abbrev nBuf : Space → Nat
  | .hbm => 154
  | .vmem => 20
  | .smem => 0
  | _ => 0

abbrev hbmTy0_0 (i : Nat) : BufTy := match i % 128 with
  | 0 => ⟨S100000x128, .f32⟩
  | 1 => ⟨S25600, .i32⟩
  | 2 => ⟨S5120, .i32⟩
  | 3 => ⟨S25600, .i32⟩
  | 4 => ⟨S5120x25600, .f32⟩
  | 5 => ⟨S512, .i32⟩
  | 6 => ⟨S5120, .i32⟩
  | 7 => ⟨S512x5120, .f32⟩
  | 8 => ⟨S256x128, .f32⟩
  | 9 => ⟨S256x128, .f32⟩
  | 10 => ⟨S_, .i32⟩
  | 11 => ⟨S25600, .i32⟩
  | 12 => ⟨S25600, .i1⟩
  | 13 => ⟨S_, .i32⟩
  | 14 => ⟨S25600, .i32⟩
  | 15 => ⟨S25600, .i32⟩
  | 16 => ⟨S25600, .i32⟩
  | 17 => ⟨S25600x1, .i32⟩
  | 18 => ⟨S1, .i32⟩
  | 19 => ⟨S_, .i32⟩
  | 20 => ⟨S25600x1, .i32⟩
  | 21 => ⟨S25600x1, .i1⟩
  | 22 => ⟨S1x1, .i32⟩
  | 23 => ⟨S25600x1, .i32⟩
  | 24 => ⟨S25600x1, .i1⟩
  | 25 => ⟨S25600x1, .i1⟩
  | 26 => ⟨S_, .i1⟩
  | 27 => ⟨S25600, .i1⟩
  | 28 => ⟨S25600, .i32⟩
  | 29 => ⟨S_, .i32⟩
  | 30 => ⟨S25600, .i32⟩
  | 31 => ⟨S25600, .i32⟩
  | 32 => ⟨S_, .i32⟩
  | 33 => ⟨S5120, .i32⟩
  | 34 => ⟨S5120, .i1⟩
  | 35 => ⟨S_, .i32⟩
  | 36 => ⟨S5120, .i32⟩
  | 37 => ⟨S5120, .i32⟩
  | 38 => ⟨S5120, .i32⟩
  | 39 => ⟨S5120x1, .i32⟩
  | 40 => ⟨S1, .i32⟩
  | 41 => ⟨S_, .i32⟩
  | 42 => ⟨S5120x1, .i32⟩
  | 43 => ⟨S5120x1, .i1⟩
  | 44 => ⟨S1x1, .i32⟩
  | 45 => ⟨S5120x1, .i32⟩
  | 46 => ⟨S5120x1, .i1⟩
  | 47 => ⟨S5120x1, .i1⟩
  | 48 => ⟨S_, .i1⟩
  | 49 => ⟨S5120, .i1⟩
  | 50 => ⟨S5120, .i32⟩
  | 51 => ⟨S_, .i32⟩
  | 52 => ⟨S5120, .i32⟩
  | 53 => ⟨S5120, .i32⟩
  | 54 => ⟨S_, .i32⟩
  | 55 => ⟨S25600, .i32⟩
  | 56 => ⟨S25600, .i1⟩
  | 57 => ⟨S_, .i32⟩
  | 58 => ⟨S25600, .i32⟩
  | 59 => ⟨S25600, .i32⟩
  | 60 => ⟨S25600, .i32⟩
  | 61 => ⟨S25600x1, .i32⟩
  | 62 => ⟨S1, .i32⟩
  | 63 => ⟨S_, .i32⟩
  | 64 => ⟨S25600x1, .i32⟩
  | 65 => ⟨S25600x1, .i1⟩
  | 66 => ⟨S1x1, .i32⟩
  | 67 => ⟨S25600x1, .i32⟩
  | 68 => ⟨S25600x1, .i1⟩
  | 69 => ⟨S25600x1, .i1⟩
  | 70 => ⟨S_, .i1⟩
  | 71 => ⟨S25600, .i1⟩
  | 72 => ⟨S25600x128, .f32⟩
  | 73 => ⟨S25600x128, .i1⟩
  | 74 => ⟨S_, .f32⟩
  | 75 => ⟨S25600x128, .f32⟩
  | 76 => ⟨S25600x128, .f32⟩
  | 77 => ⟨S25600x128, .bf16⟩
  | 78 => ⟨S_, .i32⟩
  | 79 => ⟨S5120, .i32⟩
  | 80 => ⟨S5120, .i1⟩
  | 81 => ⟨S_, .i32⟩
  | 82 => ⟨S5120, .i32⟩
  | 83 => ⟨S5120, .i32⟩
  | 84 => ⟨S5120, .i32⟩
  | 85 => ⟨S5120x1, .i32⟩
  | 86 => ⟨S1, .i32⟩
  | 87 => ⟨S_, .i32⟩
  | 88 => ⟨S5120x1, .i32⟩
  | 89 => ⟨S5120x1, .i1⟩
  | 90 => ⟨S1x1, .i32⟩
  | 91 => ⟨S5120x1, .i32⟩
  | 92 => ⟨S5120x1, .i1⟩
  | 93 => ⟨S5120x1, .i1⟩
  | 94 => ⟨S_, .i1⟩
  | 95 => ⟨S5120, .i1⟩
  | 96 => ⟨S5120x128, .f32⟩
  | 97 => ⟨S5120x128, .i1⟩
  | 98 => ⟨S_, .f32⟩
  | 99 => ⟨S5120x128, .f32⟩
  | 100 => ⟨S5120x128, .f32⟩
  | 101 => ⟨S128x128, .f32⟩
  | 102 => ⟨S128x128, .f32⟩
  | 103 => ⟨S5120x128, .f32⟩
  | 104 => ⟨S_, .i32⟩
  | 105 => ⟨S5120, .i32⟩
  | 106 => ⟨S5120, .i1⟩
  | 107 => ⟨S_, .i32⟩
  | 108 => ⟨S5120, .i32⟩
  | 109 => ⟨S5120, .i32⟩
  | 110 => ⟨S5120, .i32⟩
  | 111 => ⟨S5120x1, .i32⟩
  | 112 => ⟨S1, .i32⟩
  | 113 => ⟨S_, .i32⟩
  | 114 => ⟨S5120x1, .i32⟩
  | 115 => ⟨S5120x1, .i1⟩
  | 116 => ⟨S1x1, .i32⟩
  | 117 => ⟨S5120x1, .i32⟩
  | 118 => ⟨S5120x1, .i1⟩
  | 119 => ⟨S5120x1, .i1⟩
  | 120 => ⟨S_, .i1⟩
  | 121 => ⟨S5120, .i1⟩
  | 122 => ⟨S5120x128, .f32⟩
  | 123 => ⟨S5120x128, .i1⟩
  | 124 => ⟨S_, .f32⟩
  | 125 => ⟨S5120x128, .f32⟩
  | 126 => ⟨S5120x128, .f32⟩
  | 127 => ⟨S5120x128, .bf16⟩
  | _ => ⟨S100000x128, .f32⟩

abbrev hbmTy0_1 (i : Nat) : BufTy := match i % 128 with
  | 0 => ⟨S_, .i32⟩
  | 1 => ⟨S512, .i32⟩
  | 2 => ⟨S512, .i1⟩
  | 3 => ⟨S_, .i32⟩
  | 4 => ⟨S512, .i32⟩
  | 5 => ⟨S512, .i32⟩
  | 6 => ⟨S512, .i32⟩
  | 7 => ⟨S512x1, .i32⟩
  | 8 => ⟨S1, .i32⟩
  | 9 => ⟨S_, .i32⟩
  | 10 => ⟨S512x1, .i32⟩
  | 11 => ⟨S512x1, .i1⟩
  | 12 => ⟨S1x1, .i32⟩
  | 13 => ⟨S512x1, .i32⟩
  | 14 => ⟨S512x1, .i1⟩
  | 15 => ⟨S512x1, .i1⟩
  | 16 => ⟨S_, .i1⟩
  | 17 => ⟨S512, .i1⟩
  | 18 => ⟨S512x128, .f32⟩
  | 19 => ⟨S512x128, .i1⟩
  | 20 => ⟨S_, .f32⟩
  | 21 => ⟨S512x128, .f32⟩
  | 22 => ⟨S512x128, .f32⟩
  | 23 => ⟨S128x128, .f32⟩
  | 24 => ⟨S128x128, .f32⟩
  | 25 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S512x5120, .f32⟩
  | .local _ .vmem, ⟨1, _⟩ => ⟨S512x5120, .f32⟩
  | .local _ .vmem, ⟨2, _⟩ => ⟨S25600x128, .bf16⟩
  | .local _ .vmem, ⟨3, _⟩ => ⟨S512x128, .f32⟩
  | .local _ .vmem, ⟨4, _⟩ => ⟨S512x128, .f32⟩
  | .local _ .vmem, ⟨5, _⟩ => ⟨S128x128, .f32⟩
  | .local _ .vmem, ⟨6, _⟩ => ⟨S128x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S128x5120, .f32⟩
  | .local _ .vmem, ⟨11, _⟩ => ⟨S128x5120, .f32⟩
  | .local _ .vmem, ⟨12, _⟩ => ⟨S5120x128, .bf16⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_c_4 : Ref sig .tc := ⟨.hbm, 29, rfl⟩
abbrev main_call0_v14 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_c_4 : Ref sig .tc := ⟨.hbm, 51, rfl⟩
abbrev main_call1_v14 : Ref sig .tc := ⟨.hbm, 52, rfl⟩
abbrev main_v1 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v2 : Ref sig .tc := ⟨.hbm, 76, rfl⟩
abbrev main_v3 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v4 : Ref sig .tc := ⟨.hbm, 100, rfl⟩
abbrev main_v5 : Ref sig .tc := ⟨.hbm, 101, rfl⟩
abbrev main_v6 : Ref sig .tc := ⟨.hbm, 102, rfl⟩
abbrev main_v7 : Ref sig .tc := ⟨.hbm, 103, rfl⟩
abbrev main_call4_c : Ref sig .tc := ⟨.hbm, 104, rfl⟩
abbrev main_call4_v0 : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_c_1 : Ref sig .tc := ⟨.hbm, 112, rfl⟩
abbrev main_call4_c_2 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_3 : Ref sig .tc := ⟨.hbm, 120, rfl⟩
abbrev main_call4_v12 : Ref sig .tc := ⟨.hbm, 121, rfl⟩
abbrev main_call4_v13 : Ref sig .tc := ⟨.hbm, 122, rfl⟩
abbrev main_call4_v14 : Ref sig .tc := ⟨.hbm, 123, rfl⟩
abbrev main_call4_cst : Ref sig .tc := ⟨.hbm, 124, rfl⟩
abbrev main_call4_v15 : Ref sig .tc := ⟨.hbm, 125, rfl⟩
abbrev main_v8 : Ref sig .tc := ⟨.hbm, 126, rfl⟩
abbrev main_v9 : Ref sig .tc := ⟨.hbm, 127, rfl⟩
abbrev main_call5_c : Ref sig .tc := ⟨.hbm, 128, rfl⟩
abbrev main_call5_v0 : Ref sig .tc := ⟨.hbm, 129, rfl⟩
abbrev main_call5_v1 : Ref sig .tc := ⟨.hbm, 130, rfl⟩
abbrev main_call5_c_0 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_call5_v5 : Ref sig .tc := ⟨.hbm, 135, rfl⟩
abbrev main_call5_c_1 : Ref sig .tc := ⟨.hbm, 136, rfl⟩
abbrev main_call5_c_2 : Ref sig .tc := ⟨.hbm, 137, rfl⟩
abbrev main_call5_v6 : Ref sig .tc := ⟨.hbm, 138, rfl⟩
abbrev main_call5_v7 : Ref sig .tc := ⟨.hbm, 139, rfl⟩
abbrev main_call5_v8 : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_call5_c_3 : Ref sig .tc := ⟨.hbm, 144, rfl⟩
abbrev main_call5_v12 : Ref sig .tc := ⟨.hbm, 145, rfl⟩
abbrev main_call5_v13 : Ref sig .tc := ⟨.hbm, 146, rfl⟩
abbrev main_call5_v14 : Ref sig .tc := ⟨.hbm, 147, rfl⟩
abbrev main_call5_cst : Ref sig .tc := ⟨.hbm, 148, rfl⟩
abbrev main_call5_v15 : Ref sig .tc := ⟨.hbm, 149, rfl⟩
abbrev main_v10 : Ref sig .tc := ⟨.hbm, 150, rfl⟩
abbrev main_v11 : Ref sig .tc := ⟨.hbm, 151, rfl⟩
abbrev main_v12 : Ref sig .tc := ⟨.hbm, 152, rfl⟩
abbrev main_v13 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![10, 5], ![false, false]⟩

def k0_mult1 (i : grid0.Coords) : BitVec 32 :=
  let arg1 : BitVec 32 := BitVec.ofNat 32 (i 1).val
  let c5120_i32 : BitVec 32 := 5120#32
  let v5 : BitVec 32 := Scalar.muli arg1 c5120_i32
  v5
def k0_off1 (i : grid0.Coords) : Fin 2 → Nat :=
  let arg1 : BitVec 32 := BitVec.ofNat 32 (i 1).val
  let c5120_i32 : BitVec 32 := 5120#32
  let v5 : BitVec 32 := Scalar.muli arg1 c5120_i32
  let v6 : BitVec 32 := v5
  let v7 : Index := Scalar.indexCast v6
  let c0_2 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S25600x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 1], ![false, false]⟩

def k1_mult1 (i : grid1.Coords) : BitVec 32 :=
  let arg1 : BitVec 32 := BitVec.ofNat 32 (i 1).val
  let c5120_i32 : BitVec 32 := 5120#32
  let v5 : BitVec 32 := Scalar.muli arg1 c5120_i32
  v5
def k1_off1 (i : grid1.Coords) : Fin 2 → Nat :=
  let arg1 : BitVec 32 := BitVec.ofNat 32 (i 1).val
  let c5120_i32 : BitVec 32 := 5120#32
  let v5 : BitVec 32 := Scalar.muli arg1 c5120_i32
  let v6 : BitVec 32 := v5
  let v7 : Index := Scalar.indexCast v6
  let c0_2 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x5120 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S5120x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S25600 : S_.BroadcastsInDim S25600 (![] : Fin 0 → Fin S25600.rank)
  bcast_S25600_S25600x1_0 : S25600.BroadcastsInDim S25600x1 (![0] : Fin 1 → Fin S25600x1.rank)
  bcast_S_S25600x1 : S_.BroadcastsInDim S25600x1 (![] : Fin 0 → Fin S25600x1.rank)
  bcast_S1_S1x1_1 : S1.BroadcastsInDim S1x1 (![1] : Fin 1 → Fin S1x1.rank)
  bcast_S1x1_S25600x1_0_1 : S1x1.BroadcastsInDim S25600x1 (![0, 1] : Fin 2 → Fin S25600x1.rank)
  reducesTo_S25600x1_S25600_d1 : S25600x1.ReducesTo [1] S25600
  h_S_ : 0 < S_.numel
  bcast_S_S5120 : S_.BroadcastsInDim S5120 (![] : Fin 0 → Fin S5120.rank)
  bcast_S5120_S5120x1_0 : S5120.BroadcastsInDim S5120x1 (![0] : Fin 1 → Fin S5120x1.rank)
  bcast_S_S5120x1 : S_.BroadcastsInDim S5120x1 (![] : Fin 0 → Fin S5120x1.rank)
  bcast_S1x1_S5120x1_0_1 : S1x1.BroadcastsInDim S5120x1 (![0, 1] : Fin 2 → Fin S5120x1.rank)
  reducesTo_S5120x1_S5120_d1 : S5120x1.ReducesTo [1] S5120
  bcast_S25600_S25600x128_0 : S25600.BroadcastsInDim S25600x128 (![0] : Fin 1 → Fin S25600x128.rank)
  bcast_S_S25600x128 : S_.BroadcastsInDim S25600x128 (![] : Fin 0 → Fin S25600x128.rank)
  bitsLt_bf16_f32 : FTy.bits .bf16 < FTy.bits .f32
  bcast_S5120_S5120x128_0 : S5120.BroadcastsInDim S5120x128 (![0] : Fin 1 → Fin S5120x128.rank)
  bcast_S_S5120x128 : S_.BroadcastsInDim S5120x128 (![] : Fin 0 → Fin S5120x128.rank)
  slices_S256x128_S128x128_0_0 : S256x128.Slices ![0, 0] S128x128
  slices_S256x128_S128x128_128_0 : S256x128.Slices ![128, 0] S128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x5120_S512x5120_0_0 : ∀ a, (![0, 0] : Fin 2 → Nat) a + S512x5120.size a ≤ S512x5120.size a
  h_S512x5120 : 0 < S512x5120.numel
  h_S5120x128 : 0 < S5120x128.numel
  shapeCasts_S5120x128_S5120x128 : S5120x128.ShapeCasts S5120x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S512x128_0 : S512.BroadcastsInDim S512x128 (![0] : Fin 1 → Fin S512x128.rank)
  bcast_S_S512x128 : S_.BroadcastsInDim S512x128 (![] : Fin 0 → Fin S512x128.rank)
  inb_S128x5120_S128x5120_0_0 : ∀ a, (![0, 0] : Fin 2 → Nat) a + S128x5120.size a ≤ S128x5120.size a
  h_S128x5120 : 0 < S128x5120.numel
  gather_S25600_S25600x1_S25600_n_0_n_n_0_1_1_wf : GatherDims.WF S25600 S25600x1 S25600 [] [0] [] [0] [] 1 ![1]
  gather_S25600_S5120x1_S5120_n_0_n_n_0_1_1_wf : GatherDims.WF S25600 S5120x1 S5120 [] [0] [] [0] [] 1 ![1]
  gather_S100000x128_S25600x1_S25600x128_1_0_n_n_0_1_1128_wf : GatherDims.WF S100000x128 S25600x1 S25600x128 [1] [0] [] [0] [] 1 ![1, 128]
  gather_S100000x128_S5120x1_S5120x128_1_0_n_n_0_1_1128_wf : GatherDims.WF S100000x128 S5120x1 S5120x128 [1] [0] [] [0] [] 1 ![1, 128]
  dot_S512x5120_S5120x128_S512x128_1_0_0_1_n_n_wf : DotDims.WF S512x5120 S5120x128 S512x128 [1] [0] [0] [1] [] []
  dot_S512x128_S128x128_S512x128_1_0_0_1_n_n_wf : DotDims.WF S512x128 S128x128 S512x128 [1] [0] [0] [1] [] []
  gather_S5120x128_S5120x1_S5120x128_1_0_n_n_0_1_1128_wf : GatherDims.WF S5120x128 S5120x1 S5120x128 [1] [0] [] [0] [] 1 ![1, 128]
  gather_S5120x128_S512x1_S512x128_1_0_n_n_0_1_1128_wf : GatherDims.WF S5120x128 S512x1 S512x128 [1] [0] [] [0] [] 1 ![1, 128]
  dot_S128x5120_S5120x128_S128x128_1_0_0_1_n_n_wf : DotDims.WF S128x5120 S5120x128 S128x128 [1] [0] [0] [1] [] []
  dot_S128x128_S128x128_S128x128_1_0_0_1_n_n_wf : DotDims.WF S128x128 S128x128 S128x128 [1] [0] [0] [1] [] []
  hrank0 : 0 < grid0.rank
  k0_mult1_dvd : ∀ i : grid0.Coords, 5120 ∣ (k0_mult1 i).toNat
  k0_off1_inb : ∀ i : grid0.Coords, ∀ a, (k0_off1 i) a + S5120x128.size a ≤ S25600x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x5120.size a ≤ S5120x25600.size a
  hwx0_0 : ∀ i : grid0.Coords, EltTy.bits .f32 = 32 ∨ (Rect.block (s := S5120x25600) S512x5120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25600x128.size a ≤ S25600x128.size a
  hwx0_1 : ∀ i : grid0.Coords, EltTy.bits .bf16 = 32 ∨ (Rect.block (s := S25600x128) S25600x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S5120x128.size a
  hwx0_2 : ∀ i : grid0.Coords, EltTy.bits .f32 = 32 ∨ (Rect.block (s := S5120x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S5120x128.size a
  hwx0_5 : ∀ i : grid0.Coords, EltTy.bits .f32 = 32 ∨ (Rect.block (s := S5120x128) S512x128.size (cc0_transform_5 i) (hinb0_5 i)).WholeWords (EltTy.packing .f32)
  hrank1 : 0 < grid1.rank
  k1_mult1_dvd : ∀ i : grid1.Coords, 5120 ∣ (k1_mult1 i).toNat
  k1_off1_inb : ∀ i : grid1.Coords, ∀ a, (k1_off1 i) a + S5120x128.size a ≤ S5120x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x5120.size a ≤ S512x5120.size a
  hwx1_0 : ∀ i : grid1.Coords, EltTy.bits .f32 = 32 ∨ (Rect.block (s := S512x5120) S128x5120.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5120x128.size a ≤ S5120x128.size a
  hwx1_1 : ∀ i : grid1.Coords, EltTy.bits .bf16 = 32 ∨ (Rect.block (s := S5120x128) S5120x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S512x128.size a
  hwx1_2 : ∀ i : grid1.Coords, EltTy.bits .f32 = 32 ∨ (Rect.block (s := S512x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S512x128.size a
  hwx1_5 : ∀ i : grid1.Coords, EltTy.bits .f32 = 32 ∨ (Rect.block (s := S512x128) S128x128.size (cc1_transform_5 i) (hinb1_5 i)).WholeWords (EltTy.packing .f32)

variable [Facts₀]

def gather_S25600_S25600x1_S25600_n_0_n_n_0_1_1 : GatherDims S25600 S25600x1 S25600 where
  offsetDims := []
  collapsedSliceDims := [0]
  operandBatchingDims := []
  startIndicesBatchingDims := []
  startIndexMap := [0]
  indexVectorDim := 1
  sliceSizes := ![1]
  wf := gather_S25600_S25600x1_S25600_n_0_n_n_0_1_1_wf
def gather_S25600_S5120x1_S5120_n_0_n_n_0_1_1 : GatherDims S25600 S5120x1 S5120 where
  offsetDims := []
  collapsedSliceDims := [0]
  operandBatchingDims := []
  startIndicesBatchingDims := []
  startIndexMap := [0]
  indexVectorDim := 1
  sliceSizes := ![1]
  wf := gather_S25600_S5120x1_S5120_n_0_n_n_0_1_1_wf
def gather_S100000x128_S25600x1_S25600x128_1_0_n_n_0_1_1128 : GatherDims S100000x128 S25600x1 S25600x128 where
  offsetDims := [1]
  collapsedSliceDims := [0]
  operandBatchingDims := []
  startIndicesBatchingDims := []
  startIndexMap := [0]
  indexVectorDim := 1
  sliceSizes := ![1, 128]
  wf := gather_S100000x128_S25600x1_S25600x128_1_0_n_n_0_1_1128_wf
def gather_S100000x128_S5120x1_S5120x128_1_0_n_n_0_1_1128 : GatherDims S100000x128 S5120x1 S5120x128 where
  offsetDims := [1]
  collapsedSliceDims := [0]
  operandBatchingDims := []
  startIndicesBatchingDims := []
  startIndexMap := [0]
  indexVectorDim := 1
  sliceSizes := ![1, 128]
  wf := gather_S100000x128_S5120x1_S5120x128_1_0_n_n_0_1_1128_wf
def dot_S512x5120_S5120x128_S512x128_1_0_0_1_n_n : DotDims S512x5120 S5120x128 S512x128 where
  lhsContracting := [1]
  rhsContracting := [0]
  lhsNonContracting := [0]
  rhsNonContracting := [1]
  lhsBatch := []
  rhsBatch := []
  wf := dot_S512x5120_S5120x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def gather_S5120x128_S5120x1_S5120x128_1_0_n_n_0_1_1128 : GatherDims S5120x128 S5120x1 S5120x128 where
  offsetDims := [1]
  collapsedSliceDims := [0]
  operandBatchingDims := []
  startIndicesBatchingDims := []
  startIndexMap := [0]
  indexVectorDim := 1
  sliceSizes := ![1, 128]
  wf := gather_S5120x128_S5120x1_S5120x128_1_0_n_n_0_1_1128_wf
def gather_S5120x128_S512x1_S512x128_1_0_n_n_0_1_1128 : GatherDims S5120x128 S512x1 S512x128 where
  offsetDims := [1]
  collapsedSliceDims := [0]
  operandBatchingDims := []
  startIndicesBatchingDims := []
  startIndexMap := [0]
  indexVectorDim := 1
  sliceSizes := ![1, 128]
  wf := gather_S5120x128_S512x1_S512x128_1_0_n_n_0_1_1128_wf
def dot_S128x5120_S5120x128_S128x128_1_0_0_1_n_n : DotDims S128x5120 S5120x128 S128x128 where
  lhsContracting := [1]
  rhsContracting := [0]
  lhsNonContracting := [0]
  rhsNonContracting := [1]
  lhsBatch := []
  rhsBatch := []
  wf := dot_S128x5120_S5120x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg4) S512x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S25600x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg7) S128x5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5120x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S128x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S25600 : Shape := ⟨1, ![25600]⟩
abbrev S5120 : Shape := ⟨1, ![5120]⟩
abbrev S5120x25600 : Shape := ⟨2, ![5120, 25600]⟩
abbrev S512 : Shape := ⟨1, ![512]⟩
abbrev S512x5120 : Shape := ⟨2, ![512, 5120]⟩
abbrev S256x128 : Shape := ⟨2, ![256, 128]⟩
abbrev S_ : Shape := ⟨0, ![]⟩
abbrev S25600x1 : Shape := ⟨2, ![25600, 1]⟩
abbrev S25600x128 : Shape := ⟨2, ![25600, 128]⟩
abbrev S5120x128 : Shape := ⟨2, ![5120, 128]⟩
abbrev S5120x1 : Shape := ⟨2, ![5120, 1]⟩
abbrev S5120x256 : Shape := ⟨2, ![5120, 256]⟩
abbrev S512x128 : Shape := ⟨2, ![512, 128]⟩
abbrev S512x1 : Shape := ⟨2, ![512, 1]⟩
abbrev S512x256 : Shape := ⟨2, ![512, 256]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S25600, .i32⟩
  | .hbm, ⟨2, _⟩ => ⟨S5120, .i32⟩
  | .hbm, ⟨3, _⟩ => ⟨S25600, .i32⟩
  | .hbm, ⟨4, _⟩ => ⟨S5120x25600, .f32⟩
  | .hbm, ⟨5, _⟩ => ⟨S512, .i32⟩
  | .hbm, ⟨6, _⟩ => ⟨S5120, .i32⟩
  | .hbm, ⟨7, _⟩ => ⟨S512x5120, .f32⟩
  | .hbm, ⟨8, _⟩ => ⟨S256x128, .f32⟩
  | .hbm, ⟨9, _⟩ => ⟨S256x128, .f32⟩
  | .hbm, ⟨10, _⟩ => ⟨S_, .i32⟩
  | .hbm, ⟨11, _⟩ => ⟨S25600, .i32⟩
  | .hbm, ⟨12, _⟩ => ⟨S25600, .i1⟩
  | .hbm, ⟨13, _⟩ => ⟨S_, .i32⟩
  | .hbm, ⟨14, _⟩ => ⟨S25600, .i32⟩
  | .hbm, ⟨15, _⟩ => ⟨S25600, .i32⟩
  | .hbm, ⟨16, _⟩ => ⟨S25600, .i32⟩
  | .hbm, ⟨17, _⟩ => ⟨S25600x1, .i32⟩
  | .hbm, ⟨18, _⟩ => ⟨S25600x128, .f32⟩
  | .hbm, ⟨19, _⟩ => ⟨S_, .i32⟩
  | .hbm, ⟨20, _⟩ => ⟨S25600, .i32⟩
  | .hbm, ⟨21, _⟩ => ⟨S25600, .i1⟩
  | .hbm, ⟨22, _⟩ => ⟨S_, .i32⟩
  | .hbm, ⟨23, _⟩ => ⟨S25600, .i32⟩
  | .hbm, ⟨24, _⟩ => ⟨S25600, .i32⟩
  | .hbm, ⟨25, _⟩ => ⟨S25600, .i32⟩
  | .hbm, ⟨26, _⟩ => ⟨S25600x1, .i32⟩
  | .hbm, ⟨27, _⟩ => ⟨S25600x128, .f32⟩
  | .hbm, ⟨28, _⟩ => ⟨S5120x128, .f32⟩
  | .hbm, ⟨29, _⟩ => ⟨S_, .i32⟩
  | .hbm, ⟨30, _⟩ => ⟨S5120, .i32⟩
  | .hbm, ⟨31, _⟩ => ⟨S5120, .i1⟩
  | .hbm, ⟨32, _⟩ => ⟨S_, .i32⟩
  | .hbm, ⟨33, _⟩ => ⟨S5120, .i32⟩
  | .hbm, ⟨34, _⟩ => ⟨S5120, .i32⟩
  | .hbm, ⟨35, _⟩ => ⟨S5120, .i32⟩
  | .hbm, ⟨36, _⟩ => ⟨S5120x1, .i32⟩
  | .hbm, ⟨37, _⟩ => ⟨S5120x128, .f32⟩
  | .hbm, ⟨38, _⟩ => ⟨S5120x256, .f32⟩
  | .hbm, ⟨39, _⟩ => ⟨S5120x128, .f32⟩
  | .hbm, ⟨40, _⟩ => ⟨S_, .f32⟩
  | .hbm, ⟨41, _⟩ => ⟨S5120x128, .f32⟩
  | .hbm, ⟨42, _⟩ => ⟨S5120x128, .f32⟩
  | .hbm, ⟨43, _⟩ => ⟨S_, .i32⟩
  | .hbm, ⟨44, _⟩ => ⟨S5120, .i32⟩
  | .hbm, ⟨45, _⟩ => ⟨S5120, .i1⟩
  | .hbm, ⟨46, _⟩ => ⟨S_, .i32⟩
  | .hbm, ⟨47, _⟩ => ⟨S5120, .i32⟩
  | .hbm, ⟨48, _⟩ => ⟨S5120, .i32⟩
  | .hbm, ⟨49, _⟩ => ⟨S5120, .i32⟩
  | .hbm, ⟨50, _⟩ => ⟨S5120x1, .i32⟩
  | .hbm, ⟨51, _⟩ => ⟨S5120x128, .f32⟩
  | .hbm, ⟨52, _⟩ => ⟨S512x128, .f32⟩
  | .hbm, ⟨53, _⟩ => ⟨S_, .i32⟩
  | .hbm, ⟨54, _⟩ => ⟨S512, .i32⟩
  | .hbm, ⟨55, _⟩ => ⟨S512, .i1⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S512, .i32⟩
  | .hbm, ⟨60, _⟩ => ⟨S512x1, .i32⟩
  | .hbm, ⟨61, _⟩ => ⟨S512x128, .f32⟩
  | .hbm, ⟨62, _⟩ => ⟨S512x256, .f32⟩
  | .hbm, ⟨63, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]

class Facts₀ : Prop where
  bcast_S_S25600 : S_.BroadcastsInDim S25600 (![] : Fin 0 → Fin S25600.rank)
  bcast_S25600_S25600x1_0 : S25600.BroadcastsInDim S25600x1 (![0] : Fin 1 → Fin S25600x1.rank)
  bcast_S_S5120 : S_.BroadcastsInDim S5120 (![] : Fin 0 → Fin S5120.rank)
  bcast_S5120_S5120x1_0 : S5120.BroadcastsInDim S5120x1 (![0] : Fin 1 → Fin S5120x1.rank)
  concatenates_S5120x128_S5120x128_S5120x256_d1 : Shape.Concatenates [S5120x128, S5120x128] S5120x256 1
  bcast_S_S5120x128 : S_.BroadcastsInDim S5120x128 (![] : Fin 0 → Fin S5120x128.rank)
  bcast_S_S512 : S_.BroadcastsInDim S512 (![] : Fin 0 → Fin S512.rank)
  bcast_S512_S512x1_0 : S512.BroadcastsInDim S512x1 (![0] : Fin 1 → Fin S512x1.rank)
  concatenates_S512x128_S512x128_S512x256_d1 : Shape.Concatenates [S512x128, S512x128] S512x256 1
  gather_S100000x128_S25600x1_S25600x128_1_0_n_n_0_1_1128_wf : GatherDims.WF S100000x128 S25600x1 S25600x128 [1] [0] [] [0] [] 1 ![1, 128]
  gather_S25600x128_S25600x1_S25600x128_1_0_n_n_0_1_1128_wf : GatherDims.WF S25600x128 S25600x1 S25600x128 [1] [0] [] [0] [] 1 ![1, 128]
  dot_S5120x25600_S25600x128_S5120x128_1_0_0_1_n_n_wf : DotDims.WF S5120x25600 S25600x128 S5120x128 [1] [0] [0] [1] [] []
  gather_S25600x128_S5120x1_S5120x128_1_0_n_n_0_1_1128_wf : GatherDims.WF S25600x128 S5120x1 S5120x128 [1] [0] [] [0] [] 1 ![1, 128]
  dot_S5120x256_S256x128_S5120x128_1_0_0_1_n_n_wf : DotDims.WF S5120x256 S256x128 S5120x128 [1] [0] [0] [1] [] []
  gather_S5120x128_S5120x1_S5120x128_1_0_n_n_0_1_1128_wf : GatherDims.WF S5120x128 S5120x1 S5120x128 [1] [0] [] [0] [] 1 ![1, 128]
  dot_S512x5120_S5120x128_S512x128_1_0_0_1_n_n_wf : DotDims.WF S512x5120 S5120x128 S512x128 [1] [0] [0] [1] [] []
  gather_S5120x128_S512x1_S512x128_1_0_n_n_0_1_1128_wf : GatherDims.WF S5120x128 S512x1 S512x128 [1] [0] [] [0] [] 1 ![1, 128]
  dot_S512x256_S256x128_S512x128_1_0_0_1_n_n_wf : DotDims.WF S512x256 S256x128 S512x128 [1] [0] [0] [1] [] []

variable [Facts₀]

def gather_S100000x128_S25600x1_S25600x128_1_0_n_n_0_1_1128 : GatherDims S100000x128 S25600x1 S25600x128 where
  offsetDims := [1]
  collapsedSliceDims := [0]
  operandBatchingDims := []
  startIndicesBatchingDims := []
  startIndexMap := [0]
  indexVectorDim := 1
  sliceSizes := ![1, 128]
  wf := gather_S100000x128_S25600x1_S25600x128_1_0_n_n_0_1_1128_wf
def gather_S25600x128_S25600x1_S25600x128_1_0_n_n_0_1_1128 : GatherDims S25600x128 S25600x1 S25600x128 where
  offsetDims := [1]
  collapsedSliceDims := [0]
  operandBatchingDims := []
  startIndicesBatchingDims := []
  startIndexMap := [0]
  indexVectorDim := 1
  sliceSizes := ![1, 128]
  wf := gather_S25600x128_S25600x1_S25600x128_1_0_n_n_0_1_1128_wf
def dot_S5120x25600_S25600x128_S5120x128_1_0_0_1_n_n : DotDims S5120x25600 S25600x128 S5120x128 where
  lhsContracting := [1]
  rhsContracting := [0]
  lhsNonContracting := [0]
  rhsNonContracting := [1]
  lhsBatch := []
  rhsBatch := []
  wf := dot_S5120x25600_S25600x128_S5120x128_1_0_0_1_n_n_wf
def gather_S25600x128_S5120x1_S5120x128_1_0_n_n_0_1_1128 : GatherDims S25600x128 S5120x1 S5120x128 where
  offsetDims := [1]
  collapsedSliceDims := [0]
  operandBatchingDims := []
  startIndicesBatchingDims := []
  startIndexMap := [0]
  indexVectorDim := 1
  sliceSizes := ![1, 128]
  wf := gather_S25600x128_S5120x1_S5120x128_1_0_n_n_0_1_1128_wf
def dot_S5120x256_S256x128_S5120x128_1_0_0_1_n_n : DotDims S5120x256 S256x128 S5120x128 where
  lhsContracting := [1]
  rhsContracting := [0]
  lhsNonContracting := [0]
  rhsNonContracting := [1]
  lhsBatch := []
  rhsBatch := []
  wf := dot_S5120x256_S256x128_S5120x128_1_0_0_1_n_n_wf
def gather_S5120x128_S5120x1_S5120x128_1_0_n_n_0_1_1128 : GatherDims S5120x128 S5120x1 S5120x128 where
  offsetDims := [1]
  collapsedSliceDims := [0]
  operandBatchingDims := []
  startIndicesBatchingDims := []
  startIndexMap := [0]
  indexVectorDim := 1
  sliceSizes := ![1, 128]
  wf := gather_S5120x128_S5120x1_S5120x128_1_0_n_n_0_1_1128_wf
def dot_S512x5120_S5120x128_S512x128_1_0_0_1_n_n : DotDims S512x5120 S5120x128 S512x128 where
  lhsContracting := [1]
  rhsContracting := [0]
  lhsNonContracting := [0]
  rhsNonContracting := [1]
  lhsBatch := []
  rhsBatch := []
  wf := dot_S512x5120_S5120x128_S512x128_1_0_0_1_n_n_wf
def gather_S5120x128_S512x1_S512x128_1_0_n_n_0_1_1128 : GatherDims S5120x128 S512x1 S512x128 where
  offsetDims := [1]
  collapsedSliceDims := [0]
  operandBatchingDims := []
  startIndicesBatchingDims := []
  startIndexMap := [0]
  indexVectorDim := 1
  sliceSizes := ![1, 128]
  wf := gather_S5120x128_S512x1_S512x128_1_0_n_n_0_1_1128_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.KB.R0Base.lean ====
/-
  The first aggregation region, its shared vocabulary: each window's block at a grid point (i, k) read off the
  array the region is entered with; the two conditions the body branches on — k = 0, where the running sum is
  reset, and k = 4, the last step of a row block, where the projection is written —, decided over the grid;
  the staging buffers the body is handed at a point; and the region's invariant before the first point.
-/
import proofs.«429747_j42236708388901_3_alg».proof.Proof.Gen.Kernel.Launch
import proofs.«429747_j42236708388901_3_alg».proof.Proof.Gen.Kernel.Skeleton
import proofs.«429747_j42236708388901_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything here is stated at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is the entry contents and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The reset's condition, from the grid coordinates: k = 0. -/
abbrev cond0_0 (i : grid0.Coords) : Prop := (Scalar.cmpi .ne (Scalar.extui (Scalar.cmpi .eq (BitVec.ofNat 32 (i 1).val) 0#32)) 0#32) = 1#1
/-- It holds at the points ≡ 0 (mod 5). -/
theorem hcond0_0 : ∀ t : Fin cfg0.N, cond0_0 (grid0.coords t) ↔ t.val % 5 = 0 :=
  (by decide +kernel : ∀ t : Fin grid0.N, cond0_0 (grid0.coords t) ↔ t.val % 5 = 0)
/-- The projection's condition: k = 4. -/
abbrev cond0_1 (i : grid0.Coords) : Prop := (Scalar.cmpi .ne (Scalar.extui (Scalar.cmpi .eq (BitVec.ofNat 32 (i 1).val) 4#32)) 0#32) = 1#1
/-- It holds at the points ≡ 4 (mod 5). -/
theorem hcond0_1 : ∀ t : Fin cfg0.N, cond0_1 (grid0.coords t) ↔ t.val % 5 = 4 :=
  (by decide +kernel : ∀ t : Fin grid0.N, cond0_1 (grid0.coords t) ↔ t.val % 5 = 4)

/-! ## The buffers the body is handed -/

abbrev ms0_0 (t : Fin cfg0.N) : Memref sig .tc .vmem S512x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S25600x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- The running sum's buffer: a whole scoped buffer of the kernel's own. -/
abbrev scM0 : Memref sig .tc .vmem S512x128 .f32 := Memref.whole cc0_scratch0
/-- One staging buffer of the output window and the running sum's buffer, as views through which contents are stated. -/
abbrev VO0 : View sig .tc .vmem S512x128 .f32 := (Memref.whole cc0_stg5_0 : Memref sig .tc .vmem S512x128 .f32).view
abbrev VS0 : View sig .tc .vmem S512x128 .f32 := scM0.view

/-- The scoped buffers of the other region, which this region never touches: each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region's invariant before the first point: the running sum's buffer at anything, the other region's scoped
    buffers at anything, the generator register at some state. -/
theorem PhiA0_eq (c : Dev nD) :
    (Pipeline.ΦA spec0 c : sProp 𝕄)
      = iprop(iprop((∃ d, owns (c : Thread nD τ) scM0 fullShare d) ∗ restS0 (F := F) c) ∗ (∃ r, prngReg c r)) := by
  unfold Pipeline.ΦA restS0; rw [scopedRest0_eq]; simp only [scM0, owns_whole]; try rfl

end Cert.Kernel.Sage

end
-- ==== Proof.KB.R0RunA.lean ====
/-
  The first aggregation region's body at the first step of a row block (k = 0): the running sum is reset to zero, the step's product is added, and the sum so far is copied to the output's buffer.
-/
import proofs.«429747_j42236708388901_3_alg».proof.Proof.KB.R0Base

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output's staging buffer and in the running sum's buffer, as pieces (last
    first), with the proof that on whole buffers — the inputs' at their contents, the output's at anything, the
    running sum's at anything — the body runs to the continuation holding the inputs' as they were and
    those two with the pieces written; each branch is decided by the case's hypotheses. -/
noncomputable def kernelRun0_A (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__mean_agg_kernel i arg2 harg2 arg3 harg3 arg4 harg4 arg5 harg5 arg6 harg6 arg7 harg7 arg8 harg8) K } := by
  refine ⟨?_, ?_, fun E K => ?run⟩
  case run =>
    simp only [cc0__mean_agg_kernel_eq_skeleton]; unfold cc0__mean_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Sage

end
-- ==== Proof.KB.R0RunB.lean ====
/-
  The first aggregation region's body at a middle step of a row block (0 < k < 4): the step's product is added to the running sum, and the sum so far is copied to the output's buffer.
-/
import proofs.«429747_j42236708388901_3_alg».proof.Proof.KB.R0RunA

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output's staging buffer and in the running sum's buffer, as pieces (last
    first), with the proof that on whole buffers — the inputs' at their contents, the output's at anything, the
    running sum's at what the step before left — the body runs to the continuation holding the inputs' as they were and
    those two with the pieces written; each branch is decided by the case's hypotheses. -/
noncomputable def kernelRun0_B (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__mean_agg_kernel i arg2 harg2 arg3 harg3 arg4 harg4 arg5 harg5 arg6 harg6 arg7 harg7 arg8 harg8) K } := by
  refine ⟨?_, ?_, fun E K => ?run⟩
  case run =>
    simp only [cc0__mean_agg_kernel_eq_skeleton]; unfold cc0__mean_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Sage

end
-- ==== Proof.KB.R0RunC.lean ====
/-
  The first aggregation region's body at the last step of a row block (k = 4): the step's product is added to the running sum, and the output's buffer receives the rectified projection of the finished sum beside the kept rows.
-/
import proofs.«429747_j42236708388901_3_alg».proof.Proof.KB.R0RunB

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output's staging buffer and in the running sum's buffer, as pieces (last
    first), with the proof that on whole buffers — the inputs' at their contents, the output's at anything, the
    running sum's at what the step before left — the body runs to the continuation holding the inputs' as they were and
    those two with the pieces written; each branch is decided by the case's hypotheses. -/
noncomputable def kernelRun0_C (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__mean_agg_kernel i arg2 harg2 arg3 harg3 arg4 harg4 arg5 harg5 arg6 harg6 arg7 harg7 arg8 harg8) K } := by
  refine ⟨?_, ?_, fun E K => ?run⟩
  case run =>
    simp only [cc0__mean_agg_kernel_eq_skeleton]; unfold cc0__mean_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Sage

end
-- ==== Proof.KB.R0Frame.lean ====
/-
  The first aggregation region, point by point. What the body leaves in the output's staging buffer and in the
  running sum's buffer at each of the three kinds of step (first, middle, last of a row block); the two buffers
  after every grid point by recursion on the point — a step that is not the first of its row block adds to what the
  step before left in the running sum's buffer —; the region's invariant (after a point the running sum's buffer
  holds exactly that); the proof data; and the body's obligation at every point.
-/
import proofs.«429747_j42236708388901_3_alg».proof.Proof.KB.R0RunC

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for the output's buffer tile it, so they cover it. -/
theorem cover0_A_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) (y : S512x128.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL (kernelRun0_A c i arg2 harg2 arg3 harg3 arg4 harg4 arg5 harg5 arg6 harg6 arg7 harg7 arg8 harg8 hc0 hc1 x0 x1 x2 x3 x4).1 S512x128.size (by sl_kernel_rfl) y

/-- What case A leaves in the output's staging buffer: its pieces read back. -/
def out0_A_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) : Vec F S512x128 .f32 :=
  VO0.read (Elt F) (VO0.writes (Elt F) VO0.junk (kernelRun0_A c i arg2 harg2 arg3 harg3 arg4 harg4 arg5 harg5 arg6 harg6 arg7 harg7 arg8 harg8 hc0 hc1 x0 x1 x2 x3 x4).1)

/-- Case A's pieces for the running sum's buffer tile it, so they cover it. -/
theorem scover0_A (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) (y : S512x128.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S512x128.size (by sl_kernel_rfl) y

/-- What case A leaves in the running sum's buffer: its pieces read back. -/
def sout0_A (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) : Vec F S512x128 .f32 :=
  VS0.read (Elt F) (VS0.writes (Elt F) VS0.junk (kernelRun0_A c i arg2 harg2 arg3 harg3 arg4 harg4 arg5 harg5 arg6 harg6 arg7 harg7 arg8 harg8 hc0 hc1 x0 x1 x2 x3 x4).2.1)

/-- Case B's pieces for the output's buffer tile it, so they cover it. -/
theorem cover0_B_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) (y : S512x128.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S512x128.size (by sl_kernel_rfl) y

/-- What case B leaves in the output's staging buffer: its pieces read back. -/
def out0_B_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) : Vec F S512x128 .f32 :=
  VO0.read (Elt F) (VO0.writes (Elt F) VO0.junk (kernelRun0_B c i arg2 harg2 arg3 harg3 arg4 harg4 arg5 harg5 arg6 harg6 arg7 harg7 arg8 harg8 hc0 hc1 x0 x1 x2 x3 x4 xs0).1)

/-- Case B's pieces for the running sum's buffer tile it, so they cover it. -/
theorem scover0_B (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) (y : S512x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S512x128.size (by sl_kernel_rfl) y

/-- What case B leaves in the running sum's buffer: its pieces read back. -/
def sout0_B (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) : Vec F S512x128 .f32 :=
  VS0.read (Elt F) (VS0.writes (Elt F) VS0.junk (kernelRun0_B c i arg2 harg2 arg3 harg3 arg4 harg4 arg5 harg5 arg6 harg6 arg7 harg7 arg8 harg8 hc0 hc1 x0 x1 x2 x3 x4 xs0).2.1)

/-- Case C's pieces for the output's buffer tile it, so they cover it. -/
theorem cover0_C_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) (y : S512x128.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S512x128.size (by sl_kernel_rfl) y

/-- What case C leaves in the output's staging buffer: its pieces read back. -/
def out0_C_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) : Vec F S512x128 .f32 :=
  VO0.read (Elt F) (VO0.writes (Elt F) VO0.junk (kernelRun0_C c i arg2 harg2 arg3 harg3 arg4 harg4 arg5 harg5 arg6 harg6 arg7 harg7 arg8 harg8 hc0 hc1 x0 x1 x2 x3 x4 xs0).1)

/-- Case C's pieces for the running sum's buffer tile it, so they cover it. -/
theorem scover0_C (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) (y : S512x128.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S512x128.size (by sl_kernel_rfl) y

/-- What case C leaves in the running sum's buffer: its pieces read back. -/
def sout0_C (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) : Vec F S512x128 .f32 :=
  VS0.read (Elt F) (VS0.writes (Elt F) VS0.junk (kernelRun0_C c i arg2 harg2 arg3 harg3 arg4 harg4 arg5 harg5 arg6 harg6 arg7 harg7 arg8 harg8 hc0 hc1 x0 x1 x2 x3 x4 xs0).2.1)

/-! ## The two buffers after each point -/

/-- What the output's staging buffer and the running sum's buffer hold after the body at position n: the case the
    position is in (by its residue modulo 5), run at the point's buffers and input blocks, the running sum's buffer
    at what position n − 1 left when the step is not the first of its row block. -/
def outsAt0 (c : Dev nD) : (n : ℕ) → n < cfg0.N → Vec F S512x128 .f32 × Vec F S512x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 5 = 0 then
      if h1 : (n + 1) % 5 = 4 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 5 = 4 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At a first step of a row block. -/
theorem outsAt0_A (c : Dev nD) (t : Fin cfg0.N) (h0 : t.val % 5 = 0) (h1 : ¬t.val % 5 = 4) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- At a middle step: over what the step before left. -/
theorem outsAt0_B (c : Dev nD) (t : Fin cfg0.N) (h0 : ¬t.val % 5 = 0) (h1 : ¬t.val % 5 = 4) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the step before left. -/
theorem outsAt0_C (c : Dev nD) (t : Fin cfg0.N) (h0 : ¬t.val % 5 = 0) (h1 : t.val % 5 = 4) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the start the running sum's buffer at anything; afterwards at what position n − 1 left in
    it; throughout, the other region's scoped buffers at anything and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ restS0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ restS0 (F := F) c) ∗ (∃ r, prngReg c r)) := by
  cases n with
  | zero => exact absurd rfl hz
  | succ n => rfl

/-! ## The proof data -/

/-- The arrays as the region finds them; after the body at a point each input's buffer at its block and the output's
    at what the point's case leaves; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4800000 in
/-- The body at any point: the inputs' buffers hold their blocks; the residue of the position modulo 5 says which case
    the point is in; the invariant hands the body the running sum's buffer at what the step before left (at anything at
    the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5]
  have hN : t.val < 50 := lt_of_lt_of_eq t.isLt (show cfg0.N = 50 from N_0)
  by_cases h0 : t.val % 5 = 0
  · by_cases h1 : t.val % 5 = 4
    · exfalso; omega
    · rw [outsAt0_A V c t h0 h1]
      unfold out0_A_5 sout0_A; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c _ _ _ _ _ _ _ _ _ _ _ _ _ _ _ _ _ _ _ _ _ _)
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c _ _ _ _ _ _ _ _ _ _ _ _ _ _ _ _ _ _ _ _ _ _)
  · have hz : t.val ≠ 0 := fun e => h0 (by rw [e])
    by_cases h1 : t.val % 5 = 4
    · rw [outsAt0_C V c t h0 h1]
      unfold out0_C_5 sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [outsAt0_B V c t h0 h1]
      unfold out0_B_5 sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back: the running sum's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 50 := N_0; omega), PhiA0_eq]
  iintro ⟨⟨HS0, HR⟩, Hg⟩
  isplitl [HS0 HR]
  · isplitl [HS0]
    · iexists _; iexact HS0
    iexact HR
  iexact Hg

end Cert.Kernel.Sage

end
-- ==== Proof.KB.R1Base.lean ====
/-
  The second aggregation region, its shared vocabulary: each window's block at a grid point read off the array the
  region is entered with; the body's two conditions, both k = 0, which every point of this region's grid meets (a
  row block is one step); the staging buffers the body is handed; and the region's invariant, the same before every
  point: the running sum's buffer at anything (every point resets it before reading it).
-/
import proofs.«429747_j42236708388901_3_alg».proof.Proof.Gen.Kernel.Launch
import proofs.«429747_j42236708388901_3_alg».proof.Proof.Gen.Kernel.Skeleton
import proofs.«429747_j42236708388901_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The reset's condition, from the grid coordinates: k = 0. -/
abbrev cond1_0 (i : grid1.Coords) : Prop := (Scalar.cmpi .ne (Scalar.extui (Scalar.cmpi .eq (BitVec.ofNat 32 (i 1).val) 0#32)) 0#32) = 1#1
/-- It holds at every point of this grid. -/
theorem hcond1_0 : ∀ t : Fin cfg1.N, cond1_0 (grid1.coords t) :=
  (by decide +kernel : ∀ t : Fin grid1.N, cond1_0 (grid1.coords t))

abbrev ms1_0 (t : Fin cfg1.N) : Memref sig .tc .vmem S128x5120 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5120x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
/-- The running sum's buffer: a whole scoped buffer of the kernel's own. -/
abbrev scM1 : Memref sig .tc .vmem S128x128 .f32 := Memref.whole cc1_scratch0
/-- One staging buffer of the output window, as a view through which contents are stated. -/
abbrev VO1 : View sig .tc .vmem S128x128 .f32 := (Memref.whole cc1_stg5_0 : Memref sig .tc .vmem S128x128 .f32).view

/-- The region's invariant: the other region's scoped buffers at anything, the running sum's buffer at anything, the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Sage

end
-- ==== Proof.KB.R1Run.lean ====
/-
  The second aggregation region's body at a grid point: the running sum is reset to zero, the row block's whole
  product is added, and the output's buffer receives the projection of that sum beside the kept rows.
-/
import proofs.«429747_j42236708388901_3_alg».proof.Proof.KB.R1Base

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output's staging buffer and in the running sum's buffer, as pieces (last
    first), with the proof that on whole buffers — the inputs' at their contents, the output's and the running sum's
    at anything — the body runs to the continuation holding the inputs' as they were and those two with the pieces
    written; both branches are taken. -/
noncomputable def kernelRun1 (c : Dev nD) (i : grid1.Coords) (arg2 : Memref sig .tc .vmem S128x5120 .f32) (harg2 : arg2.IsWhole) (arg3 : Memref sig .tc .vmem S5120x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (hc0 : cond1_0 i)
    (x0 : Vec F S128x5120 .f32) (x1 : Vec F S5120x128 .bf16) (x2 : Vec F S128x128 .f32) (x3 : Vec F S128x128 .f32) (x4 : Vec F S128x128 .f32) :
    Σ' (L5 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc1__mean_agg_kernel i arg2 harg2 arg3 harg3 arg4 harg4 arg5 harg5 arg6 harg6 arg7 harg7 arg8 harg8) K } := by
  refine ⟨?_, ?_, fun E K => ?run⟩
  case run =>
    simp only [cc1__mean_agg_kernel_eq_skeleton]; unfold cc1__mean_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Sage

end
-- ==== Proof.KB.R1Frame.lean ====
/-
  The second aggregation region, point by point: what the body leaves in the output's staging buffer at a grid point
  (one function of the point's input blocks: nothing is carried from point to point), the proof data, and the body's
  obligation at every point.
-/
import proofs.«429747_j42236708388901_3_alg».proof.Proof.KB.R1Run

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's pieces for the output's buffer tile it, so they cover it. -/
theorem cover1_5 (c : Dev nD) (i : grid1.Coords) (arg2 : Memref sig .tc .vmem S128x5120 .f32) (harg2 : arg2.IsWhole) (arg3 : Memref sig .tc .vmem S5120x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (hc0 : cond1_0 i)
    (x0 : Vec F S128x5120 .f32) (x1 : Vec F S5120x128 .bf16) (x2 : Vec F S128x128 .f32) (x3 : Vec F S128x128 .f32) (x4 : Vec F S128x128 .f32) (y : S128x128.Idx) :
    ∃ pc ∈ (kernelRun1 c i arg2 harg2 arg3 harg3 arg4 harg4 arg5 harg5 arg6 harg6 arg7 harg7 arg8 harg8 hc0 x0 x1 x2 x3 x4).1, y ∈ pc.1.set :=
  View.cover_of_tiledL (kernelRun1 c i arg2 harg2 arg3 harg3 arg4 harg4 arg5 harg5 arg6 harg6 arg7 harg7 arg8 harg8 hc0 x0 x1 x2 x3 x4).1 S128x128.size (by sl_kernel_rfl) y

/-- What the body leaves in the output's staging buffer: its pieces read back. -/
def out1_5 (c : Dev nD) (i : grid1.Coords) (arg2 : Memref sig .tc .vmem S128x5120 .f32) (harg2 : arg2.IsWhole) (arg3 : Memref sig .tc .vmem S5120x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (hc0 : cond1_0 i)
    (x0 : Vec F S128x5120 .f32) (x1 : Vec F S5120x128 .bf16) (x2 : Vec F S128x128 .f32) (x3 : Vec F S128x128 .f32) (x4 : Vec F S128x128 .f32) : Vec F S128x128 .f32 :=
  VO1.read (Elt F) (VO1.writes (Elt F) VO1.junk (kernelRun1 c i arg2 harg2 arg3 harg3 arg4 harg4 arg5 harg5 arg6 harg6 arg7 harg7 arg8 harg8 hc0 x0 x1 x2 x3 x4).1)

/-- The output's staging buffer after the body at point t. -/
def outAt1 (c : Dev nD) (t : Fin cfg1.N) : Vec F S128x128 .f32 :=
  out1_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (hcond1_0 t) (iblk1 V c 0 t) (iblk1 V c 1 t) (iblk1 V c 2 t) (iblk1 V c 3 t) (iblk1 V c 4 t)

/-- The arrays as the region finds them; after the body at a point each input's buffer at its block and the output's
    at what the body leaves; the launch's invariant at every point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4800000 in
/-- The body at any point: the inputs' buffers hold their blocks; the invariant hands the body the running sum's
    buffer at anything and takes it back at anything. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl]
  rw [after1_0, after1_1, after1_2, after1_3, after1_4, after1_5]
  unfold outAt1 out1_5; (try dsimp only)
  rw [PhiA1_eq]
  iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ _ _ (hcond1_0 t) (iblk1 V c 0 t) (iblk1 V c 1 t) (iblk1 V c 2 t) (iblk1 V c 3 t) (iblk1 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%es0, HS0⟩⟩
  isplitl [R0 R1 R2 R3 R4 R5 R6 R7 R8 R9 HS0 Hg]
  · isplitl [R0 R1 R2 R3 R4 R5 R6 R7 R8 R9 HS0]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      unfold owns; iexists _; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Sage

end
-- ==== Proof.KB.KRun.lean ====
/-
  The whole program's run. The contents of the core's buffers between the program's items form a chain: the launch
  memory, then each stretch of host operations applied, then, after an aggregation region, the region's output array
  at what the region's write-backs leave and every other buffer untouched. Each region is entered from the contents
  before it with its proof data stated at exactly those contents; every weakly fair execution terminates, and at the
  end every unscoped buffer holds the last link of the chain — so each argument is as launched, and the result
  array is what the second region's write-backs leave.
-/
import proofs.«429747_j42236708388901_3_alg».proof.Proof.KB.R0Frame
import proofs.«429747_j42236708388901_3_alg».proof.Proof.KB.R1Frame
import proofs.«429747_j42236708388901_3_alg».proof.Proof.Gen.Kernel.Regions
import Idealize.ShloMosaic.Lib.Pipeline.RegionsLoop
import Idealize.ShloMosaic.Lib.Pipeline.FrameSuffix

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at the regions' entries and exits -/

/-- The first region's entry contents, read at the TensorCore's references. -/
abbrev Ve0 : (c : Dev nD) → (b : Ref sig .tc) → Buf (Elt F) ((c : Thread nD τ).loc b) := fun c b => V6 m c b

/-- What the first region leaves: its arrays at what its write-backs leave, every other buffer as entered. -/
def X7 : Outs (F := F) := fun _ r c =>
  Pipeline.withArrays spec0 c (V6 m c) (fun w => (dat0 (Ve0 m) c).arrAt w cfg0.N) (Proc.devRef .tc r)

/-- The second region's entry contents. -/
abbrev Ve1 : (c : Dev nD) → (b : Ref sig .tc) → Buf (Elt F) ((c : Thread nD τ).loc b) := fun c b => V11 m (X7 m) c b

/-- What the two regions leave, by the item after which it is read. -/
def OUTS : Outs (F := F) := fun j r c =>
  if j = 12 then Pipeline.withArrays spec1 c (V11 m (X7 m) c) (fun w => (dat1 (Ve1 m) c).arrAt w cfg1.N) (Proc.devRef .tc r)
  else X7 m j r c

/-- Up to the second region the chain reads only what the first region leaves. -/
theorem V11_OUTS (c : Dev nD) : V11 m (OUTS m) c = V11 m (X7 m) c := rfl

theorem OUTS_7 (c : Dev nD) : OUTS m 7 main_v7 c = (dat0 (Ve0 m) c).arrAt 5 cfg0.N := by
  unfold OUTS; rw [if_neg (by decide)]; unfold X7
  exact Pipeline.withArrays_arr spec0 launch0.win.arr_inj c _ _ 5

theorem OUTS_12 (c : Dev nD) : OUTS m 12 main_v13 c = (dat1 (Ve1 m) c).arrAt 5 cfg1.N := by
  unfold OUTS; rw [if_pos rfl]
  exact Pipeline.withArrays_arr spec1 launch1.win.arr_inj c _ _ 5

/-- The first region's exit contents, read at the TensorCore's references. -/
abbrev Vx0 : (c : Dev nD) → (b : Ref sig .tc) → Buf (Elt F) ((c : Thread nD τ).loc b) := fun c b => V7 m (OUTS m) c b
/-- The second region's exit contents. -/
abbrev Vx1 : (c : Dev nD) → (b : Ref sig .tc) → Buf (Elt F) ((c : Thread nD τ).loc b) := fun c b => V12 m (OUTS m) c b

/-- At region 0's exit each of its arrays holds what the write-backs leave (an input array is never written: it holds
    its entry contents), and every other buffer what it held at entry. -/
theorem hF0 (c : Dev nD) (w : Fin cfg0.W) : (dat0 (Ve0 m) c).arrAt w cfg0.N = Vx0 m c (Pipeline.arrRef spec0 w) := by
  by_cases h5 : w = 5
  · subst h5
    show _ = Function.update (V6 m c) (Proc.devRef .tc main_v7) (OUTS m 7 main_v7 c) (Proc.devRef .tc main_v7)
    rw [Function.update_self]; exact (OUTS_7 m c).symm
  · have hin : (cfg0.win w).isOut = false := by
      match w, h5 with
      | ⟨0, _⟩, _ => rfl
      | ⟨1, _⟩, _ => rfl
      | ⟨2, _⟩, _ => rfl
      | ⟨3, _⟩, _ => rfl
      | ⟨4, _⟩, _ => rfl
      | ⟨5, _⟩, h => exact absurd rfl h
    rw [(dat0 (Ve0 m) c).arrAt_in w hin, A_eq0]
    exact (V7_of m (OUTS m) c (Pipeline.arrRef spec0 w)
      (fun h => h5 (launch0.win.arr_inj ((List.mem_singleton.mp h).trans (rfl : main_v7 = Pipeline.arrRef spec0 5))))).symm
theorem hrest0 (c : Dev nD) : ∀ b, b ∉ Finset.univ.image (Pipeline.arrRef spec0) → Vx0 m c b = Ve0 m c b :=
  fun b hb => V7_of m (OUTS m) c b (fun h => hb (Finset.mem_image.mpr ⟨5, Finset.mem_univ _, (List.mem_singleton.mp h).symm⟩))

/-- At region 1's exit each of its arrays holds what the write-backs leave (an input array is never written: it holds
    its entry contents), and every other buffer what it held at entry. -/
theorem hF1 (c : Dev nD) (w : Fin cfg1.W) : (dat1 (Ve1 m) c).arrAt w cfg1.N = Vx1 m c (Pipeline.arrRef spec1 w) := by
  by_cases h5 : w = 5
  · subst h5
    show _ = Function.update (V11 m (OUTS m) c) (Proc.devRef .tc main_v13) (OUTS m 12 main_v13 c) (Proc.devRef .tc main_v13)
    rw [Function.update_self]; exact (OUTS_12 m c).symm
  · have hin : (cfg1.win w).isOut = false := by
      match w, h5 with
      | ⟨0, _⟩, _ => rfl
      | ⟨1, _⟩, _ => rfl
      | ⟨2, _⟩, _ => rfl
      | ⟨3, _⟩, _ => rfl
      | ⟨4, _⟩, _ => rfl
      | ⟨5, _⟩, h => exact absurd rfl h
    rw [(dat1 (Ve1 m) c).arrAt_in w hin, A_eq1]
    exact (V12_of m (OUTS m) c (Pipeline.arrRef spec1 w)
      (fun h => h5 (launch1.win.arr_inj ((List.mem_singleton.mp h).trans (rfl : main_v13 = Pipeline.arrRef spec1 5))))).symm
theorem hrest1 (c : Dev nD) : ∀ b, b ∉ Finset.univ.image (Pipeline.arrRef spec1) → Vx1 m c b = Ve1 m c b :=
  fun b hb => V12_of m (OUTS m) c b (fun h => hb (Finset.mem_image.mpr ⟨5, Finset.mem_univ _, (List.mem_singleton.mp h).symm⟩))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold
-- plain definitions in a metavariable's type
set_option backward.isDefEq.respectTransparency.types false in
/-- REGION 0 over the thread state: entered from every unscoped buffer at the contents before it, left at the contents
    after it. Its arrays are split out of the unscoped buffers and put back at what the write-backs leave; the
    generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m (OUTS m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at the contents before it, left at the contents
    after it. Its arrays are split out of the unscoped buffers and put back at what the write-backs leave; the
    generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V11 m (X7 m) c) ∗ R c)
  post c := iprop(StableHlo.held (c : Thread nD τ) (Pipeline.ucRefs τ sig) (V12 m (OUTS m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the second region leaves is the last thread state beside the core owing nothing. -/
theorem hlast (c : Dev nD) : (reg1 (F := F) m).post c
    ⊢ iprop((StableHlo.held (c : Thread nD τ) (Pipeline.ucRefs τ sig) (V12 m (OUTS m) c) ∗ ∃ r, prngReg c r)
        ∗ ∃ W, owes (c : Thread nD τ) (0 : CellTallies nD τ sig Unit) W) := by
  show iprop(StableHlo.held (c : Thread nD τ) (Pipeline.ucRefs τ sig) (V12 m (OUTS m) c) ∗ R c) ⊢ _
  iintro ⟨Hh, Hp, HO⟩
  isplitl [Hh Hp]
  · isplitl [Hh]; · iexact Hh
    iexact Hp
  iexact HO

-- the launch theorem's implicit arguments are found by unifying its conclusion with this one, which takes unfolding plain
-- definitions in a metavariable's type
set_option backward.isDefEq.respectTransparency.types false in
set_option maxHeartbeats 4000000 in
/-- From any memory with zero counters every weakly fair execution of the program terminates, nothing faulting, and every
    final state has every unscoped buffer at the last link of the chain of contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V12 m (OUTS m) c b) := by
  refine Pipeline.θ_run_regions_kit_dev (pcfgs (F := F)) adm (pdats m) () cellOf_inj emb₁ defs₀ 𝒱₀ L lv m ρ main
    (segs m (OUTS m) 𝒱₀ L lv (fun _ c => R c) () (pdats m) (reg0 m) (reg1 m))
    (fun c Q => by
      rewrite [main_chain c, Seg.run_eq_chain,
        show (segs m (OUTS m) 𝒱₀ L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m (OUTS m) c) ∗ ∃ r, prngReg c r))
    (hch := fun c => ⟨.rfl, .rfl, .rfl, .rfl, .rfl, .rfl, .rfl, .rfl, .rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (OUTS m) c b)
    (hfin := fun c s' => by
      iintro ⟨⟨Hh, -⟩, HSI⟩
      unfold StableHlo.held
      imodintro
      iapply (pointsTo_read_all (Pipeline.ucRefs τ sig) (fun b => (((c : Thread nD τ)).1, b)) (V12 m (OUTS m) c) s')
      isplitl [Hh] <;> iassumption)
    (hQ := fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The same run read at the result array and at the arguments: the result holds the last link of the chain there, each
    argument its launch contents (no host operation and no region writes one). -/
theorem run_read : θ_run defs (onTc (τ := τ) (main (F := F))) ⟨m, fun _ => 0, ρ⟩ (fun r => ∀ c : Dev nD,
      r.2.mem ((c.tc : Thread nD τ).loc main_v13) = V12 m (OUTS m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v13 (by decide)),
      (h c _ (mem_uc main_arg0 (by decide))).trans (V12_main_arg0 m (OUTS m) c),
      (h c _ (mem_uc main_arg1 (by decide))).trans (V12_main_arg1 m (OUTS m) c),
      (h c _ (mem_uc main_arg2 (by decide))).trans (V12_main_arg2 m (OUTS m) c),
      (h c _ (mem_uc main_arg3 (by decide))).trans (V12_main_arg3 m (OUTS m) c),
      (h c _ (mem_uc main_arg4 (by decide))).trans (V12_main_arg4 m (OUTS m) c),
      (h c _ (mem_uc main_arg5 (by decide))).trans (V12_main_arg5 m (OUTS m) c),
      (h c _ (mem_uc main_arg6 (by decide))).trans (V12_main_arg6 m (OUTS m) c),
      (h c _ (mem_uc main_arg7 (by decide))).trans (V12_main_arg7 m (OUTS m) c),
      (h c _ (mem_uc main_arg8 (by decide))).trans (V12_main_arg8 m (OUTS m) c),
      (h c _ (mem_uc main_arg9 (by decide))).trans (V12_main_arg9 m (OUTS m) c)⟩) (run_main m ρ)

end Cert.Kernel.Sage

end
-- ==== Proof.KI.R0Base.lean ====
/-
  The first aggregation region, its shared vocabulary: each window's block at a grid point (i, k) read off the
  array the region is entered with; the two conditions the body branches on — k = 0, where the running sum is
  reset, and k = 4, the last step of a row block, where the projection is written —, decided over the grid;
  the staging buffers the body is handed at a point; and the region's invariant before the first point.
-/
import proofs.«429747_j42236708388901_3_alg».proof.Proof.Gen.KernelIdeal.Launch
import proofs.«429747_j42236708388901_3_alg».proof.Proof.Gen.KernelIdeal.Skeleton
import proofs.«429747_j42236708388901_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything here is stated at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is the entry contents and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The reset's condition, from the grid coordinates: k = 0. -/
abbrev cond0_0 (i : grid0.Coords) : Prop := (Scalar.cmpi .ne (Scalar.extui (Scalar.cmpi .eq (BitVec.ofNat 32 (i 1).val) 0#32)) 0#32) = 1#1
/-- It holds at the points ≡ 0 (mod 5). -/
theorem hcond0_0 : ∀ t : Fin cfg0.N, cond0_0 (grid0.coords t) ↔ t.val % 5 = 0 :=
  (by decide +kernel : ∀ t : Fin grid0.N, cond0_0 (grid0.coords t) ↔ t.val % 5 = 0)
/-- The projection's condition: k = 4. -/
abbrev cond0_1 (i : grid0.Coords) : Prop := (Scalar.cmpi .ne (Scalar.extui (Scalar.cmpi .eq (BitVec.ofNat 32 (i 1).val) 4#32)) 0#32) = 1#1
/-- It holds at the points ≡ 4 (mod 5). -/
theorem hcond0_1 : ∀ t : Fin cfg0.N, cond0_1 (grid0.coords t) ↔ t.val % 5 = 4 :=
  (by decide +kernel : ∀ t : Fin grid0.N, cond0_1 (grid0.coords t) ↔ t.val % 5 = 4)

/-! ## The buffers the body is handed -/

abbrev ms0_0 (t : Fin cfg0.N) : Memref sig .tc .vmem S512x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S25600x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- The running sum's buffer: a whole scoped buffer of the kernel's own. -/
abbrev scM0 : Memref sig .tc .vmem S512x128 .f32 := Memref.whole cc0_scratch0
/-- One staging buffer of the output window and the running sum's buffer, as views through which contents are stated. -/
abbrev VO0 : View sig .tc .vmem S512x128 .f32 := (Memref.whole cc0_stg5_0 : Memref sig .tc .vmem S512x128 .f32).view
abbrev VS0 : View sig .tc .vmem S512x128 .f32 := scM0.view

/-- The scoped buffers of the other region, which this region never touches: each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region's invariant before the first point: the running sum's buffer at anything, the other region's scoped
    buffers at anything, the generator register at some state. -/
theorem PhiA0_eq (c : Dev nD) :
    (Pipeline.ΦA spec0 c : sProp 𝕄)
      = iprop(iprop((∃ d, owns (c : Thread nD τ) scM0 fullShare d) ∗ restS0 (F := F) c) ∗ (∃ r, prngReg c r)) := by
  unfold Pipeline.ΦA restS0; rw [scopedRest0_eq]; simp only [scM0, owns_whole]; try rfl

end Cert.KernelIdeal.Sage

end
-- ==== Proof.KI.R0RunA.lean ====
/-
  The first aggregation region's body at the first step of a row block (k = 0): the running sum is reset to zero, the step's product is added, and the sum so far is copied to the output's buffer.
-/
import proofs.«429747_j42236708388901_3_alg».proof.Proof.KI.R0Base

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output's staging buffer and in the running sum's buffer, as pieces (last
    first), with the proof that on whole buffers — the inputs' at their contents, the output's at anything, the
    running sum's at anything — the body runs to the continuation holding the inputs' as they were and
    those two with the pieces written; each branch is decided by the case's hypotheses. -/
noncomputable def kernelRun0_A (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__mean_agg_kernel i arg2 harg2 arg3 harg3 arg4 harg4 arg5 harg5 arg6 harg6 arg7 harg7 arg8 harg8) K } := by
  refine ⟨?_, ?_, fun E K => ?run⟩
  case run =>
    simp only [cc0__mean_agg_kernel_eq_skeleton]; unfold cc0__mean_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Sage

end
-- ==== Proof.KI.R0RunB.lean ====
/-
  The first aggregation region's body at a middle step of a row block (0 < k < 4): the step's product is added to the running sum, and the sum so far is copied to the output's buffer.
-/
import proofs.«429747_j42236708388901_3_alg».proof.Proof.KI.R0RunA

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output's staging buffer and in the running sum's buffer, as pieces (last
    first), with the proof that on whole buffers — the inputs' at their contents, the output's at anything, the
    running sum's at what the step before left — the body runs to the continuation holding the inputs' as they were and
    those two with the pieces written; each branch is decided by the case's hypotheses. -/
noncomputable def kernelRun0_B (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__mean_agg_kernel i arg2 harg2 arg3 harg3 arg4 harg4 arg5 harg5 arg6 harg6 arg7 harg7 arg8 harg8) K } := by
  refine ⟨?_, ?_, fun E K => ?run⟩
  case run =>
    simp only [cc0__mean_agg_kernel_eq_skeleton]; unfold cc0__mean_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Sage

end
-- ==== Proof.KI.R0RunC.lean ====
/-
  The first aggregation region's body at the last step of a row block (k = 4): the step's product is added to the running sum, and the output's buffer receives the rectified projection of the finished sum beside the kept rows.
-/
import proofs.«429747_j42236708388901_3_alg».proof.Proof.KI.R0RunB

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output's staging buffer and in the running sum's buffer, as pieces (last
    first), with the proof that on whole buffers — the inputs' at their contents, the output's at anything, the
    running sum's at what the step before left — the body runs to the continuation holding the inputs' as they were and
    those two with the pieces written; each branch is decided by the case's hypotheses. -/
noncomputable def kernelRun0_C (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__mean_agg_kernel i arg2 harg2 arg3 harg3 arg4 harg4 arg5 harg5 arg6 harg6 arg7 harg7 arg8 harg8) K } := by
  refine ⟨?_, ?_, fun E K => ?run⟩
  case run =>
    simp only [cc0__mean_agg_kernel_eq_skeleton]; unfold cc0__mean_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Sage

end
-- ==== Proof.KI.R0Frame.lean ====
/-
  The first aggregation region, point by point. What the body leaves in the output's staging buffer and in the
  running sum's buffer at each of the three kinds of step (first, middle, last of a row block); the two buffers
  after every grid point by recursion on the point — a step that is not the first of its row block adds to what the
  step before left in the running sum's buffer —; the region's invariant (after a point the running sum's buffer
  holds exactly that); the proof data; and the body's obligation at every point.
-/
import proofs.«429747_j42236708388901_3_alg».proof.Proof.KI.R0RunC

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for the output's buffer tile it, so they cover it. -/
theorem cover0_A_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) (y : S512x128.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL (kernelRun0_A c i arg2 harg2 arg3 harg3 arg4 harg4 arg5 harg5 arg6 harg6 arg7 harg7 arg8 harg8 hc0 hc1 x0 x1 x2 x3 x4).1 S512x128.size (by sl_kernel_rfl) y

/-- What case A leaves in the output's staging buffer: its pieces read back. -/
def out0_A_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) : Vec F S512x128 .f32 :=
  VO0.read (Elt F) (VO0.writes (Elt F) VO0.junk (kernelRun0_A c i arg2 harg2 arg3 harg3 arg4 harg4 arg5 harg5 arg6 harg6 arg7 harg7 arg8 harg8 hc0 hc1 x0 x1 x2 x3 x4).1)

/-- Case A's pieces for the running sum's buffer tile it, so they cover it. -/
theorem scover0_A (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) (y : S512x128.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S512x128.size (by sl_kernel_rfl) y

/-- What case A leaves in the running sum's buffer: its pieces read back. -/
def sout0_A (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) : Vec F S512x128 .f32 :=
  VS0.read (Elt F) (VS0.writes (Elt F) VS0.junk (kernelRun0_A c i arg2 harg2 arg3 harg3 arg4 harg4 arg5 harg5 arg6 harg6 arg7 harg7 arg8 harg8 hc0 hc1 x0 x1 x2 x3 x4).2.1)

/-- Case B's pieces for the output's buffer tile it, so they cover it. -/
theorem cover0_B_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) (y : S512x128.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S512x128.size (by sl_kernel_rfl) y

/-- What case B leaves in the output's staging buffer: its pieces read back. -/
def out0_B_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) : Vec F S512x128 .f32 :=
  VO0.read (Elt F) (VO0.writes (Elt F) VO0.junk (kernelRun0_B c i arg2 harg2 arg3 harg3 arg4 harg4 arg5 harg5 arg6 harg6 arg7 harg7 arg8 harg8 hc0 hc1 x0 x1 x2 x3 x4 xs0).1)

/-- Case B's pieces for the running sum's buffer tile it, so they cover it. -/
theorem scover0_B (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) (y : S512x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S512x128.size (by sl_kernel_rfl) y

/-- What case B leaves in the running sum's buffer: its pieces read back. -/
def sout0_B (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) : Vec F S512x128 .f32 :=
  VS0.read (Elt F) (VS0.writes (Elt F) VS0.junk (kernelRun0_B c i arg2 harg2 arg3 harg3 arg4 harg4 arg5 harg5 arg6 harg6 arg7 harg7 arg8 harg8 hc0 hc1 x0 x1 x2 x3 x4 xs0).2.1)

/-- Case C's pieces for the output's buffer tile it, so they cover it. -/
theorem cover0_C_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) (y : S512x128.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S512x128.size (by sl_kernel_rfl) y

/-- What case C leaves in the output's staging buffer: its pieces read back. -/
def out0_C_5 (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) : Vec F S512x128 .f32 :=
  VO0.read (Elt F) (VO0.writes (Elt F) VO0.junk (kernelRun0_C c i arg2 harg2 arg3 harg3 arg4 harg4 arg5 harg5 arg6 harg6 arg7 harg7 arg8 harg8 hc0 hc1 x0 x1 x2 x3 x4 xs0).1)

/-- Case C's pieces for the running sum's buffer tile it, so they cover it. -/
theorem scover0_C (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) (y : S512x128.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S512x128.size (by sl_kernel_rfl) y

/-- What case C leaves in the running sum's buffer: its pieces read back. -/
def sout0_C (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) : Vec F S512x128 .f32 :=
  VS0.read (Elt F) (VS0.writes (Elt F) VS0.junk (kernelRun0_C c i arg2 harg2 arg3 harg3 arg4 harg4 arg5 harg5 arg6 harg6 arg7 harg7 arg8 harg8 hc0 hc1 x0 x1 x2 x3 x4 xs0).2.1)

/-! ## The two buffers after each point -/

/-- What the output's staging buffer and the running sum's buffer hold after the body at position n: the case the
    position is in (by its residue modulo 5), run at the point's buffers and input blocks, the running sum's buffer
    at what position n − 1 left when the step is not the first of its row block. -/
def outsAt0 (c : Dev nD) : (n : ℕ) → n < cfg0.N → Vec F S512x128 .f32 × Vec F S512x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 5 = 0 then
      if h1 : (n + 1) % 5 = 4 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 5 = 4 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At a first step of a row block. -/
theorem outsAt0_A (c : Dev nD) (t : Fin cfg0.N) (h0 : t.val % 5 = 0) (h1 : ¬t.val % 5 = 4) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- At a middle step: over what the step before left. -/
theorem outsAt0_B (c : Dev nD) (t : Fin cfg0.N) (h0 : ¬t.val % 5 = 0) (h1 : ¬t.val % 5 = 4) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the step before left. -/
theorem outsAt0_C (c : Dev nD) (t : Fin cfg0.N) (h0 : ¬t.val % 5 = 0) (h1 : t.val % 5 = 4) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the start the running sum's buffer at anything; afterwards at what position n − 1 left in
    it; throughout, the other region's scoped buffers at anything and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ restS0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ restS0 (F := F) c) ∗ (∃ r, prngReg c r)) := by
  cases n with
  | zero => exact absurd rfl hz
  | succ n => rfl

/-! ## The proof data -/

/-- The arrays as the region finds them; after the body at a point each input's buffer at its block and the output's
    at what the point's case leaves; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4800000 in
/-- The body at any point: the inputs' buffers hold their blocks; the residue of the position modulo 5 says which case
    the point is in; the invariant hands the body the running sum's buffer at what the step before left (at anything at
    the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5]
  have hN : t.val < 50 := lt_of_lt_of_eq t.isLt (show cfg0.N = 50 from N_0)
  by_cases h0 : t.val % 5 = 0
  · by_cases h1 : t.val % 5 = 4
    · exfalso; omega
    · rw [outsAt0_A V c t h0 h1]
      unfold out0_A_5 sout0_A; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c _ _ _ _ _ _ _ _ _ _ _ _ _ _ _ _ _ _ _ _ _ _)
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c _ _ _ _ _ _ _ _ _ _ _ _ _ _ _ _ _ _ _ _ _ _)
  · have hz : t.val ≠ 0 := fun e => h0 (by rw [e])
    by_cases h1 : t.val % 5 = 4
    · rw [outsAt0_C V c t h0 h1]
      unfold out0_C_5 sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [outsAt0_B V c t h0 h1]
      unfold out0_B_5 sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back: the running sum's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 50 := N_0; omega), PhiA0_eq]
  iintro ⟨⟨HS0, HR⟩, Hg⟩
  isplitl [HS0 HR]
  · isplitl [HS0]
    · iexists _; iexact HS0
    iexact HR
  iexact Hg

end Cert.KernelIdeal.Sage

end
-- ==== Proof.KI.R1Base.lean ====
/-
  The second aggregation region, its shared vocabulary: each window's block at a grid point read off the array the
  region is entered with; the body's two conditions, both k = 0, which every point of this region's grid meets (a
  row block is one step); the staging buffers the body is handed; and the region's invariant, the same before every
  point: the running sum's buffer at anything (every point resets it before reading it).
-/
import proofs.«429747_j42236708388901_3_alg».proof.Proof.Gen.KernelIdeal.Launch
import proofs.«429747_j42236708388901_3_alg».proof.Proof.Gen.KernelIdeal.Skeleton
import proofs.«429747_j42236708388901_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The reset's condition, from the grid coordinates: k = 0. -/
abbrev cond1_0 (i : grid1.Coords) : Prop := (Scalar.cmpi .ne (Scalar.extui (Scalar.cmpi .eq (BitVec.ofNat 32 (i 1).val) 0#32)) 0#32) = 1#1
/-- It holds at every point of this grid. -/
theorem hcond1_0 : ∀ t : Fin cfg1.N, cond1_0 (grid1.coords t) :=
  (by decide +kernel : ∀ t : Fin grid1.N, cond1_0 (grid1.coords t))

abbrev ms1_0 (t : Fin cfg1.N) : Memref sig .tc .vmem S128x5120 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5120x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
/-- The running sum's buffer: a whole scoped buffer of the kernel's own. -/
abbrev scM1 : Memref sig .tc .vmem S128x128 .f32 := Memref.whole cc1_scratch0
/-- One staging buffer of the output window, as a view through which contents are stated. -/
abbrev VO1 : View sig .tc .vmem S128x128 .f32 := (Memref.whole cc1_stg5_0 : Memref sig .tc .vmem S128x128 .f32).view

/-- The region's invariant: the other region's scoped buffers at anything, the running sum's buffer at anything, the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Sage

end
-- ==== Proof.KI.R1Run.lean ====
/-
  The second aggregation region's body at a grid point: the running sum is reset to zero, the row block's whole
  product is added, and the output's buffer receives the projection of that sum beside the kept rows.
-/
import proofs.«429747_j42236708388901_3_alg».proof.Proof.KI.R1Base

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output's staging buffer and in the running sum's buffer, as pieces (last
    first), with the proof that on whole buffers — the inputs' at their contents, the output's and the running sum's
    at anything — the body runs to the continuation holding the inputs' as they were and those two with the pieces
    written; both branches are taken. -/
noncomputable def kernelRun1 (c : Dev nD) (i : grid1.Coords) (arg2 : Memref sig .tc .vmem S128x5120 .f32) (harg2 : arg2.IsWhole) (arg3 : Memref sig .tc .vmem S5120x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (hc0 : cond1_0 i)
    (x0 : Vec F S128x5120 .f32) (x1 : Vec F S5120x128 .bf16) (x2 : Vec F S128x128 .f32) (x3 : Vec F S128x128 .f32) (x4 : Vec F S128x128 .f32) :
    Σ' (L5 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc1__mean_agg_kernel i arg2 harg2 arg3 harg3 arg4 harg4 arg5 harg5 arg6 harg6 arg7 harg7 arg8 harg8) K } := by
  refine ⟨?_, ?_, fun E K => ?run⟩
  case run =>
    simp only [cc1__mean_agg_kernel_eq_skeleton]; unfold cc1__mean_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Sage

end
-- ==== Proof.KI.R1Frame.lean ====
/-
  The second aggregation region, point by point: what the body leaves in the output's staging buffer at a grid point
  (one function of the point's input blocks: nothing is carried from point to point), the proof data, and the body's
  obligation at every point.
-/
import proofs.«429747_j42236708388901_3_alg».proof.Proof.KI.R1Run

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's pieces for the output's buffer tile it, so they cover it. -/
theorem cover1_5 (c : Dev nD) (i : grid1.Coords) (arg2 : Memref sig .tc .vmem S128x5120 .f32) (harg2 : arg2.IsWhole) (arg3 : Memref sig .tc .vmem S5120x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (hc0 : cond1_0 i)
    (x0 : Vec F S128x5120 .f32) (x1 : Vec F S5120x128 .bf16) (x2 : Vec F S128x128 .f32) (x3 : Vec F S128x128 .f32) (x4 : Vec F S128x128 .f32) (y : S128x128.Idx) :
    ∃ pc ∈ (kernelRun1 c i arg2 harg2 arg3 harg3 arg4 harg4 arg5 harg5 arg6 harg6 arg7 harg7 arg8 harg8 hc0 x0 x1 x2 x3 x4).1, y ∈ pc.1.set :=
  View.cover_of_tiledL (kernelRun1 c i arg2 harg2 arg3 harg3 arg4 harg4 arg5 harg5 arg6 harg6 arg7 harg7 arg8 harg8 hc0 x0 x1 x2 x3 x4).1 S128x128.size (by sl_kernel_rfl) y

/-- What the body leaves in the output's staging buffer: its pieces read back. -/
def out1_5 (c : Dev nD) (i : grid1.Coords) (arg2 : Memref sig .tc .vmem S128x5120 .f32) (harg2 : arg2.IsWhole) (arg3 : Memref sig .tc .vmem S5120x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (hc0 : cond1_0 i)
    (x0 : Vec F S128x5120 .f32) (x1 : Vec F S5120x128 .bf16) (x2 : Vec F S128x128 .f32) (x3 : Vec F S128x128 .f32) (x4 : Vec F S128x128 .f32) : Vec F S128x128 .f32 :=
  VO1.read (Elt F) (VO1.writes (Elt F) VO1.junk (kernelRun1 c i arg2 harg2 arg3 harg3 arg4 harg4 arg5 harg5 arg6 harg6 arg7 harg7 arg8 harg8 hc0 x0 x1 x2 x3 x4).1)

/-- The output's staging buffer after the body at point t. -/
def outAt1 (c : Dev nD) (t : Fin cfg1.N) : Vec F S128x128 .f32 :=
  out1_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (hcond1_0 t) (iblk1 V c 0 t) (iblk1 V c 1 t) (iblk1 V c 2 t) (iblk1 V c 3 t) (iblk1 V c 4 t)

/-- The arrays as the region finds them; after the body at a point each input's buffer at its block and the output's
    at what the body leaves; the launch's invariant at every point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4800000 in
/-- The body at any point: the inputs' buffers hold their blocks; the invariant hands the body the running sum's
    buffer at anything and takes it back at anything. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl]
  rw [after1_0, after1_1, after1_2, after1_3, after1_4, after1_5]
  unfold outAt1 out1_5; (try dsimp only)
  rw [PhiA1_eq]
  iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ _ _ (hcond1_0 t) (iblk1 V c 0 t) (iblk1 V c 1 t) (iblk1 V c 2 t) (iblk1 V c 3 t) (iblk1 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%es0, HS0⟩⟩
  isplitl [R0 R1 R2 R3 R4 R5 R6 R7 R8 R9 HS0 Hg]
  · isplitl [R0 R1 R2 R3 R4 R5 R6 R7 R8 R9 HS0]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      unfold owns; iexists _; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Sage

end
-- ==== Proof.KI.KRun.lean ====
/-
  The whole program's run. The contents of the core's buffers between the program's items form a chain: the launch
  memory, then each stretch of host operations applied, then, after an aggregation region, the region's output array
  at what the region's write-backs leave and every other buffer untouched. Each region is entered from the contents
  before it with its proof data stated at exactly those contents; every weakly fair execution terminates, and at the
  end every unscoped buffer holds the last link of the chain — so each argument is as launched, and the result
  array is what the second region's write-backs leave.
-/
import proofs.«429747_j42236708388901_3_alg».proof.Proof.KI.R0Frame
import proofs.«429747_j42236708388901_3_alg».proof.Proof.KI.R1Frame
import proofs.«429747_j42236708388901_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at the regions' entries and exits -/

/-- The first region's entry contents, read at the TensorCore's references. -/
abbrev Ve0 : (c : Dev nD) → (b : Ref sig .tc) → Buf (Elt F) ((c : Thread nD τ).loc b) := fun c b => V6 m c b

/-- What the first region leaves: its arrays at what its write-backs leave, every other buffer as entered. -/
def X7 : Outs (F := F) := fun _ r c =>
  Pipeline.withArrays spec0 c (V6 m c) (fun w => (dat0 (Ve0 m) c).arrAt w cfg0.N) (Proc.devRef .tc r)

/-- The second region's entry contents. -/
abbrev Ve1 : (c : Dev nD) → (b : Ref sig .tc) → Buf (Elt F) ((c : Thread nD τ).loc b) := fun c b => V11 m (X7 m) c b

/-- What the two regions leave, by the item after which it is read. -/
def OUTS : Outs (F := F) := fun j r c =>
  if j = 12 then Pipeline.withArrays spec1 c (V11 m (X7 m) c) (fun w => (dat1 (Ve1 m) c).arrAt w cfg1.N) (Proc.devRef .tc r)
  else X7 m j r c

/-- Up to the second region the chain reads only what the first region leaves. -/
theorem V11_OUTS (c : Dev nD) : V11 m (OUTS m) c = V11 m (X7 m) c := rfl

theorem OUTS_7 (c : Dev nD) : OUTS m 7 main_v7 c = (dat0 (Ve0 m) c).arrAt 5 cfg0.N := by
  unfold OUTS; rw [if_neg (by decide)]; unfold X7
  exact Pipeline.withArrays_arr spec0 launch0.win.arr_inj c _ _ 5

theorem OUTS_12 (c : Dev nD) : OUTS m 12 main_v13 c = (dat1 (Ve1 m) c).arrAt 5 cfg1.N := by
  unfold OUTS; rw [if_pos rfl]
  exact Pipeline.withArrays_arr spec1 launch1.win.arr_inj c _ _ 5

/-- The first region's exit contents, read at the TensorCore's references. -/
abbrev Vx0 : (c : Dev nD) → (b : Ref sig .tc) → Buf (Elt F) ((c : Thread nD τ).loc b) := fun c b => V7 m (OUTS m) c b
/-- The second region's exit contents. -/
abbrev Vx1 : (c : Dev nD) → (b : Ref sig .tc) → Buf (Elt F) ((c : Thread nD τ).loc b) := fun c b => V12 m (OUTS m) c b

/-- At region 0's exit each of its arrays holds what the write-backs leave (an input array is never written: it holds
    its entry contents), and every other buffer what it held at entry. -/
theorem hF0 (c : Dev nD) (w : Fin cfg0.W) : (dat0 (Ve0 m) c).arrAt w cfg0.N = Vx0 m c (Pipeline.arrRef spec0 w) := by
  by_cases h5 : w = 5
  · subst h5
    show _ = Function.update (V6 m c) (Proc.devRef .tc main_v7) (OUTS m 7 main_v7 c) (Proc.devRef .tc main_v7)
    rw [Function.update_self]; exact (OUTS_7 m c).symm
  · have hin : (cfg0.win w).isOut = false := by
      match w, h5 with
      | ⟨0, _⟩, _ => rfl
      | ⟨1, _⟩, _ => rfl
      | ⟨2, _⟩, _ => rfl
      | ⟨3, _⟩, _ => rfl
      | ⟨4, _⟩, _ => rfl
      | ⟨5, _⟩, h => exact absurd rfl h
    rw [(dat0 (Ve0 m) c).arrAt_in w hin, A_eq0]
    exact (V7_of m (OUTS m) c (Pipeline.arrRef spec0 w)
      (fun h => h5 (launch0.win.arr_inj ((List.mem_singleton.mp h).trans (rfl : main_v7 = Pipeline.arrRef spec0 5))))).symm
theorem hrest0 (c : Dev nD) : ∀ b, b ∉ Finset.univ.image (Pipeline.arrRef spec0) → Vx0 m c b = Ve0 m c b :=
  fun b hb => V7_of m (OUTS m) c b (fun h => hb (Finset.mem_image.mpr ⟨5, Finset.mem_univ _, (List.mem_singleton.mp h).symm⟩))

/-- At region 1's exit each of its arrays holds what the write-backs leave (an input array is never written: it holds
    its entry contents), and every other buffer what it held at entry. -/
theorem hF1 (c : Dev nD) (w : Fin cfg1.W) : (dat1 (Ve1 m) c).arrAt w cfg1.N = Vx1 m c (Pipeline.arrRef spec1 w) := by
  by_cases h5 : w = 5
  · subst h5
    show _ = Function.update (V11 m (OUTS m) c) (Proc.devRef .tc main_v13) (OUTS m 12 main_v13 c) (Proc.devRef .tc main_v13)
    rw [Function.update_self]; exact (OUTS_12 m c).symm
  · have hin : (cfg1.win w).isOut = false := by
      match w, h5 with
      | ⟨0, _⟩, _ => rfl
      | ⟨1, _⟩, _ => rfl
      | ⟨2, _⟩, _ => rfl
      | ⟨3, _⟩, _ => rfl
      | ⟨4, _⟩, _ => rfl
      | ⟨5, _⟩, h => exact absurd rfl h
    rw [(dat1 (Ve1 m) c).arrAt_in w hin, A_eq1]
    exact (V12_of m (OUTS m) c (Pipeline.arrRef spec1 w)
      (fun h => h5 (launch1.win.arr_inj ((List.mem_singleton.mp h).trans (rfl : main_v13 = Pipeline.arrRef spec1 5))))).symm
theorem hrest1 (c : Dev nD) : ∀ b, b ∉ Finset.univ.image (Pipeline.arrRef spec1) → Vx1 m c b = Ve1 m c b :=
  fun b hb => V12_of m (OUTS m) c b (fun h => hb (Finset.mem_image.mpr ⟨5, Finset.mem_univ _, (List.mem_singleton.mp h).symm⟩))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold
-- plain definitions in a metavariable's type
set_option backward.isDefEq.respectTransparency.types false in
/-- REGION 0 over the thread state: entered from every unscoped buffer at the contents before it, left at the contents
    after it. Its arrays are split out of the unscoped buffers and put back at what the write-backs leave; the
    generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m (OUTS m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at the contents before it, left at the contents
    after it. Its arrays are split out of the unscoped buffers and put back at what the write-backs leave; the
    generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V11 m (X7 m) c) ∗ R c)
  post c := iprop(StableHlo.held (c : Thread nD τ) (Pipeline.ucRefs τ sig) (V12 m (OUTS m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the second region leaves is the last thread state beside the core owing nothing. -/
theorem hlast (c : Dev nD) : (reg1 (F := F) m).post c
    ⊢ iprop((StableHlo.held (c : Thread nD τ) (Pipeline.ucRefs τ sig) (V12 m (OUTS m) c) ∗ ∃ r, prngReg c r)
        ∗ ∃ W, owes (c : Thread nD τ) (0 : CellTallies nD τ sig Unit) W) := by
  show iprop(StableHlo.held (c : Thread nD τ) (Pipeline.ucRefs τ sig) (V12 m (OUTS m) c) ∗ R c) ⊢ _
  iintro ⟨Hh, Hp, HO⟩
  isplitl [Hh Hp]
  · isplitl [Hh]; · iexact Hh
    iexact Hp
  iexact HO

-- the launch theorem's implicit arguments are found by unifying its conclusion with this one, which takes unfolding plain
-- definitions in a metavariable's type
set_option backward.isDefEq.respectTransparency.types false in
set_option maxHeartbeats 4000000 in
/-- From any memory with zero counters every weakly fair execution of the program terminates, nothing faulting, and every
    final state has every unscoped buffer at the last link of the chain of contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V12 m (OUTS m) c b) := by
  refine Pipeline.θ_run_regions_kit_dev (pcfgs (F := F)) adm (pdats m) () cellOf_inj emb₁ defs₀ 𝒱₀ L lv m ρ main
    (segs m (OUTS m) 𝒱₀ L lv (fun _ c => R c) () (pdats m) (reg0 m) (reg1 m))
    (fun c Q => by
      rewrite [main_chain c, Seg.run_eq_chain,
        show (segs m (OUTS m) 𝒱₀ L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m (OUTS m) c) ∗ ∃ r, prngReg c r))
    (hch := fun c => ⟨.rfl, .rfl, .rfl, .rfl, .rfl, .rfl, .rfl, .rfl, .rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (OUTS m) c b)
    (hfin := fun c s' => by
      iintro ⟨⟨Hh, -⟩, HSI⟩
      unfold StableHlo.held
      imodintro
      iapply (pointsTo_read_all (Pipeline.ucRefs τ sig) (fun b => (((c : Thread nD τ)).1, b)) (V12 m (OUTS m) c) s')
      isplitl [Hh] <;> iassumption)
    (hQ := fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The same run read at the result array and at the arguments: the result holds the last link of the chain there, each
    argument its launch contents (no host operation and no region writes one). -/
theorem run_read : θ_run defs (onTc (τ := τ) (main (F := F))) ⟨m, fun _ => 0, ρ⟩ (fun r => ∀ c : Dev nD,
      r.2.mem ((c.tc : Thread nD τ).loc main_v13) = V12 m (OUTS m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v13 (by decide)),
      (h c _ (mem_uc main_arg0 (by decide))).trans (V12_main_arg0 m (OUTS m) c),
      (h c _ (mem_uc main_arg1 (by decide))).trans (V12_main_arg1 m (OUTS m) c),
      (h c _ (mem_uc main_arg2 (by decide))).trans (V12_main_arg2 m (OUTS m) c),
      (h c _ (mem_uc main_arg3 (by decide))).trans (V12_main_arg3 m (OUTS m) c),
      (h c _ (mem_uc main_arg4 (by decide))).trans (V12_main_arg4 m (OUTS m) c),
      (h c _ (mem_uc main_arg5 (by decide))).trans (V12_main_arg5 m (OUTS m) c),
      (h c _ (mem_uc main_arg6 (by decide))).trans (V12_main_arg6 m (OUTS m) c),
      (h c _ (mem_uc main_arg7 (by decide))).trans (V12_main_arg7 m (OUTS m) c),
      (h c _ (mem_uc main_arg8 (by decide))).trans (V12_main_arg8 m (OUTS m) c),
      (h c _ (mem_uc main_arg9 (by decide))).trans (V12_main_arg9 m (OUTS m) c)⟩) (run_main m ρ)

end Cert.KernelIdeal.Sage

end
-- ==== Proof.KVal0a.lean ====
/-
  The first aggregation region, step by step: what one run of the body leaves, and which entries of the region's
  arrays a point's blocks hold.

  The region walks a 10 x 5 grid of points (i, k), at position t = 5 i + k. At every point the body adds to a running
  sum of 512 x 128 entries the product of the point's 512 x 5120 block of the dense weighting with 5120 rows of the
  gathered table; at k = 0 it first clears the running sum, and at k = 4 it writes to the output's block the projection
  of the finished sum beside the kept rows, rectified.

  Three things are read here, for any float values.
    * Each kind of step as arithmetic of the blocks it loads: the running sum after a step is the step's product
      added to the cleared accumulator (k = 0) or to what the buffer held (k > 0); the output's block after a last
      step is the projection of the sum just stored, the first half of the weights against it, the second half
      against the kept rows.
    * Each block as entries of its array: entry (p, j) of the weighting's block at (i, k) is the weighting at
      (512 i + p, 5120 k + j); entry (j, q) of the tile of the table the body loads is the table at
      (5120 k + j, q); entry (p, k') of the kept rows' block is the kept rows at (512 i + p, k'); the two halves of
      the projection are whole. A block's entry always sits at block index x block size + its own coordinate, and
      the block indices are decided over the fifty points.
    * The two buffers after a position, by the position's residue modulo 5, over the blocks of that position and
      the running sum the position before left.
-/
import proofs.«429747_j42236708388901_3_alg».proof.Proof.KI.R0Frame
import Idealize.ShloMosaic.Lib.Pipeline.Value
import Idealize.ShloMosaic.Lib.ValueIdx

set_option maxRecDepth 16384

noncomputable section

namespace Cert.Sage.KVal0

open Cert.KernelIdeal Cert.KernelIdeal.Gen Cert.KernelIdeal.Sage Idealize.ShloMosaic Idealize.ShloMosaic.TcCoe
open Idealize.ShloMosaic.ValueIdx Idealize.SL.Sem Idealize.ShloMosaic.Tactic
open scoped BigOperators

variable {F : FTy → Type} [FloatOps F]

/-- Zero offsets on both axes, however the zeros are written. -/
theorem hz : (![0, 0] : Fin 2 → Nat) = fun _ => 0 := funext fun a => by fin_cases a <;> rfl

/-! ## What each kind of step leaves, as the body's arithmetic of the blocks it loads -/

/-- A first step of a row block leaves in the running sum's buffer the step's product added to the cleared
    accumulator: the reset's store is read back by the addition's load. -/
theorem sout_A (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x5120 .f32) (x1 : Vec F S25600x128 .bf16) (x2 : Vec F S512x128 .f32) (x3 : Vec F S128x128 .f32) (x4 : Vec F S128x128 .f32) :
    sout0_A c i arg2 harg2 arg3 harg3 arg4 harg4 arg5 harg5 arg6 harg6 arg7 harg7 arg8 harg8 hc0 hc1 x0 x1 x2 x3 x4 = k0_pay2 x0 (View.ld x1 (Rect.unit (s := S25600x128) (k0_off1 i) S5120x128.size (k0_off1_inb i))) k0_pay1 := by
  unfold sout0_A
  rw [View.read_writes_eq_canon _ _ _ (scover0_A c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x128) hz]
  simp only [View.readAt_eq_ld, harg2.read_unread, harg3.read_unread, View.ld_unit_zero (S := S512x5120) hz,
    View.readCov_unit_zero (S := S512x128) _ hz]

/-- A later step leaves the step's product added to what the buffer held. -/
theorem sout_B (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x5120 .f32) (x1 : Vec F S25600x128 .bf16) (x2 : Vec F S512x128 .f32) (x3 : Vec F S128x128 .f32) (x4 : Vec F S128x128 .f32) (xs0 : Vec F S512x128 .f32) :
    sout0_B c i arg2 harg2 arg3 harg3 arg4 harg4 arg5 harg5 arg6 harg6 arg7 harg7 arg8 harg8 hc0 hc1 x0 x1 x2 x3 x4 xs0 = k0_pay2 x0 (View.ld x1 (Rect.unit (s := S25600x128) (k0_off1 i) S5120x128.size (k0_off1_inb i))) xs0 := by
  unfold sout0_B
  rw [View.read_writes_eq_canon _ _ _ (scover0_B c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S512x128) hz]
  simp only [View.readAt_eq_ld, harg2.read_unread, harg3.read_unread, harg8.read_unread, View.ld_unit_zero (S := S512x5120) hz,
    View.ld_unit_zero (S := S512x128) hz]

/-- So does the last step of a row block; -/
theorem sout_C (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) :
    sout0_C c i arg2 harg2 arg3 harg3 arg4 harg4 arg5 harg5 arg6 harg6 arg7 harg7 arg8 harg8 hc0 hc1 x0 x1 x2 x3 x4 xs0 = k0_pay2 x0 (View.ld x1 (Rect.unit (s := S25600x128) (k0_off1 i) S5120x128.size (k0_off1_inb i))) xs0 := by
  unfold sout0_C
  rw [View.read_writes_eq_canon _ _ _ (scover0_C c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S512x128) hz]
  simp only [View.readAt_eq_ld, harg2.read_unread, harg3.read_unread, harg8.read_unread, View.ld_unit_zero (S := S512x5120) hz,
    View.ld_unit_zero (S := S512x128) hz]

/-- and in the output's buffer it leaves the projection of the finished sum — the sum as just stored, against the
    first half of the weights — beside the kept rows against the second half, rectified. -/
theorem out_C (c : Dev nD) (i : grid0.Coords) (arg2 : Memref sig .tc .vmem S512x5120 .f32) (harg2 : arg2.IsWhole) (arg3 : Memref sig .tc .vmem S25600x128 .bf16) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x5120 .f32) (x1 : Vec F S25600x128 .bf16) (x2 : Vec F S512x128 .f32) (x3 : Vec F S128x128 .f32) (x4 : Vec F S128x128 .f32) (xs0 : Vec F S512x128 .f32) :
    out0_C_5 c i arg2 harg2 arg3 harg3 arg4 harg4 arg5 harg5 arg6 harg6 arg7 harg7 arg8 harg8 hc0 hc1 x0 x1 x2 x3 x4 xs0 = k0_pay3 (k0_pay2 x0 (View.ld x1 (Rect.unit (s := S25600x128) (k0_off1 i) S5120x128.size (k0_off1_inb i))) xs0) x3 x2 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_cons_unit_zero (S := S512x128) hz]
  simp only [View.readAt_eq_ld, harg2.read_unread, harg3.read_unread, harg4.read_unread, harg5.read_unread, harg6.read_unread, harg8.read_unread,
    View.ld_unit_zero (S := S512x5120) hz, View.ld_unit_zero (S := S512x128) hz, View.ld_unit_zero (S := S128x128) hz,
    View.readCov_unit_zero (S := S512x128) _ hz]

/-! ## The region's arrays and the blocks of a point, at their literal types -/

variable (V : (c : Dev nD) → (b : Ref sig .tc) → Buf (Elt F) ((c : Thread nD τ).loc b)) (c : Dev nD)

/-- The dense weighting: 5120 rows, 25600 columns. -/
abbrev adjArr : Vec F S5120x25600 .f32 := V c main_arg4
/-- The gathered table: 25600 rows of 128. -/
abbrev xgArr : Vec F S25600x128 .bf16 := V c main_v3
/-- The kept rows: 5120 rows of 128. -/
abbrev xnArr : Vec F S5120x128 .f32 := V c main_v4
/-- The two halves of the projection. -/
abbrev waArr : Vec F S128x128 .f32 := V c main_v5
abbrev wbArr : Vec F S128x128 .f32 := V c main_v6

/-- Point t's block of the weighting, -/
abbrev adjBlk (t : Fin cfg0.N) : Vec F S512x5120 .f32 := iblk0 V c 0 t
/-- of the table (the whole table at every point), -/
abbrev xgBlk (t : Fin cfg0.N) : Vec F S25600x128 .bf16 := iblk0 V c 1 t
/-- of the kept rows, -/
abbrev xnBlk (t : Fin cfg0.N) : Vec F S512x128 .f32 := iblk0 V c 2 t
/-- and of the projection's halves. -/
abbrev waBlk (t : Fin cfg0.N) : Vec F S128x128 .f32 := iblk0 V c 3 t
abbrev wbBlk (t : Fin cfg0.N) : Vec F S128x128 .f32 := iblk0 V c 4 t

/-- The tile of the table the body loads at point t: 5120 rows from the offset the body computes. -/
abbrev xgTile (t : Fin cfg0.N) : Vec F S5120x128 .bf16 :=
  View.ld (xgBlk V c t) (Rect.unit (s := S25600x128) (k0_off1 (grid0.coords t)) S5120x128.size (k0_off1_inb (grid0.coords t)))

/-- The printed index maps and the tile's offset, decided over the grid: at position t = 5 i + k the weighting's block
    is (i, k), the kept rows' and the output's (i, 0), the table and the projection's halves are whole, and the tile
    starts at row 5120 k. -/
theorem idx_facts : ∀ t : Fin cfg0.N,
    win0_0.index t (0 : Fin 2) = t.val / 5 ∧ win0_0.index t (1 : Fin 2) = t.val % 5
    ∧ win0_1.index t (0 : Fin 2) = 0 ∧ win0_1.index t (1 : Fin 2) = 0
    ∧ win0_2.index t (0 : Fin 2) = t.val / 5 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 5 ∧ win0_5.index t (1 : Fin 2) = 0
    ∧ k0_off1 (grid0.coords t) (0 : Fin 2) = 5120 * (t.val % 5) ∧ k0_off1 (grid0.coords t) (1 : Fin 2) = 0 :=
  (by decide +kernel : ∀ t : Fin grid0.N, _)

/-! ## A block's entry is the array's -/

/-- An entry of the weighting's block at position t = 5 i + k is the weighting at row 512 i + p, column 5120 k + j. -/
theorem adjBlk_apply (t : Fin cfg0.N) (p : Fin 512) (j : Fin 5120) (r : Fin 5120) (s : Fin 25600)
    (hr : r.val = 512 * (t.val / 5) + p.val) (hs : s.val = 5120 * (t.val % 5) + j.val) :
    adjBlk V c t (ix2 p j) = adjArr V c (ix2 r s) := by
  obtain ⟨e0, e1, -⟩ := idx_facts t
  show iblk0 V c 0 t (ix2 p j) = V c main_arg4 (ix2 r s)
  unfold iblk0
  rw [View.read_apply]
  show V c main_arg4 _ = V c main_arg4 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 5120 + 1 * j.val = s.val; rw [e1, hs]; omega

/-- An entry of the tile the body loads there is the table at row 5120 k + j. -/
theorem xgTile_apply (t : Fin cfg0.N) (j : Fin 5120) (q : Fin 128) (s : Fin 25600)
    (hs : s.val = 5120 * (t.val % 5) + j.val) :
    xgTile V c t (ix2 j q) = xgArr V c (ix2 s q) := by
  obtain ⟨-, -, e0, e1, -, -, -, -, -, -, -, -, o0, o1⟩ := idx_facts t
  show iblk0 V c 1 t _ = V c main_v3 (ix2 s q)
  unfold iblk0
  rw [View.read_apply]
  show V c main_v3 _ = V c main_v3 _
  congr 1
  funext a
  apply Fin.ext
  match a with
  | ⟨0, _⟩ => show win0_1.index t (0 : Fin 2) * 25600 + 1 * (k0_off1 (grid0.coords t) (0 : Fin 2) + 1 * j.val) = s.val; rw [e0, o0, hs]; omega
  | ⟨1, _⟩ => show win0_1.index t (1 : Fin 2) * 128 + 1 * (k0_off1 (grid0.coords t) (1 : Fin 2) + 1 * q.val) = q.val; rw [e1, o1]; omega

/-- An entry of the kept rows' block is the kept rows at row 512 i + p. -/
theorem xnBlk_apply (t : Fin cfg0.N) (p : Fin 512) (k : Fin 128) (r : Fin 5120)
    (hr : r.val = 512 * (t.val / 5) + p.val) :
    xnBlk V c t (ix2 p k) = xnArr V c (ix2 r k) := by
  obtain ⟨-, -, -, -, e0, e1, -⟩ := idx_facts t
  show iblk0 V c 2 t (ix2 p k) = V c main_v4 (ix2 r k)
  unfold iblk0
  rw [View.read_apply]
  show V c main_v4 _ = V c main_v4 _
  congr 1
  funext a
  apply Fin.ext
  match a with
  | ⟨0, _⟩ => show win0_2.index t (0 : Fin 2) * 512 + 1 * p.val = r.val; rw [e0, hr]; omega
  | ⟨1, _⟩ => show win0_2.index t (1 : Fin 2) * 128 + 1 * k.val = k.val; rw [e1]; omega

/-- The first half of the projection is its own one block; -/
theorem waBlk_apply (t : Fin cfg0.N) (k q : Fin 128) : waBlk V c t (ix2 k q) = waArr V c (ix2 k q) := by
  obtain ⟨-, -, -, -, -, -, e0, e1, -⟩ := idx_facts t
  show iblk0 V c 3 t (ix2 k q) = V c main_v5 (ix2 k q)
  unfold iblk0
  rw [View.read_apply]
  show V c main_v5 _ = V c main_v5 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- so is the second. -/
theorem wbBlk_apply (t : Fin cfg0.N) (k q : Fin 128) : wbBlk V c t (ix2 k q) = wbArr V c (ix2 k q) := by
  obtain ⟨-, -, -, -, -, -, -, -, e0, e1, -⟩ := idx_facts t
  show iblk0 V c 4 t (ix2 k q) = V c main_v6 (ix2 k q)
  unfold iblk0
  rw [View.read_apply]
  show V c main_v6 _ = V c main_v6 _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-! ## The two buffers after a point, by the kind of step -/

/-- After a first step of a row block the running sum's buffer holds the step's product over the cleared accumulator. -/
theorem acc_A (t : Fin cfg0.N) (h0 : t.val % 5 = 0) (h1 : ¬t.val % 5 = 4) :
    (outsAt0 V c t.val t.isLt).2 = k0_pay2 (adjBlk V c t) (xgTile V c t) k0_pay1 := by
  rw [outsAt0_A V c t h0 h1]
  dsimp only
  exact sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t)

/-- After a middle step it holds the step's product over what the step before left. -/
theorem acc_B (t : Fin cfg0.N) (h0 : ¬t.val % 5 = 0) (h1 : ¬t.val % 5 = 4) :
    (outsAt0 V c t.val t.isLt).2 = k0_pay2 (adjBlk V c t) (xgTile V c t) (outsAt0 V c (t.val - 1) (Nat.lt_of_le_of_lt (Nat.sub_le _ _) t.isLt)).2 := by
  rw [outsAt0_B V c t h0 h1]
  dsimp only
  exact sout_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2

/-- After a last step likewise, -/
theorem acc_C (t : Fin cfg0.N) (h0 : ¬t.val % 5 = 0) (h1 : t.val % 5 = 4) :
    (outsAt0 V c t.val t.isLt).2 = k0_pay2 (adjBlk V c t) (xgTile V c t) (outsAt0 V c (t.val - 1) (Nat.lt_of_le_of_lt (Nat.sub_le _ _) t.isLt)).2 := by
  rw [outsAt0_C V c t h0 h1]
  dsimp only
  exact sout_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2

/-- and the output's buffer holds the projection of that finished sum beside the kept rows, rectified. -/
theorem out_C_at (t : Fin cfg0.N) (h0 : ¬t.val % 5 = 0) (h1 : t.val % 5 = 4) :
    (outsAt0 V c t.val t.isLt).1 = k0_pay3 (outsAt0 V c t.val t.isLt).2 (waBlk V c t) (xnBlk V c t) (wbBlk V c t) := by
  rw [acc_C V c t h0 h1, outsAt0_C V c t h0 h1]
  dsimp only
  exact out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2

end Cert.Sage.KVal0

end
-- ==== Proof.KVal0b.lean ====
/-
  From the output blocks to the output array, in the first aggregation region.

  The region's grid is ten row blocks by five tiles of the contracted axis; the output's block at a point is row block
  t / 5 of the 5120 x 128 array, 512 rows, and it is written back only at a row block's last tile (t % 5 = 4). Entry
  (p, q) of that block sits in the array at row 512 * (t / 5) + p, column q, and row r of the array lies in the block
  written back at point 5 * (r / 512) + 4. So if, at every such point, what the body has left in the output's buffer
  is that row block of one array G, the output array ends holding G.
-/
import proofs.«429747_j42236708388901_3_alg».proof.Proof.KI.R0Frame
import Idealize.ShloMosaic.Lib.Pipeline.Value
import Idealize.ShloMosaic.Lib.ValueIdx

set_option maxRecDepth 16384

noncomputable section

namespace Cert.Sage.KVal0

open Cert.KernelIdeal Cert.KernelIdeal.Gen Cert.KernelIdeal.Sage Cert.Sage
open Idealize.ShloMosaic Idealize.ShloMosaic.TcCoe Idealize.ShloMosaic.ValueIdx Idealize.SL.Sem
open Idealize.ShloMosaic.Pipeline (Dat)

variable {F : FTy → Type} [FloatOps F]

/-- The output window's block index over the grid: row block t / 5, the one column block. -/
theorem idx5 : ∀ t : Fin cfg0.N, win0_5.index t (0 : Fin 2) = t.val / 5 ∧ win0_5.index t (1 : Fin 2) = 0 :=
  (by decide +kernel : ∀ t : Fin grid0.N, _)

/-- The output block's entry (p, q) at point t sits in the array at row 512 · (t / 5) + p, column q. -/
theorem emb5 (t : Fin cfg0.N) (p : Fin 512) (q : Fin 128) (r : Fin 5120) (hr : r.val = 512 * (t.val / 5) + p.val) :
    (((cfg0.win 5).blk t).view.emb (ix2 p q) : S5120x128.Idx) = ix2 r q := by
  refine funext fun a => Fin.ext ?_
  obtain ⟨e0, e1⟩ := idx5 t
  match a with
  | ⟨0, _⟩ => show win0_5.index t (0 : Fin 2) * 512 + 1 * p.val = r.val; omega
  | ⟨1, _⟩ => show win0_5.index t (1 : Fin 2) * 128 + 1 * q.val = q.val; omega

/-- An index of the array is in point t's block iff each coordinate is in the block's range on its axis. -/
theorem mem_blk5 (t : Fin cfg0.N) (i : S5120x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v7).slice (win0_5.rect t)).set ↔ _
  rw [View.set_slice_whole, Rect.mem_set_unit]
  exact Iff.rfl

/-- The ten row blocks, each written back at its last tile, cover the 5120 rows. -/
theorem cover5 (i : S5120x128.Idx) : ∃ t : Fin cfg0.N, (cfg0.win 5).flush t = true ∧ i ∈ ((cfg0.win 5).blk t).view.set := by
  have hN : cfg0.N = 50 := N_0
  have hi0 : (i 0).val < 5120 := (i 0).isLt
  have hi1 : (i 1).val < 128 := (i 1).isLt
  refine ⟨⟨5 * ((i 0).val / 512) + 4, by omega⟩, (flush0_5 _).mpr (by dsimp only; omega), ?_⟩
  rw [mem_blk5]
  obtain ⟨e0, e1⟩ := idx5 ⟨5 * ((i 0).val / 512) + 4, by omega⟩
  intro a
  match a with
  | ⟨0, _⟩ => show win0_5.index _ (0 : Fin 2) * 512 ≤ (i 0).val ∧ (i 0).val < win0_5.index _ (0 : Fin 2) * 512 + 512; rw [e0]; dsimp only; omega
  | ⟨1, _⟩ => show win0_5.index _ (1 : Fin 2) * 128 ≤ (i 1).val ∧ (i 1).val < win0_5.index _ (1 : Fin 2) * 128 + 128; rw [e1]; omega

/-- If at every row block's last tile the output's buffer holds that row block of G, the output array ends holding G. -/
theorem arr_of_blocks (V : (c : Dev nD) → (b : Ref sig .tc) → Buf (Elt F) ((c : Thread nD τ).loc b)) (c : Dev nD) (G : Vec F S5120x128 .f32)
    (hG : ∀ t : Fin cfg0.N, t.val % 5 = 4 → ∀ (p : Fin 512) (q : Fin 128) (r : Fin 5120), r.val = 512 * (t.val / 5) + p.val →
      (outsAt0 V c t.val t.isLt).1 (ix2 p q) = G (ix2 r q)) :
    (dat0 V c).arrAt 5 cfg0.N = G := by
  refine (dat0 V c).arrAt_eq_of_cover 5 G (fun t hf => ?_) cover5
  have ht : t.val < 50 := lt_of_lt_of_eq t.isLt N_0
  have h4 : t.val % 5 = 4 := (flush0_5 t).mp hf
  show (cfg0.win 5).cut (grid0.coords t) ((dat0 V c).after 5 t) = _
  rw [after0_5]
  funext y
  obtain ⟨p, q, rfl⟩ : ∃ (p : Fin 512) (q : Fin 128), y = ix2 p q := ⟨y 0, y 1, eq_ix2 y⟩
  have hr : 512 * (t.val / 5) + p.val < 5120 := by have := p.isLt; omega
  rw [View.read_apply]
  show (outsAt0 V c t.val t.isLt).1 (ix2 p q) = G (((cfg0.win 5).blk t).view.emb (ix2 p q))
  rw [emb5 t p q ⟨512 * (t.val / 5) + p.val, hr⟩ rfl]
  exact hG t h4 p q ⟨512 * (t.val / 5) + p.val, hr⟩ rfl

end Cert.Sage.KVal0

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.KPay.lean ====
/-
  The kernel body's arithmetic, read entry by entry over the extended reals.

  Each region's body stores three values, and each is a function of the blocks loaded before it.
  Region 0 works on blocks 512 x 5120, 5120 x 128 -> 512 x 128; region 1 on 128 x 5120, 5120 x 128 -> 128 x 128.

    * The first payload clears the accumulator: every entry is 0.
    * The second payload adds one tile of a product to the accumulator: its entry (p, q) is
        acc (p, q) + sum over k < 5120 of a (p, k) * b (k, q).
      The narrowing of the left operand to the shorter float format is the identity at the ideal values, the
      casts to the same shape are the identity, and the product is taken into a zero accumulator.
    * The third payload combines two dense layers: its entry (p, q) is
        (sum over k < 128 of x (p, k) * w (k, q)) + (sum over k < 128 of y (p, k) * u (k, q)),
      and in region 0 the maximum of that and 0.

  The last lemma regroups a sum over 25600 indices into five consecutive tiles of 5120: index t * 5120 + j is
  the j-th index of tile t.
-/
import proofs.«429747_j42236708388901_3_alg».proof.Proof.Gen.KernelIdeal.Skeleton
import proofs.«429747_j42236708388901_3_alg».proof.Proof.LibDot
import Idealize.ShloMosaic.PureOps.Ideal.Laws
import Idealize.ShloMosaic.Lib.ValueIdx
import Idealize.ShloMosaic.Lib.Pipeline.Value
import Mathlib.Data.Fintype.BigOperators
import Mathlib.Logic.Equiv.Fin.Basic

open scoped BigOperators

namespace Cert.Sage.KPay

open Cert.KernelIdeal Cert.KernelIdeal.Gen Idealize.ShloMosaic Idealize.ShloMosaic.ValueIdx

/-! ## Region 0 -/

/-- The cleared accumulator: every entry is 0. -/
theorem pay1_0 (p : Fin 512) (q : Fin 128) : k0_pay1 (F := Ideal) (ix2 p q) = 0 := by
  unfold k0_pay1
  refine (congrFun (shapeCast_self _ _) (ix2 p q)).trans ?_
  exact Ideal.ofBits_zero_f32

/-- One tile of the product added to the accumulator. -/
theorem pay2_0 (v3 : Vec Ideal S512x5120 .f32) (v8 : Vec Ideal S5120x128 .bf16) (v10 : Vec Ideal S512x128 .f32)
    (p : Fin 512) (q : Fin 128) :
    k0_pay2 (F := Ideal) v3 v8 v10 (ix2 p q) = v10 (ix2 p q) + ∑ k : Fin 5120, v3 (ix2 p k) * v8 (ix2 k q) := by
  unfold k0_pay2
  refine (congrFun (shapeCast_self _ _) (ix2 p q)).trans ?_
  refine congrArg (v10 (ix2 p q) + ·) ?_
  refine (Cert.Lib.Dot.matmul0_rc dot_S512x5120_S5120x128_S512x128_1_0_0_1_n_n ⟨rfl, rfl, rfl, rfl, rfl, rfl⟩ _ _ p q).trans ?_
  refine Finset.sum_congr rfl fun k _ => ?_
  exact congrArg (v3 (ix2 p k) * ·) (congrFun (shapeCast_self v8 _) (ix2 k q))

/-- Two dense layers added, then the maximum with 0. -/
theorem pay3_0 (v21 : Vec Ideal S512x128 .f32) (v23 : Vec Ideal S128x128 .f32) (v26 : Vec Ideal S512x128 .f32)
    (v29 : Vec Ideal S128x128 .f32) (p : Fin 512) (q : Fin 128) :
    k0_pay3 (F := Ideal) v21 v23 v26 v29 (ix2 p q)
      = max ((∑ k : Fin 128, v21 (ix2 p k) * v23 (ix2 k q)) + ∑ k : Fin 128, v26 (ix2 p k) * v29 (ix2 k q)) 0 := by
  unfold k0_pay3
  refine congrArg₂ max ?_ Ideal.ofBits_zero_f32
  refine congrArg₂ (· + ·) ?_ ?_
  · refine (Cert.Lib.Dot.matmul0_rc dot_S512x128_S128x128_S512x128_1_0_0_1_n_n ⟨rfl, rfl, rfl, rfl, rfl, rfl⟩ _ _ p q).trans ?_
    refine Finset.sum_congr rfl fun k _ => ?_
    exact congrArg (v21 (ix2 p k) * ·) (congrFun (shapeCast_self v23 _) (ix2 k q))
  · refine (Cert.Lib.Dot.matmul0_rc dot_S512x128_S128x128_S512x128_1_0_0_1_n_n ⟨rfl, rfl, rfl, rfl, rfl, rfl⟩ _ _ p q).trans ?_
    refine Finset.sum_congr rfl fun k _ => ?_
    exact congrArg₂ (· * ·) (congrFun (shapeCast_self v26 _) (ix2 p k)) (congrFun (shapeCast_self v29 _) (ix2 k q))

/-! ## Region 1 -/

/-- The cleared accumulator: every entry is 0. -/
theorem pay1_1 (p : Fin 128) (q : Fin 128) : k1_pay1 (F := Ideal) (ix2 p q) = 0 := by
  unfold k1_pay1
  refine (congrFun (shapeCast_self _ _) (ix2 p q)).trans ?_
  exact Ideal.ofBits_zero_f32

/-- One tile of the product added to the accumulator. -/
theorem pay2_1 (v3 : Vec Ideal S128x5120 .f32) (v8 : Vec Ideal S5120x128 .bf16) (v10 : Vec Ideal S128x128 .f32)
    (p q : Fin 128) :
    k1_pay2 (F := Ideal) v3 v8 v10 (ix2 p q) = v10 (ix2 p q) + ∑ k : Fin 5120, v3 (ix2 p k) * v8 (ix2 k q) := by
  unfold k1_pay2
  refine (congrFun (shapeCast_self _ _) (ix2 p q)).trans ?_
  refine congrArg (v10 (ix2 p q) + ·) ?_
  refine (Cert.Lib.Dot.matmul0_rc dot_S128x5120_S5120x128_S128x128_1_0_0_1_n_n ⟨rfl, rfl, rfl, rfl, rfl, rfl⟩ _ _ p q).trans ?_
  refine Finset.sum_congr rfl fun k _ => ?_
  exact congrArg (v3 (ix2 p k) * ·) (congrFun (shapeCast_self v8 _) (ix2 k q))

/-- Two dense layers added. -/
theorem pay3_1 (v21 v23 v26 v29 : Vec Ideal S128x128 .f32) (p q : Fin 128) :
    k1_pay3 (F := Ideal) v21 v23 v26 v29 (ix2 p q)
      = (∑ k : Fin 128, v21 (ix2 p k) * v23 (ix2 k q)) + ∑ k : Fin 128, v26 (ix2 p k) * v29 (ix2 k q) := by
  unfold k1_pay3
  refine congrArg₂ (· + ·) ?_ ?_
  · refine (Cert.Lib.Dot.matmul0_rc dot_S128x128_S128x128_S128x128_1_0_0_1_n_n ⟨rfl, rfl, rfl, rfl, rfl, rfl⟩ _ _ p q).trans ?_
    refine Finset.sum_congr rfl fun k _ => ?_
    exact congrArg (v21 (ix2 p k) * ·) (congrFun (shapeCast_self v23 _) (ix2 k q))
  · refine (Cert.Lib.Dot.matmul0_rc dot_S128x128_S128x128_S128x128_1_0_0_1_n_n ⟨rfl, rfl, rfl, rfl, rfl, rfl⟩ _ _ p q).trans ?_
    refine Finset.sum_congr rfl fun k _ => ?_
    exact congrArg₂ (· * ·) (congrFun (shapeCast_self v26 _) (ix2 p k)) (congrFun (shapeCast_self v29 _) (ix2 k q))

/-! ## A sum over 25600 indices as five tiles of 5120 -/

/-- The index t * 5120 + j runs over all of 25600 as t runs over five tiles and j over a tile. -/
theorem sum_tiles {M : Type} [AddCommMonoid M] (f : Fin 25600 → M) :
    ∑ q : Fin 25600, f q = ∑ t : Fin 5, ∑ j : Fin 5120, f ⟨t.val * 5120 + j.val, by omega⟩ := by
  refine (Equiv.sum_comp (finProdFinEquiv (m := 5) (n := 5120)) f).symm.trans ?_
  refine (Fintype.sum_prod_type _).trans ?_
  refine Finset.sum_congr rfl fun t _ => Finset.sum_congr rfl fun j _ => ?_
  exact congrArg f (Fin.ext (by show j.val + 5120 * t.val = t.val * 5120 + j.val; omega))

end Cert.Sage.KPay
-- ==== Proof.Spec.lean ====
/-
  The two-layer neighbourhood aggregation, as one function of the argument arrays over the extended reals.

  A layer takes a table x of rows, two index vectors (which rows to aggregate, which rows to keep beside the
  aggregate), a dense weighting adj and a projection w of 256 rows: the aggregate row n is the adj-weighted sum of
  the gathered rows, and the layer's output at (n, d) is the aggregate row against the first 128 rows of w plus the
  kept row against the last 128. The network is the layer over the feature rows picked by src, a rectifier, and
  the layer again over the first layer's output. A row index is a signed word read as a natural number and capped
  at the last row (what a gather does with a start index).
-/
import Idealize.ShloMosaic.PureOps.Ideal
import Idealize.ShloMosaic.Lib.ValueIdx

open scoped BigOperators

noncomputable section

namespace Cert.Sage

open Idealize.ShloMosaic
open Idealize.ShloMosaic.ValueIdx

/-- An R × C array of extended reals. -/
abbrev Mat (R C : ℕ) : Type := (⟨2, ![R, C]⟩ : Shape).Idx → EReal
/-- A vector of N signed 32-bit words. -/
abbrev Words (N : ℕ) : Type := (⟨1, ![N]⟩ : Shape).Idx → BitVec 32

/-- The row a signed word names in a table of R rows: its value as a natural number, capped at R − 1. -/
def row (R : ℕ) (hR : 0 < R) (w : BitVec 32) : Fin R := ⟨min w.toInt.toNat (R - 1), by omega⟩

/-- The rows of x that idx names, in idx's order. -/
def rows {R C N : ℕ} (hR : 0 < R) (x : Mat R C) (idx : Words N) : Mat N C :=
  fun j => x (ix2 (row R hR (idx (ix1 (j 0)))) (j 1))

/-- The adj-weighted sums of the rows of xg: entry (n, k) is the sum over q of adj (n, q) · xg (q, k). -/
def agg {N M : ℕ} (adj : Mat N M) (xg : Mat M 128) : Mat N 128 :=
  fun j => ∑ q : Fin M, adj (ix2 (j 0) q) * xg (ix2 q (j 1))

/-- The projection of an aggregate a beside kept rows xn: entry (n, d) is the sum over k < 128 of a (n, k) · w (k, d)
    plus the sum over k < 128 of xn (n, k) · w (128 + k, d). -/
def proj {N : ℕ} (a xn : Mat N 128) (w : Mat 256 128) : Mat N 128 :=
  fun j => (∑ k : Fin 128, a (ix2 (j 0) k) * w (ix2 ⟨k.val, by omega⟩ (j 1)))
    + ∑ k : Fin 128, xn (ix2 (j 0) k) * w (ix2 ⟨128 + k.val, by omega⟩ (j 1))

/-- One layer before its activation. -/
def layer {N M : ℕ} (adj : Mat N M) (xg : Mat M 128) (xn : Mat N 128) (w : Mat 256 128) : Mat N 128 :=
  proj (agg adj xg) xn w

/-- The rectifier, entry by entry. -/
def relu {N : ℕ} (x : Mat N 128) : Mat N 128 := fun j => max (x j) 0

/-- The first layer's output: over the feature rows picked by src, then rectified. -/
def hidden (features : Mat 100000 128) (src : Words 25600) (nb1 : Words 5120) (nd1 : Words 25600)
    (adj1 : Mat 5120 25600) (w1 : Mat 256 128) : Mat 5120 128 :=
  relu (layer adj1 (rows (by norm_num) (rows (by norm_num) features src) nd1)
    (rows (by norm_num) (rows (by norm_num) features src) nb1) w1)

/-- The network's result. -/
def result (features : Mat 100000 128) (src : Words 25600) (nb1 : Words 5120) (nd1 : Words 25600)
    (adj1 : Mat 5120 25600) (nb2 : Words 512) (nd2 : Words 5120) (adj2 : Mat 512 5120) (w1 w2 : Mat 256 128) :
    Mat 512 128 :=
  layer adj2 (rows (by norm_num) (hidden features src nb1 nd1 adj1 w1) nd2)
    (rows (by norm_num) (hidden features src nb1 nd1 adj1 w1) nb2) w2

end Cert.Sage

end
-- ==== Proof.KVal0.lean ====
/-
  The first aggregation region's value over the extended reals: what the region leaves in its output array, as one
  function of the arrays it is entered with.

  With adj the 5120 x 25600 weighting, xg the 25600 x 128 gathered table, xn the 5120 x 128 kept rows and wa, wb the
  two 128 x 128 halves of the projection, the output array ends holding at (n, d)

      max ((sum over k < 128 of agg adj xg (n, k) * wa (k, d)) + (sum over k < 128 of xn (n, k) * wb (k, d))) 0,

  where agg adj xg (n, k) is the sum over all 25600 source rows s of adj (n, s) * xg (s, k).

  The region's grid is 10 row blocks of 512 rows by 5 tiles of 5120 source rows; position t = 5 i + k is tile k of row
  block i.
    * The running sum. After position 5 i + k the running sum's buffer holds at (p, q) the shares of tiles 0 … k of
      row 512 i + p, added in the order of the steps from the cleared accumulator: by induction on the position, a
      first step starting from zero, every later step adding its tile's share to what the step before left. After
      tile 4 that is the whole sum over the 25600 source rows, because the five tiles partition them and 0 + x = x;
      only associativity and commutativity of the sum are used.
    * The output's block after a last step is the projection of those finished sums beside the kept rows, rectified.
    * The write-backs happen exactly at the last steps; the block written at position 5 i + 4 is rows 512 i … 512 i + 511
      of the output array, and the ten of them cover its 5120 rows (the blocks-to-array step, proved for any float
      values in the module beside this one). So the array ends holding the function above everywhere.
-/
import proofs.«429747_j42236708388901_3_alg».proof.Proof.KVal0a
import proofs.«429747_j42236708388901_3_alg».proof.Proof.KVal0b
import proofs.«429747_j42236708388901_3_alg».proof.Proof.KPay
import proofs.«429747_j42236708388901_3_alg».proof.Proof.Spec
import Idealize.ShloMosaic.Lib.Pipeline.Value
import Mathlib.Algebra.BigOperators.Fin

set_option maxRecDepth 16384

noncomputable section

namespace Cert.Sage.KVal0

open Cert.KernelIdeal Cert.KernelIdeal.Gen Cert.KernelIdeal.Sage Cert.Sage Idealize.ShloMosaic Idealize.ShloMosaic.TcCoe
open Idealize.ShloMosaic.ValueIdx Idealize.SL.Sem
open scoped BigOperators

variable (V : (c : Dev nD) → (b : Ref sig .tc) → Buf (Elt Ideal) ((c : Thread nD τ).loc b)) (c : Dev nD)

/-! ## The running sum, tile by tile -/

/-- Tile k's share of the weighted sum of row r at column q: the 5120 terms whose source row is 5120 k + j. -/
def tileSum (adj : Mat 5120 25600) (xg : Mat 25600 128) (r : Fin 5120) (q : Fin 128) (k : Fin 5) : EReal :=
  ∑ j : Fin 5120, adj (ix2 r ⟨k.val * 5120 + j.val, by omega⟩) * xg (ix2 ⟨k.val * 5120 + j.val, by omega⟩ q)

/-- The shares of tiles 0 … k added in the order the steps add them, from the cleared accumulator. -/
def partSum (adj : Mat 5120 25600) (xg : Mat 25600 128) (r : Fin 5120) (q : Fin 128) : (k : ℕ) → k < 5 → EReal
  | 0, h => 0 + tileSum adj xg r q ⟨0, h⟩
  | k + 1, h => partSum adj xg r q k (Nat.lt_of_succ_lt h) + tileSum adj xg r q ⟨k + 1, h⟩

/-- After the fifth tile that is the whole weighted sum: the five tiles partition the 25600 source rows, and 0 + x = x. -/
theorem partSum_four (adj : Mat 5120 25600) (xg : Mat 25600 128) (r : Fin 5120) (q : Fin 128) :
    partSum adj xg r q 4 (by decide) = agg adj xg (ix2 r q) := by
  show _ = ∑ s : Fin 25600, adj (ix2 r s) * xg (ix2 s q)
  rw [KPay.sum_tiles (fun s => adj (ix2 r s) * xg (ix2 s q)), Fin.sum_univ_five]
  simp only [partSum, zero_add]
  rfl

/-- One step at an entry: the body's product of the point's blocks is the position's tile share of the entry's row. -/
theorem step_apply (t : Fin cfg0.N) (acc : Vec Ideal S512x128 .f32) (p : Fin 512) (q : Fin 128) (r : Fin 5120)
    (hr : r.val = 512 * (t.val / 5) + p.val) (k : Fin 5) (hk : k.val = t.val % 5) :
    k0_pay2 (F := Ideal) (adjBlk V c t) (xgTile V c t) acc (ix2 p q)
      = acc (ix2 p q) + tileSum (adjArr V c) (xgArr V c) r q k := by
  refine (KPay.pay2_0 (adjBlk V c t) (xgTile V c t) acc p q).trans ?_
  refine congrArg (acc (ix2 p q) + ·) ?_
  refine Finset.sum_congr rfl fun j _ => ?_
  exact congrArg₂ (· * ·)
    (adjBlk_apply V c t p j r ⟨k.val * 5120 + j.val, by omega⟩ hr (by show k.val * 5120 + j.val = _; omega))
    (xgTile_apply V c t j q ⟨k.val * 5120 + j.val, by omega⟩ (by show k.val * 5120 + j.val = _; omega))

/-- THE INVARIANT. After position n = 5 i + k the running sum's buffer holds, at (p, q), the shares of tiles 0 … k of
    row 512 i + p: a first step starts from the cleared accumulator, every other step adds its share to what the step
    before left, and the row block does not change inside a run of five. -/
theorem acc_eq : ∀ (n : ℕ) (hn : n < cfg0.N) (k : ℕ) (hk : k < 5), n % 5 = k → ∀ (p : Fin 512) (q : Fin 128) (r : Fin 5120),
    r.val = 512 * (n / 5) + p.val →
    (outsAt0 V c n hn).2 (ix2 p q) = partSum (adjArr V c) (xgArr V c) r q k hk := by
  intro n
  induction n with
  | zero =>
    intro hn k hk hnk p q r hr
    obtain rfl : k = 0 := by omega
    refine (congrFun (acc_A V c ⟨0, hn⟩ rfl (by dsimp only; omega)) (ix2 p q)).trans ?_
    refine (step_apply V c ⟨0, hn⟩ (k0_pay1 (F := Ideal)) p q r hr ⟨0, hk⟩ rfl).trans ?_
    exact congrArg (· + tileSum (adjArr V c) (xgArr V c) r q ⟨0, hk⟩) (KPay.pay1_0 p q)
  | succ n ih =>
    intro hn k hk hnk p q r hr
    by_cases h0 : (n + 1) % 5 = 0
    · obtain rfl : k = 0 := by omega
      refine (congrFun (acc_A V c ⟨n + 1, hn⟩ h0 (by dsimp only; omega)) (ix2 p q)).trans ?_
      refine (step_apply V c ⟨n + 1, hn⟩ (k0_pay1 (F := Ideal)) p q r hr ⟨0, hk⟩ (by show 0 = (n + 1) % 5; omega)).trans ?_
      exact congrArg (· + tileSum (adjArr V c) (xgArr V c) r q ⟨0, hk⟩) (KPay.pay1_0 p q)
    · obtain ⟨k', rfl⟩ : ∃ k', k = k' + 1 := ⟨k - 1, by omega⟩
      have hacc : (outsAt0 V c (n + 1) hn).2
          = k0_pay2 (adjBlk V c ⟨n + 1, hn⟩) (xgTile V c ⟨n + 1, hn⟩) (outsAt0 V c n (Nat.lt_of_succ_lt hn)).2 := by
        by_cases h1 : (n + 1) % 5 = 4
        · exact acc_C V c ⟨n + 1, hn⟩ h0 h1
        · exact acc_B V c ⟨n + 1, hn⟩ h0 h1
      refine (congrFun hacc (ix2 p q)).trans ?_
      refine (step_apply V c ⟨n + 1, hn⟩ (outsAt0 V c n (Nat.lt_of_succ_lt hn)).2 p q r hr ⟨k' + 1, hk⟩
        (by show k' + 1 = (n + 1) % 5; omega)).trans ?_
      exact congrArg (· + tileSum (adjArr V c) (xgArr V c) r q ⟨k' + 1, hk⟩)
        (ih (Nat.lt_of_succ_lt hn) k' (Nat.lt_of_succ_lt hk) (by omega) p q r (by omega))

/-- THE OUTPUT'S BLOCK after a last step, entry by entry: the finished weighted sums of row 512 i + p against the first
    half of the projection, plus the kept row against the second half, rectified. -/
theorem out_apply (t : Fin cfg0.N) (h4 : t.val % 5 = 4) (p : Fin 512) (q : Fin 128) (r : Fin 5120)
    (hr : r.val = 512 * (t.val / 5) + p.val) :
    (outsAt0 V c t.val t.isLt).1 (ix2 p q)
      = max ((∑ k : Fin 128, agg (adjArr V c) (xgArr V c) (ix2 r k) * waArr V c (ix2 k q))
          + ∑ k : Fin 128, xnArr V c (ix2 r k) * wbArr V c (ix2 k q)) 0 := by
  have h0 : ¬t.val % 5 = 0 := by omega
  refine (congrFun (out_C_at V c t h0 h4) (ix2 p q)).trans ?_
  refine (KPay.pay3_0 (outsAt0 V c t.val t.isLt).2 (waBlk V c t) (xnBlk V c t) (wbBlk V c t) p q).trans ?_
  refine congrArg₂ max (congrArg₂ (· + ·) ?_ ?_) rfl
  · refine Finset.sum_congr rfl fun k _ => ?_
    refine congrArg₂ (· * ·) ?_ (waBlk_apply V c t k q)
    exact (acc_eq V c t.val t.isLt 4 (by decide) h4 p k r hr).trans (partSum_four (adjArr V c) (xgArr V c) r k)
  · refine Finset.sum_congr rfl fun k _ => ?_
    exact congrArg₂ (· * ·) (xnBlk_apply V c t p k r hr) (wbBlk_apply V c t k q)

/-! ## From the output's blocks to the output array -/

/-- What the region leaves in the output array: at (n, d) the weighted sums of row n against the first half of the
    projection, plus the kept row n against the second half, rectified. -/
abbrev outArr : Vec Ideal S5120x128 .f32 := fun j =>
  max ((∑ k : Fin 128, agg (adjArr V c) (xgArr V c) (ix2 (j 0) k) * waArr V c (ix2 k (j 1)))
    + ∑ k : Fin 128, xnArr V c (ix2 (j 0) k) * wbArr V c (ix2 k (j 1))) 0

/-- THE REGION'S VALUE: the output array after the region, as one function of the arrays the region is entered with.
    Every last step writes back its block of that function — rows 512 i … 512 i + 511 at position 5 i + 4 —, and the ten
    blocks cover the array's 5120 rows. -/
theorem region0_value :
    ((dat0 (F := Ideal) V c).arrAt 5 cfg0.N : Mat 5120 128)
      = fun j => max ((∑ k : Fin 128, agg (adjArr V c) (xgArr V c) (ix2 (j 0) k) * waArr V c (ix2 k (j 1)))
          + ∑ k : Fin 128, xnArr V c (ix2 (j 0) k) * wbArr V c (ix2 k (j 1))) 0 :=
  arr_of_blocks V c (outArr V c) fun t h4 p q r hr => out_apply V c t h4 p q r hr

end Cert.Sage.KVal0

end
-- ==== Proof.KVal1.lean ====
/-
  What the second aggregation region leaves in its output array, over the extended reals, as one function of the
  arrays the region is entered with.

  The region walks four row blocks of 128 rows. At each it resets a running sum to zero, adds the row block of the
  weights (128 x 5120) times the whole gathered table (5120 x 128; the contracted axis is one tile), and stores the
  projection: the running sum times the first projection matrix plus the block's kept rows times the second. Nothing
  is carried from one block to the next and every block is written back, so the output array's entry (n, d) is

      (sum over k < 128 of (sum over q < 5120 of adj (n, q) * table (q, k)) * w1 (k, d))
        + sum over k < 128 of kept (n, k) * w2 (k, d).

  The proof reads the stores the body makes at a point back as one value of the point's input blocks, reads that value
  at an entry, identifies each input block with the rows of its array the block's position names (row 128 * t + p of
  the weights, the kept rows and the output; the table and the two projections whole), and covers the 512 rows by the
  four blocks: row r lies in block r / 128.
-/
import proofs.«429747_j42236708388901_3_alg».proof.Proof.KI.R1Frame
import proofs.«429747_j42236708388901_3_alg».proof.Proof.KPay
import proofs.«429747_j42236708388901_3_alg».proof.Proof.Spec
import Idealize.ShloMosaic.Lib.Pipeline.Value
import Idealize.ShloMosaic.Lib.Tactic

set_option maxRecDepth 16384

noncomputable section

open scoped BigOperators

namespace Cert.Sage.KVal1

open Cert.KernelIdeal Cert.KernelIdeal.Gen Cert.KernelIdeal.Sage Cert.Sage
open Idealize.ShloMosaic Idealize.ShloMosaic.TcCoe Idealize.ShloMosaic.ValueIdx Idealize.SL.Sem
open Idealize.ShloMosaic.Tactic
open Idealize.ShloMosaic.Pipeline (Dat)

section Piece
variable {F : FTy → Type} [FloatOps F]

theorem hz : (![0, 0] : Fin 2 → Nat) = fun _ => 0 := funext fun a => by fin_cases a <;> rfl

/-- The tile of the gathered table the body loads starts at row 5120 · k, and k = 0 at every point of this grid. -/
theorem off1_zero : ∀ i : grid1.Coords, ∀ a, k1_off1 i a = 0 := by decide +kernel

/-- A load through the whole-shape rectangle at zero offsets of a whole buffer reads its contents. -/
theorem readAt_whole {S : Shape} {e : EltTy} (a : Memref sig .tc .vmem S e) (ha : a.IsWhole) (off : Fin S.rank → Nat)
    (h : off = fun _ => 0) (inb : ∀ b, off b + S.size b ≤ S.size b) (x : Vec F S e) :
    View.readAt (Elt F) a.view (Rect.unit off S.size inb).toLoadRect (ha.unread x) = x := by
  rw [View.readAt_eq_ld, ha.read_unread]
  exact View.ld_unit_zero h inb x

/-- A load through it of what the stores left, the LAST of them through it, reads that store's payload. -/
theorem readCov_cons_whole {S : Shape} {e : EltTy} (v : View sig .tc .vmem S e) (off : Fin S.rank → Nat) (h : off = fun _ => 0)
    (inb : ∀ b, off b + S.size b ≤ S.size b) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- What the body leaves in the output's buffer at a point: the projection of the freshly reset running sum plus the
    row block's whole product, beside the kept rows. -/
theorem piece1 (c : Dev nD) (i : grid1.Coords) (arg2 : Memref sig .tc .vmem S128x5120 .f32) (harg2 : arg2.IsWhole) (arg3 : Memref sig .tc .vmem S5120x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (hc0 : cond1_0 i)
    (x0 : Vec F S128x5120 .f32) (x1 : Vec F S5120x128 .bf16) (x2 : Vec F S128x128 .f32) (x3 : Vec F S128x128 .f32) (x4 : Vec F S128x128 .f32) :
    out1_5 c i arg2 harg2 arg3 harg3 arg4 harg4 arg5 harg5 arg6 harg6 arg7 harg7 arg8 harg8 hc0 x0 x1 x2 x3 x4
      = k1_pay3 (k1_pay2 x0 x1 (k1_pay1 (F := F))) x3 x2 x4 := by
  unfold out1_5
  rw [View.read_writes_eq_canon _ _ _ (cover1_5 c i arg2 harg2 arg3 harg3 arg4 harg4 arg5 harg5 arg6 harg6 arg7 harg7 arg8 harg8 hc0 x0 x1 x2 x3 x4)]
  unfold kernelRun1
  dsimp only
  sl_unfold_words
  rw [View.canon_cons_unit_zero (S := S128x128) hz]
  have e0 := readAt_whole (F := F) arg2 harg2 ![0, 0] hz inb_S128x5120_S128x5120_0_0 x0
  have e1 := readAt_whole (F := F) arg3 harg3 (k1_off1 i) (funext (off1_zero i)) (k1_off1_inb i) x1
  have e2 := readAt_whole (F := F) arg4 harg4 ![0, 0] hz inb_S128x128_S128x128_0_0 x2
  have e3 := readAt_whole (F := F) arg5 harg5 ![0, 0] hz inb_S128x128_S128x128_0_0 x3
  have e4 := readAt_whole (F := F) arg6 harg6 ![0, 0] hz inb_S128x128_S128x128_0_0 x4
  have eP := View.readCov_unit_zero (Val := Elt F) arg8.view hz inb_S128x128_S128x128_0_0 (k1_pay1 (F := F))
  refine congr (congr (congr (congrArg k1_pay3 ?_) e3) e2) e4
  refine (readCov_cons_whole (F := F) arg8.view ![0, 0] hz inb_S128x128_S128x128_0_0 _ _).trans ?_
  exact congr (congr (congrArg k1_pay2 e0) e1) eP
end Piece

section Value

/-- The body's result at an entry, over the extended reals: the row block's whole product against the first
    projection, plus the kept rows against the second. -/
theorem body_entry (x0 : Vec Ideal S128x5120 .f32) (x1 : Vec Ideal S5120x128 .bf16) (x2 x3 x4 : Vec Ideal S128x128 .f32)
    (p q : Fin 128) :
    k1_pay3 (F := Ideal) (k1_pay2 x0 x1 (k1_pay1 (F := Ideal))) x3 x2 x4 (ix2 p q)
      = (∑ k : Fin 128, (∑ r : Fin 5120, x0 (ix2 p r) * x1 (ix2 r k)) * x3 (ix2 k q))
        + ∑ k : Fin 128, x2 (ix2 p k) * x4 (ix2 k q) := by
  refine (KPay.pay3_1 (k1_pay2 x0 x1 (k1_pay1 (F := Ideal))) x3 x2 x4 p q).trans ?_
  refine congrArg (· + ∑ k : Fin 128, x2 (ix2 p k) * x4 (ix2 k q)) ?_
  refine Finset.sum_congr rfl fun k _ => ?_
  refine congrArg (· * x3 (ix2 k q)) ?_
  refine (KPay.pay2_1 x0 x1 (k1_pay1 (F := Ideal)) p k).trans ?_
  rw [KPay.pay1_1, zero_add]

variable (V : (c : Dev nD) → (b : Ref sig .tc) → Buf (Elt Ideal) ((c : Thread nD τ).loc b)) (c : Dev nD)

/-- The arrays the region is entered with, at their literal types. -/
abbrev arrA : Mat 512 5120 := V c main_arg7
abbrev arrX : Mat 5120 128 := V c main_v9
abbrev arrN : Mat 512 128 := V c main_v10
abbrev arrW1 : Mat 128 128 := V c main_v11
abbrev arrW2 : Mat 128 128 := V c main_v12

/-- What the output array ends holding. -/
def G : Mat 512 128 := fun j =>
  (∑ k : Fin 128, agg (arrA V c) (arrX V c) (ix2 (j 0) k) * arrW1 V c (ix2 k (j 1)))
    + ∑ k : Fin 128, arrN V c (ix2 (j 0) k) * arrW2 V c (ix2 k (j 1))

/-- The block indices over the grid: the weights', the kept rows' and the output's row block is the point; the table
    and the two projections are whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blk0_apply (t : Fin cfg1.N) (p : Fin 128) (q : Fin 5120) (r : Fin 512) (hr : r.val = 128 * t.val + p.val) :
    (iblk1 V c 0 t : Vec Ideal S128x5120 .f32) (ix2 p q) = arrA V c (ix2 r q) := by
  unfold iblk1
  rw [View.read_apply]
  show V c main_arg7 (((cfg1.win 0).blk t).view.emb (ix2 p q)) = V c main_arg7 (ix2 r q)
  refine congrArg (V c main_arg7) (funext fun a => Fin.ext ?_)
  obtain ⟨e0, e1, -⟩ := idx_facts t
  match a with
  | ⟨0, _⟩ => show win1_0.index t (0 : Fin 2) * 128 + 1 * p.val = r.val; omega
  | ⟨1, _⟩ => show win1_0.index t (1 : Fin 2) * 5120 + 1 * q.val = q.val; omega

theorem blk1_eq (t : Fin cfg1.N) : (iblk1 V c 1 t : Vec Ideal S5120x128 .bf16) = arrX V c := by
  funext y
  unfold iblk1
  rw [View.read_apply]
  show V c main_v9 (((cfg1.win 1).blk t).view.emb y) = V c main_v9 y
  refine congrArg (V c main_v9) (funext fun a => Fin.ext ?_)
  obtain ⟨-, -, e0, e1, -⟩ := idx_facts t
  match a with
  | ⟨0, _⟩ => show win1_1.index t (0 : Fin 2) * 5120 + 1 * (y 0).val = (y 0).val; omega
  | ⟨1, _⟩ => show win1_1.index t (1 : Fin 2) * 128 + 1 * (y 1).val = (y 1).val; omega

theorem blk2_apply (t : Fin cfg1.N) (p q : Fin 128) (r : Fin 512) (hr : r.val = 128 * t.val + p.val) :
    (iblk1 V c 2 t : Vec Ideal S128x128 .f32) (ix2 p q) = arrN V c (ix2 r q) := by
  unfold iblk1
  rw [View.read_apply]
  show V c main_v10 (((cfg1.win 2).blk t).view.emb (ix2 p q)) = V c main_v10 (ix2 r q)
  refine congrArg (V c main_v10) (funext fun a => Fin.ext ?_)
  obtain ⟨-, -, -, -, e0, e1, -⟩ := idx_facts t
  match a with
  | ⟨0, _⟩ => show win1_2.index t (0 : Fin 2) * 128 + 1 * p.val = r.val; omega
  | ⟨1, _⟩ => show win1_2.index t (1 : Fin 2) * 128 + 1 * q.val = q.val; omega

theorem blk3_eq (t : Fin cfg1.N) : (iblk1 V c 3 t : Vec Ideal S128x128 .f32) = arrW1 V c := by
  funext y
  unfold iblk1
  rw [View.read_apply]
  show V c main_v11 (((cfg1.win 3).blk t).view.emb y) = V c main_v11 y
  refine congrArg (V c main_v11) (funext fun a => Fin.ext ?_)
  obtain ⟨-, -, -, -, -, -, e0, e1, -⟩ := idx_facts t
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blk4_eq (t : Fin cfg1.N) : (iblk1 V c 4 t : Vec Ideal S128x128 .f32) = arrW2 V c := by
  funext y
  unfold iblk1
  rw [View.read_apply]
  show V c main_v12 (((cfg1.win 4).blk t).view.emb y) = V c main_v12 y
  refine congrArg (V c main_v12) (funext fun a => Fin.ext ?_)
  obtain ⟨-, -, -, -, -, -, -, -, e0, e1, -⟩ := idx_facts t
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The output block's entry (p, q) at point t sits in the array at row 128 · t + p, column q. -/
theorem emb5 (t : Fin cfg1.N) (p q : Fin 128) (r : Fin 512) (hr : r.val = 128 * t.val + p.val) :
    (((cfg1.win 5).blk t).view.emb (ix2 p q) : S512x128.Idx) = ix2 r q := by
  refine funext fun a => Fin.ext ?_
  obtain ⟨-, -, -, -, -, -, -, -, -, -, e0, e1⟩ := idx_facts t
  match a with
  | ⟨0, _⟩ => show win1_5.index t (0 : Fin 2) * 128 + 1 * p.val = r.val; omega
  | ⟨1, _⟩ => show win1_5.index t (1 : Fin 2) * 128 + 1 * q.val = q.val; omega

/-- What point t writes back is block t of G. -/
theorem flushed_eq (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold outAt1
  rw [piece1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (hcond1_0 t) (iblk1 V c 0 t) (iblk1 V c 1 t) (iblk1 V c 2 t) (iblk1 V c 3 t) (iblk1 V c 4 t)]
  funext y
  obtain ⟨p, q, rfl⟩ : ∃ (p : Fin 128) (q : Fin 128), y = ix2 p q := ⟨y 0, y 1, eq_ix2 y⟩
  have hN : cfg1.N = 4 := N_1
  have hr : 128 * t.val + p.val < 512 := by have := t.isLt; have := p.isLt; omega
  rw [View.read_apply]
  show k1_pay3 (F := Ideal) (k1_pay2 (iblk1 V c 0 t) (iblk1 V c 1 t) (k1_pay1 (F := Ideal))) (iblk1 V c 3 t) (iblk1 V c 2 t) (iblk1 V c 4 t) (ix2 p q)
    = G V c (((cfg1.win 5).blk t).view.emb (ix2 p q))
  rw [emb5 t p q ⟨128 * t.val + p.val, hr⟩ rfl]
  refine (body_entry (iblk1 V c 0 t) (iblk1 V c 1 t) (iblk1 V c 2 t) (iblk1 V c 3 t) (iblk1 V c 4 t) p q).trans ?_
  show _ = (∑ k : Fin 128, (∑ s : Fin 5120, arrA V c (ix2 ⟨128 * t.val + p.val, hr⟩ s) * arrX V c (ix2 s k)) * arrW1 V c (ix2 k q))
    + ∑ k : Fin 128, arrN V c (ix2 ⟨128 * t.val + p.val, hr⟩ k) * arrW2 V c (ix2 k q)
  rw [blk1_eq V c t, blk3_eq V c t, blk4_eq V c t]
  refine congrArg₂ (· + ·) (Finset.sum_congr rfl fun k _ => ?_) (Finset.sum_congr rfl fun k _ => ?_)
  · refine congrArg (· * arrW1 V c (ix2 k q)) (Finset.sum_congr rfl fun s _ => ?_)
    rw [blk0_apply V c t p s ⟨128 * t.val + p.val, hr⟩ rfl]
  · rw [blk2_apply V c t p k ⟨128 * t.val + p.val, hr⟩ rfl]

/-- An index of the array is in point t's block iff each coordinate is in the block's range on its axis. -/
theorem mem_blk5 (t : Fin cfg1.N) (i : S512x128.Idx) :
    i ∈ ((cfg1.win 5).blk t).view.set ↔ ∀ a : Fin 2, win1_5.index t a * S128x128.size a ≤ (i a).val ∧ (i a).val < win1_5.index t a * S128x128.size a + S128x128.size a := by
  show i ∈ ((View.whole main_v13).slice (win1_5.rect t)).set ↔ _
  rw [View.set_slice_whole, Rect.mem_set_unit]
  exact Iff.rfl

/-- The four row blocks cover the 512 rows: row r is in block r / 128. -/
theorem cover5 (i : S512x128.Idx) : ∃ t : Fin cfg1.N, (cfg1.win 5).flush t = true ∧ i ∈ ((cfg1.win 5).blk t).view.set := by
  have hN : cfg1.N = 4 := N_1
  have hi0 : (i 0).val < 512 := (i 0).isLt
  have hi1 : (i 1).val < 128 := (i 1).isLt
  refine ⟨⟨(i 0).val / 128, by omega⟩, flush1_5 _, ?_⟩
  rw [mem_blk5]
  obtain ⟨-, -, -, -, -, -, -, -, -, -, e0, e1⟩ := idx_facts ⟨(i 0).val / 128, by omega⟩
  intro a
  match a with
  | ⟨0, _⟩ => show win1_5.index _ (0 : Fin 2) * 128 ≤ (i 0).val ∧ (i 0).val < win1_5.index _ (0 : Fin 2) * 128 + 128; rw [e0]; dsimp only; omega
  | ⟨1, _⟩ => show win1_5.index _ (1 : Fin 2) * 128 ≤ (i 1).val ∧ (i 1).val < win1_5.index _ (1 : Fin 2) * 128 + 128; rw [e1]; omega

/-- The output array after the second aggregation region. -/
theorem region1_value :
    ((dat1 (F := Ideal) V c).arrAt 5 cfg1.N : Mat 512 128)
      = fun j => (∑ k : Fin 128, agg (arrA V c) (arrX V c) (ix2 (j 0) k) * arrW1 V c (ix2 k (j 1)))
                 + ∑ k : Fin 128, arrN V c (ix2 (j 0) k) * arrW2 V c (ix2 k (j 1)) :=
  (dat1 (F := Ideal) V c).arrAt_eq_of_cover 5 (G V c) (fun t _ => flushed_eq V c t) (cover5)

end Value

end Cert.Sage.KVal1

end
-- ==== Proof.LibRowGather.lean ====
/-
  A row gather read at an element.

  A gather of whole rows of an [R, C] operand at N start indices (result axis 1 the one offset axis,
  operand axis 0 collapsed and named by the start index map, index vectors along axis 1 of an [N, 1]
  array) reads, at (n, k), the operand at column k of the row idx[n, 0] read signed and clamped into
  [0, R − 1]: a negative word reads row 0, a word beyond the last row reads row R − 1.
-/
import Idealize.ShloMosaic.PureOps.ShapeOps
import Idealize.ShloMosaic.PureOps.Dims
import Idealize.ShloMosaic.Lib.ValueIdx
import Idealize.ShloMosaic.Lib.Pipeline.Value

namespace Cert.Lib.RowGather

open Idealize.ShloMosaic
open Idealize.ShloMosaic.ValueIdx

/-! ## The pieces of the operand index, for the [N, C] result layout

The result's axis 1 is its one offset axis, so its axis 0 is its one batch axis; the start indices are an [N, 1]
array whose axis 1 is the index vector, so a start index has one component and result row n reads it at (n, 0). -/

section Pieces
variable {R C N : ℕ} (d : GatherDims ⟨2, ![R, C]⟩ ⟨2, ![N, 1]⟩ ⟨2, ![N, C]⟩)

/-- A list that is a one-element list has that element at every position. -/
theorem getElem_eq_of_singleton {β : Type} {l : List β} {v : β} (e : l = [v]) (i : ℕ) (hi : i < l.length) :
    l[i] = v :=
  List.mem_singleton.mp (e ▸ List.getElem_mem hi)

/-- The position of the start indices read for result index j: row j 0, and 0 along the index vector (an axis of
    extent 1 has no other position). -/
theorem siIdx_row (h1 : d.offsetDims = [1]) (h6 : d.indexVectorDim = 1) (j : (⟨2, ![N, C]⟩ : Shape).Idx)
    (c : Fin d.startIndexMap.length) : d.siIdx j c = ix2 (n0 := N) (n1 := 1) (j 0) ⟨0, Nat.one_pos⟩ := by
  funext b
  refine Fin.ext ?_
  match b with
  | ⟨0, _⟩ =>
    unfold GatherDims.siIdx
    rw [dif_neg (by rw [h6]; exact Nat.zero_ne_one)]
    unfold GatherDims.siCoord
    have hbd : d.batchDims = [0] := by
      show Shape.kept _ d.offsetDims = _
      rw [h1]; rfl
    exact congrArg (fun a => (j a).val) (getElem_eq_of_singleton hbd _ _)
  | ⟨1, _⟩ =>
    show (d.siIdx j c ⟨1, _⟩).val = 0
    exact Nat.lt_one_iff.mp (d.siIdx j c ⟨1, _⟩).isLt

/-- The row axis of the operand is collapsed and is the one axis the start index map names: the slice starts at the
    start index read signed and clamped into [0, R − 1], and there is no offset on it. -/
theorem row_coord (h1 : d.offsetDims = [1]) (h2 : d.collapsedSliceDims = [0]) (h5 : d.startIndexMap = [0])
    (h6 : d.indexVectorDim = 1) (j : (⟨2, ![N, C]⟩ : Shape).Idx) (idx : IVec ⟨2, ![N, 1]⟩ 32) :
    d.start j idx 0 + d.offCoord j 0
      = min (idx (ix2 (n0 := N) (n1 := 1) (j 0) ⟨0, Nat.one_pos⟩)).toInt.toNat (R - 1) := by
  have hc : (0 : Fin 2) ∈ d.collapsedSliceDims := by rw [h2]; exact List.mem_singleton_self _
  have hm : (0 : Fin 2) ∈ d.startIndexMap := by rw [h5]; exact List.mem_singleton_self _
  rw [d.offCoord_eq_zero j 0 (fun hk => ((d.mem_sKept _).1 hk).1 hc), Nat.add_zero]
  unfold GatherDims.start
  rw [dif_pos hm, siIdx_row d h1 h6, d.slice_collapsed 0 hc]
  rfl

/-- The column axis of the operand is kept whole and the start index map does not name it: the slice starts at 0
    and the offset is the result's column. -/
theorem col_coord (h1 : d.offsetDims = [1]) (h2 : d.collapsedSliceDims = [0]) (h3 : d.operandBatchingDims = [])
    (h5 : d.startIndexMap = [0]) (j : (⟨2, ![N, C]⟩ : Shape).Idx) (idx : IVec ⟨2, ![N, 1]⟩ 32) :
    d.start j idx 1 + d.offCoord j 1 = (j 1).val := by
  have hne : ∀ {l : List (Fin 2)}, l = [0] → (1 : Fin 2) ∉ l := fun e h =>
    Nat.one_ne_zero (congrArg Fin.val (List.mem_singleton.mp (e ▸ h)))
  have hnm : (1 : Fin 2) ∉ d.startIndexMap := hne h5
  have hnc : (1 : Fin 2) ∉ d.collapsedSliceDims := hne h2
  have hnb : (1 : Fin 2) ∉ d.operandBatchingDims := by rw [h3]; exact List.not_mem_nil
  unfold GatherDims.start GatherDims.offCoord
  rw [dif_neg hnm, dif_pos ((d.mem_sKept 1).2 ⟨hnc, hnb⟩), Nat.zero_add]
  exact congrArg (fun a => (j a).val) (getElem_eq_of_singleton h1 _ _)

end Pieces

/-- THE ROW GATHER: result element (n, k) is the operand at row idx[n, 0] (signed, clamped) and column k. -/
theorem rowGather_apply {α : Type} {R C N : ℕ} (d : GatherDims ⟨2, ![R, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![R, C]⟩ : Shape).Idx → α) (idx : IVec ⟨2, ![N, 1]⟩ 32) (n : Fin N) (k : Fin C) (hR : 0 < R) :
    Host.gather d x idx (ix2 n k)
      = x (ix2 (n0 := R) (n1 := C) ⟨min (idx (ix2 (n0 := N) (n1 := 1) n ⟨0, Nat.one_pos⟩)).toInt.toNat (R - 1), by omega⟩ k) := by
  unfold Host.gather
  congr 1
  funext a
  refine Fin.ext ?_
  show d.start (ix2 n k) idx a + d.batchCoord (ix2 n k) a + d.offCoord (ix2 n k) a = _
  rw [d.batchCoord_eq_zero _ a (by rw [h3]; exact List.not_mem_nil), Nat.add_zero]
  match a with
  | ⟨0, _⟩ => exact row_coord d h1 h2 h5 h6 (ix2 n k) idx
  | ⟨1, _⟩ => exact col_coord d h1 h2 h3 h5 (ix2 n k) idx

end Cert.Lib.RowGather
-- ==== Proof.LibClampIndex.lean ====
/-
  Scalar facts about the index arithmetic of a trilinear sampler, at the ideal
  (extended-real) reading of the float operations: a clipped and floored coordinate
  is an integer in [0, B]; its upper neighbour, capped at B, is too; a flat index
  z·(H·W) + y·W + x computed in 32-bit words does not wrap when D·H·W ≤ 2^31; the
  negative-index normalisation and the in-range test are then trivial.
-/
import Idealize.ShloMosaic.PureOps.Ideal

namespace Cert.Lib.ClampIndex

open Idealize.ShloMosaic

/-- A signed 32-bit word lies in [-2^31, 2^31). -/
theorem toInt_bounds (v : BitVec 32) : -2147483648 ≤ v.toInt ∧ v.toInt < 2147483648 := by
  have h1 := BitVec.le_toInt v
  have h2 := @BitVec.toInt_lt 32 v
  norm_num at h1 h2
  exact ⟨h1, h2⟩

/-- An integer in [-2^31, 2^31) is its own balanced residue modulo 2^32. -/
theorem bmod_self (v : ℤ) (h0 : -2147483648 ≤ v) (h1 : v < 2147483648) : v.bmod (2 ^ 32) = v := by
  apply Int.bmod_eq_of_le <;> norm_num <;> omega

/-- The word sum of two signed words whose integer sum fits in 32 bits is that integer sum. -/
theorem toInt_add_of_fits (a c : BitVec 32) (h0 : -2147483648 ≤ a.toInt + c.toInt)
    (h1 : a.toInt + c.toInt < 2147483648) : (a + c).toInt = a.toInt + c.toInt := by
  rw [BitVec.toInt_add]; exact bmod_self _ h0 h1

/-- The word product of two signed words whose integer product fits in 32 bits is that integer product. -/
theorem toInt_mul_of_fits (a c : BitVec 32) (h0 : -2147483648 ≤ a.toInt * c.toInt)
    (h1 : a.toInt * c.toInt < 2147483648) : (a * c).toInt = a.toInt * c.toInt := by
  rw [BitVec.toInt_mul]; exact bmod_self _ h0 h1

/-- The neighbour index min(i + 1, B) of an index 0 ≤ i ≤ B stays in [0, B]. -/
theorem next_range (i b : BitVec 32) (hi0 : 0 ≤ i.toInt) (hib : i.toInt ≤ b.toInt) (hb : b.toInt < 2^31 - 1) :
    0 ≤ (IntOp.minsi (IntOp.addi i 1#32) b).toInt ∧ (IntOp.minsi (IntOp.addi i 1#32) b).toInt ≤ b.toInt := by
  have h1 : (1#32 : BitVec 32).toInt = 1 := by decide
  have hadd : (i + 1#32).toInt = i.toInt + 1 := by
    have := toInt_add_of_fits i 1#32 (by rw [h1]; omega) (by rw [h1]; omega)
    rw [this, h1]
  have hs : (i + 1#32).slt b = decide (i.toInt + 1 < b.toInt) := by rw [BitVec.slt_eq_decide, hadd]
  unfold IntOp.minsi IntOp.addi
  rw [hs]
  by_cases h : i.toInt + 1 < b.toInt
  · rw [decide_eq_true h, if_pos rfl, hadd]; omega
  · rw [decide_eq_false h, if_neg (by decide)]; omega

/-- Over the integers: for 0 ≤ z < D, 0 ≤ y < H, 0 ≤ x < W, the row offset y·W + x is below H·W and
    the plane offset z·(H·W) leaves room for a whole plane below D·H·W. -/
theorem flat_int_bounds (z y x : ℤ) (D H W : ℕ) (hz0 : 0 ≤ z) (hz : z < D) (hy0 : 0 ≤ y) (hy : y < H)
    (hx0 : 0 ≤ x) (hx : x < W) :
    0 ≤ y * W ∧ y * W + x < (H : ℤ) * W ∧ 0 ≤ z * ((H : ℤ) * W) ∧ z * ((H : ℤ) * W) + (H : ℤ) * W ≤ (D : ℤ) * H * W := by
  have hW0 : (0 : ℤ) ≤ W := Int.natCast_nonneg W
  have hHW0 : (0 : ℤ) ≤ (H : ℤ) * W := Int.mul_nonneg (Int.natCast_nonneg H) hW0
  have hyW : y * W + x < (H : ℤ) * W := by
    have : (y + 1) * W ≤ (H : ℤ) * W := Int.mul_le_mul_of_nonneg_right (by omega) hW0
    rw [Int.add_mul, Int.one_mul] at this
    omega
  have hzHW : z * ((H : ℤ) * W) + (H : ℤ) * W ≤ (D : ℤ) * H * W := by
    have : (z + 1) * ((H : ℤ) * W) ≤ (D : ℤ) * ((H : ℤ) * W) :=
      Int.mul_le_mul_of_nonneg_right (by omega) hHW0
    rw [Int.add_mul, Int.one_mul] at this
    have e : (D : ℤ) * H * W = (D : ℤ) * ((H : ℤ) * W) := Int.mul_assoc _ _ _
    rw [e]; exact this
  exact ⟨Int.mul_nonneg hy0 hW0, hyW, Int.mul_nonneg hz0 hHW0, hzHW⟩

/-- The flat index z·(H·W) + y·W + x of a point of a D × H × W grid, computed in 32-bit words, does not
    wrap when D·H·W ≤ 2^31: it is the same expression over the integers. -/
theorem flat_toInt (z y x hw wc : BitVec 32) (D H W : ℕ) (hhw : hw.toInt = H * W) (hwc : wc.toInt = W)
    (hD : (D * H * W : ℤ) ≤ 2^31) (hz0 : 0 ≤ z.toInt) (hz : z.toInt < D) (hy0 : 0 ≤ y.toInt) (hy : y.toInt < H)
    (hx0 : 0 ≤ x.toInt) (hx : x.toInt < W) :
    (IntOp.addi (IntOp.addi (IntOp.muli z hw) (IntOp.muli y wc)) x).toInt
      = z.toInt * (H * W) + y.toInt * W + x.toInt := by
  -- every partial value lies in [0, D·H·W), hence in the signed 32-bit range
  obtain ⟨hyW0, hyW, hzHW0, hzHW⟩ := flat_int_bounds z.toInt y.toInt x.toInt D H W hz0 hz hy0 hy hx0 hx
  have hD' : (D : ℤ) * H * W ≤ 2147483648 := by norm_num at hD; exact hD
  unfold IntOp.addi IntOp.muli
  have hm1 : (z * hw).toInt = z.toInt * ((H : ℤ) * W) := by
    rw [toInt_mul_of_fits z hw (by rw [hhw]; omega) (by rw [hhw]; omega), hhw]
  have hm2 : (y * wc).toInt = y.toInt * W := by
    rw [toInt_mul_of_fits y wc (by rw [hwc]; omega) (by rw [hwc]; omega), hwc]
  have ha1 : (z * hw + y * wc).toInt = z.toInt * ((H : ℤ) * W) + y.toInt * W := by
    rw [toInt_add_of_fits _ _ (by rw [hm1, hm2]; omega) (by rw [hm1, hm2]; omega), hm1, hm2]
  rw [toInt_add_of_fits _ _ (by rw [ha1]; omega) (by rw [ha1]; omega), ha1]

/-- The flat index of a point of a D × H × W grid lies in [0, D·H·W). -/
theorem flat_range (z y x hw wc : BitVec 32) (D H W : ℕ) (hhw : hw.toInt = H * W) (hwc : wc.toInt = W)
    (hD : (D * H * W : ℤ) ≤ 2^31) (hz0 : 0 ≤ z.toInt) (hz : z.toInt < D) (hy0 : 0 ≤ y.toInt) (hy : y.toInt < H)
    (hx0 : 0 ≤ x.toInt) (hx : x.toInt < W) :
    0 ≤ (IntOp.addi (IntOp.addi (IntOp.muli z hw) (IntOp.muli y wc)) x).toInt
      ∧ (IntOp.addi (IntOp.addi (IntOp.muli z hw) (IntOp.muli y wc)) x).toInt < D * H * W := by
  rw [flat_toInt z y x hw wc D H W hhw hwc hD hz0 hz hy0 hy hx0 hx]
  obtain ⟨hyW0, hyW, hzHW0, hzHW⟩ := flat_int_bounds z.toInt y.toInt x.toInt D H W hz0 hz hy0 hy hx0 hx
  constructor <;> omega

/-- jnp's negative-index normalisation (add n when i < 0) is the identity on a non-negative index. -/
theorem norm_id (i n : BitVec 32) (hi0 : 0 ≤ i.toInt) :
    Scalar.select (IntOp.cmpi .slt i 0#32) (IntOp.addi i n) i = i := by
  have h0 : (0#32 : BitVec 32).toInt = 0 := by decide
  have hs : i.slt 0#32 = false := by
    rw [BitVec.slt_eq_decide, h0]; exact decide_eq_false (by omega)
  unfold Scalar.select IntOp.cmpi
  simp only [hs]
  rw [if_neg (by decide)]

/-- The in-range test 0 ≤ i ∧ i ≤ mx answers true on an index in [0, mx]. -/
theorem inrange_true (i mx : BitVec 32) (hi0 : 0 ≤ i.toInt) (hi : i.toInt ≤ mx.toInt) :
    IntOp.andi (IntOp.cmpi .sge i 0#32) (IntOp.cmpi .sle i mx) = 1#1 := by
  have h0 : (0#32 : BitVec 32).toInt = 0 := by decide
  have hs1 : (0#32 : BitVec 32).sle i = true := by
    rw [BitVec.sle_eq_decide, h0]; exact decide_eq_true hi0
  have hs2 : i.sle mx = true := by
    rw [BitVec.sle_eq_decide]; exact decide_eq_true hi
  unfold IntOp.andi IntOp.cmpi
  simp only [hs1, hs2]
  decide

/-- A non-negative signed word, read as a natural number and back as an integer, is itself. -/
theorem toNat_of_range (i : BitVec 32) (hi0 : 0 ≤ i.toInt) : (i.toInt.toNat : ℤ) = i.toInt :=
  Int.toNat_of_nonneg hi0

/-- Capping a natural index below M at M − 1 leaves it unchanged. -/
theorem min_toNat_of_lt (i : BitVec 32) (M : ℕ) (hi0 : 0 ≤ i.toInt) (hi : i.toInt < M) :
    min i.toInt.toNat (M - 1) = i.toInt.toNat := by
  have := toNat_of_range i hi0
  omega

/-- The natural-number reading of a signed word in [0, M) is below M. -/
theorem toNat_lt_of_range (i : BitVec 32) (M : ℕ) (hi0 : 0 ≤ i.toInt) (hi : i.toInt < M) :
    i.toInt.toNat < M := by
  have := toNat_of_range i hi0
  omega

/-- An extended real between 0 and a real B is itself a real, in [0, B]. -/
theorem exists_real_of_mem (c : EReal) (B : ℝ) (h0 : 0 ≤ c) (hB : c ≤ (B : EReal)) :
    ∃ r : ℝ, c = (r : EReal) ∧ 0 ≤ r ∧ r ≤ B := by
  induction c using EReal.rec with
  | bot => exact absurd h0 (not_le.mpr EReal.bot_lt_zero)
  | top => exact absurd hB (not_le.mpr (EReal.coe_lt_top B))
  | coe r => exact ⟨r, rfl, EReal.coe_nonneg.mp h0, EReal.coe_le_coe_iff.mp hB⟩

/-- Clipping any extended real x to [0, B] (B ≥ 0 a signed word read as a real) gives a real in [0, B],
    whatever x is: an infinity is clipped to an end of the interval. -/
theorem clamp_real (b : BitVec 32) (hb : 0 ≤ b.toInt) (x : Ideal .f32) :
    ∃ r : ℝ, FloatOps.minimumf (FloatOps.sitofp (F := Ideal) .f32 b)
        (FloatOps.maximumf (FloatOps.ofBits (F := Ideal) .f32 0x00000000#32) x) = ((r : ℝ) : EReal)
      ∧ 0 ≤ r ∧ r ≤ (b.toInt : ℝ) := by
  have hz : FloatOps.ofBits (F := Ideal) .f32 0x00000000#32 = (0 : EReal) := by
    simp [Ideal.ofBits, Ideal.ieee]
  apply exists_real_of_mem
  · show (0 : EReal) ≤ min (((b.toInt : ℝ)) : EReal) (max (FloatOps.ofBits (F := Ideal) .f32 0x00000000#32) x)
    rw [hz]
    exact le_min (EReal.coe_nonneg.mpr (by exact_mod_cast hb)) (le_max_left _ _)
  · exact min_le_left _ _

/-- Flooring a real r in [0, B], with B below 2^31, and converting to a signed 32-bit word gives the word
    whose signed value is ⌊r⌋: neither the conversion's clamp nor the word's wrap-around intervenes. -/
theorem fptosi_floor_coe (r : ℝ) (B : ℤ) (h0 : 0 ≤ r) (hB : r ≤ (B : ℝ)) (hB31 : B < 2147483648) :
    (Ideal.fptosi 32 (Ideal.liftRound Int.floor (r : EReal))).toInt = ⌊r⌋ := by
  have hf0 : 0 ≤ ⌊r⌋ := Int.floor_nonneg.mpr h0
  have hfB : ⌊r⌋ ≤ B := by
    have : ⌊r⌋ ≤ ⌊(B : ℝ)⌋ := Int.floor_le_floor hB
    rwa [Int.floor_intCast] at this
  have hnn : (0 : ℝ) ≤ ((⌊r⌋ : ℤ) : ℝ) := by exact_mod_cast hf0
  rw [Ideal.liftRound_coe, Ideal.fptosi, Ideal.toIntClamped_coe, if_pos hnn, Int.floor_intCast]
  have hmin : min ((((2 ^ (32 - 1) : ℕ)) : ℤ) - 1) ⌊r⌋ = ⌊r⌋ := min_eq_right (by norm_num; omega)
  have hmax : max (-(((2 ^ (32 - 1) : ℕ)) : ℤ)) ⌊r⌋ = ⌊r⌋ := max_eq_right (by norm_num; omega)
  rw [hmin, hmax, BitVec.toInt_ofInt]
  exact bmod_self _ (by omega) (by omega)

/-- The clipped, floored and converted coordinate equals the floor of the clipped real: there is a real
    r in [0, B] that the clip produces and the resulting signed word is ⌊r⌋. -/
theorem clampFloor_eq (b : BitVec 32) (hb : 0 ≤ b.toInt) (x : Ideal .f32) :
    ∃ r : ℝ, FloatOps.minimumf (FloatOps.sitofp (F := Ideal) .f32 b)
        (FloatOps.maximumf (FloatOps.ofBits (F := Ideal) .f32 0x00000000#32) x) = ((r : ℝ) : EReal)
      ∧ 0 ≤ r ∧ r ≤ (b.toInt : ℝ)
      ∧ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt = ⌊r⌋ := by
  obtain ⟨r, hr, hr0, hrB⟩ := clamp_real b hb x
  refine ⟨r, hr, hr0, hrB, ?_⟩
  rw [hr]
  exact fptosi_floor_coe r b.toInt hr0 hrB (toInt_bounds b).2

/-- A coordinate clipped to [0, B], floored and converted to a signed 32-bit word is an index in [0, B]. -/
theorem clampFloor_range (b : BitVec 32) (hb : 0 ≤ b.toInt) (x : Ideal .f32) :
    0 ≤ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt
      ∧ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt ≤ b.toInt := by
  obtain ⟨r, _, hr0, hrB, hi⟩ := clampFloor_eq b hb x
  rw [hi]
  refine ⟨Int.floor_nonneg.mpr hr0, ?_⟩
  have : ⌊r⌋ ≤ ⌊(b.toInt : ℝ)⌋ := Int.floor_le_floor hrB
  rwa [Int.floor_intCast] at this

end Cert.Lib.ClampIndex
-- ==== Proof.KHost.lean ====
/-
  What the host operations of the idealized kernel program leave in the arrays its two kernel regions read,
  each read at an index.

  A take along axis 0 (jnp.take with its default bounds rule) is printed as: wrap a negative index by adding the
  table's extent, lay the index vector as a column, test every entry against [0, extent − 1], gather with the
  start index clamped into the table, and put a fill value wherever the test failed. On an index vector whose
  words all lie in [0, extent) the wrap is the identity, the test is 1 everywhere, so the fill is never chosen and
  the take is the clamped gather: for a table of rows the specification's row selection, for a table of words the
  word the clamped index names. A take of rows through a take of words is therefore the row selection through the
  row selection. A narrowing of the float format is the identity on extended reals, and a slice of 128 rows reads
  its operand at the row offset. Each array is followed from the valuation the region is entered with back through
  the stretches of host operations to the one that wrote it.
-/
import proofs.«429747_j42236708388901_3_alg».proof.Proof.Gen.KernelIdeal.Regions
import proofs.«429747_j42236708388901_3_alg».proof.Proof.Spec
import proofs.«429747_j42236708388901_3_alg».proof.Proof.LibRowGather
import proofs.«429747_j42236708388901_3_alg».proof.Proof.LibClampIndex
import Idealize.ShloMosaic.Lib.StableHlo.Run
import Idealize.ShloMosaic.Lib.StableHlo.Predicate
import Idealize.ShloMosaic.Lib.ValueIdx
import Idealize.ShloMosaic.Lib.Pipeline.Value

set_option maxRecDepth 1208

noncomputable section

namespace Cert.Sage.KHost.Take

open Idealize.ShloMosaic Idealize.ShloMosaic.ValueIdx Cert.Sage

/-! ## The pieces of a take, over any extents -/

/-- The scalar shape, the one-element vector and the one-by-one array the printed constants live in. -/
abbrev Sc : Shape := ⟨0, ![]⟩
abbrev Sv : Shape := ⟨1, ![1]⟩
abbrev Sm : Shape := ⟨2, ![1, 1]⟩

section Pieces
variable {n : ℕ}
  (b0 : Sc.BroadcastsInDim ⟨1, ![n]⟩ (![] : Fin 0 → Fin 1))
  (b1 : (⟨1, ![n]⟩ : Shape).BroadcastsInDim ⟨2, ![n, 1]⟩ (![0] : Fin 1 → Fin 2))
  (b2 : Sc.BroadcastsInDim ⟨2, ![n, 1]⟩ (![] : Fin 0 → Fin 2))
  (b3 : Sv.BroadcastsInDim Sm (![1] : Fin 1 → Fin 2))
  (b4 : Sm.BroadcastsInDim ⟨2, ![n, 1]⟩ (![0, 1] : Fin 2 → Fin 2))
  (hr : (⟨2, ![n, 1]⟩ : Shape).ReducesTo [1] ⟨1, ![n]⟩) (hu : 0 < Sc.numel)

/-- The index vector with its negative entries wrapped by the addend `ext`, laid as an [n, 1] column. -/
def col (ext : BitVec 32) (idx : IVec ⟨1, ![n]⟩ 32) : IVec ⟨2, ![n, 1]⟩ 32 :=
  broadcastInDim ⟨2, ![n, 1]⟩ ![0] b1
    (select (cmpi .slt idx (broadcastInDim ⟨1, ![n]⟩ ![] b0 (constantI Sc 32 0#32)))
      (addi idx (broadcastInDim ⟨1, ![n]⟩ ![] b0 (constantI Sc 32 ext))) idx)

/-- The bounds test of a column of start indices against [0, mx], one bit per position. -/
def mask (mx : BitVec 32) (v : IVec ⟨2, ![n, 1]⟩ 32) : IVec ⟨1, ![n]⟩ 1 :=
  Host.reduce IntOp.andi
    (andi (cmpi .sge v (broadcastInDim ⟨2, ![n, 1]⟩ ![] b2 (constantI Sc 32 0#32)))
      (cmpi .sle v (broadcastInDim ⟨2, ![n, 1]⟩ ![0, 1] b4 (broadcastInDim Sm ![1] b3 (constantI Sv 32 mx)))))
    (constantI Sc 1 1#1) hr hu

/-- A vector laid as a column reads, at (p, 0), the vector at p. -/
theorem bcast_col_apply {α : Type} (v : (⟨1, ![n]⟩ : Shape).Idx → α) (p : Fin n) :
    broadcastInDim ⟨2, ![n, 1]⟩ ![0] b1 v (ix2 p (0 : Fin 1)) = v (ix1 p) := by
  have e1 : (ix2 p (0 : Fin 1) : (⟨2, ![n, 1]⟩ : Shape).Idx) = StableHlo.Predicate.ixP p := by
    funext a; match a with | ⟨0, _⟩ => rfl | ⟨1, _⟩ => rfl
  have e2 : (Shape.Idx.ofFin p : (⟨1, ![n]⟩ : Shape).Idx) = ix1 p := by
    funext a; match a with | ⟨0, _⟩ => exact Fin.ext rfl
  rw [e1, StableHlo.Predicate.bcast_col1 b1 v p, e2]

/-- On a non-negative index the wrap is the identity: the column reads the index vector. -/
theorem col_apply (ext : BitVec 32) (idx : IVec ⟨1, ![n]⟩ 32) (p : Fin n) (h0 : 0 ≤ (idx (ix1 p)).toInt) :
    col b0 b1 ext idx (ix2 p (0 : Fin 1)) = idx (ix1 p) := by
  unfold col
  rw [bcast_col_apply]
  exact Cert.Lib.ClampIndex.norm_id _ ext h0

/-- A reduction by `and` from 1 over an array that is 1 everywhere is 1 everywhere. -/
theorem reduce_and_ones {s t u : Shape} {axes : List (Fin s.rank)} (x : IVec s 1) (init : IVec u 1)
    (h : s.ReducesTo axes t) (hu' : 0 < u.numel) (hx : ∀ i, x i = 1#1) (hi : ∀ k, init k = 1#1) (j : t.Idx) :
    Host.reduce IntOp.andi x init h hu' j = 1#1 := by
  have key : ∀ l : List (Fin s.numel),
      l.foldl (fun r k => IntOp.andi r (x (s.rowMajor.symm k))) 1#1 = 1#1 := by
    intro l
    induction l with
    | nil => rfl
    | cons a l ih =>
      have e : IntOp.andi 1#1 (x (s.rowMajor.symm a)) = 1#1 := by rw [hx]; decide
      simp only [List.foldl_cons, e]; exact ih
  unfold Host.reduce
  rw [hi]
  exact key _

/-- Where every start index lies in [0, mx] the bounds test is 1 at every position. -/
theorem mask_ones (mx : BitVec 32) (v : IVec ⟨2, ![n, 1]⟩ 32)
    (hv : ∀ p : Fin n, 0 ≤ (v (ix2 p (0 : Fin 1))).toInt ∧ (v (ix2 p (0 : Fin 1))).toInt ≤ mx.toInt) :
    mask b2 b3 b4 hr hu mx v = fun _ => 1#1 := by
  funext j
  unfold mask
  refine reduce_and_ones _ _ hr hu (fun i => ?_) (fun _ => rfl) j
  obtain ⟨p, q, rfl⟩ : ∃ (p : Fin n) (q : Fin 1), i = ix2 p q := ⟨i 0, i 1, eq_ix2 i⟩
  obtain rfl : q = 0 := Subsingleton.elim _ _
  exact Cert.Lib.ClampIndex.inrange_true _ mx (hv p).1 (hv p).2

end Pieces

/-! ## A take of words and a take of rows -/

section Takes
variable {n : ℕ}
  (b0 : Sc.BroadcastsInDim ⟨1, ![n]⟩ (![] : Fin 0 → Fin 1))
  (b1 : (⟨1, ![n]⟩ : Shape).BroadcastsInDim ⟨2, ![n, 1]⟩ (![0] : Fin 1 → Fin 2))
  (b2 : Sc.BroadcastsInDim ⟨2, ![n, 1]⟩ (![] : Fin 0 → Fin 2))
  (b3 : Sv.BroadcastsInDim Sm (![1] : Fin 1 → Fin 2))
  (b4 : Sm.BroadcastsInDim ⟨2, ![n, 1]⟩ (![0, 1] : Fin 2 → Fin 2))
  (hr : (⟨2, ![n, 1]⟩ : Shape).ReducesTo [1] ⟨1, ![n]⟩) (hu : 0 < Sc.numel)

/-- The words of a table x of N words that the words of idx name: x at each word read signed and capped at N − 1. -/
def pick {N : ℕ} (hN : 0 < N) (x : Words N) (idx : Words n) : Words n :=
  fun j => x (ix1 (row N hN (idx j)))

/-- Rows selected through selected words are rows selected from selected rows. -/
theorem rows_pick {R C N : ℕ} (hR : 0 < R) (hN : 0 < N) (y : Mat R C) (x : Words N) (idx : Words n) :
    rows hR y (pick hN x idx) = rows hN (rows hR y x) idx := rfl

/-- The printed take of a vector of words. -/
def takeW {N : ℕ} (d : GatherDims ⟨1, ![N]⟩ ⟨2, ![n, 1]⟩ ⟨1, ![n]⟩) (ext mx : BitVec 32)
    (x : IVec ⟨1, ![N]⟩ 32) (idx : IVec ⟨1, ![n]⟩ 32) (fill : IVec ⟨1, ![n]⟩ 32) : IVec ⟨1, ![n]⟩ 32 :=
  select (mask b2 b3 b4 hr hu mx (col b0 b1 ext idx)) (Host.gather d x (col b0 b1 ext idx)) fill

/-- The printed take of an array of rows. -/
def takeR {R C : ℕ} {α : Type} (d : GatherDims ⟨2, ![R, C]⟩ ⟨2, ![n, 1]⟩ ⟨2, ![n, C]⟩)
    (b5 : (⟨1, ![n]⟩ : Shape).BroadcastsInDim ⟨2, ![n, C]⟩ (![0] : Fin 1 → Fin 2)) (ext mx : BitVec 32)
    (x : (⟨2, ![R, C]⟩ : Shape).Idx → α) (idx : IVec ⟨1, ![n]⟩ 32) (fill : (⟨2, ![n, C]⟩ : Shape).Idx → α) :
    (⟨2, ![n, C]⟩ : Shape).Idx → α :=
  select (broadcastInDim ⟨2, ![n, C]⟩ ![0] b5 (mask b2 b3 b4 hr hu mx (col b0 b1 ext idx)))
    (Host.gather d x (col b0 b1 ext idx)) fill

/-- On indices in [0, N) the take of words picks the named words. -/
theorem takeW_eq {N : ℕ} (hN : 0 < N) (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1) (ext mx : BitVec 32) (hmx : (N : ℤ) - 1 ≤ mx.toInt)
    (x : Words N) (idx : Words n) (fill : IVec ⟨1, ![n]⟩ 32)
    (hidx : ∀ j, 0 ≤ (idx j).toInt ∧ (idx j).toInt < N) :
    takeW b0 b1 b2 b3 b4 hr hu d ext mx x idx fill = pick hN x idx := by
  have hc : ∀ p : Fin n, col b0 b1 ext idx (ix2 p (0 : Fin 1)) = idx (ix1 p) :=
    fun p => col_apply b0 b1 ext idx p (hidx _).1
  have hm : mask b2 b3 b4 hr hu mx (col b0 b1 ext idx) = fun _ => 1#1 :=
    mask_ones b2 b3 b4 hr hu mx _ fun p => by
      rw [hc]; exact ⟨(hidx _).1, by have := (hidx (ix1 p)).2; omega⟩
  funext j
  obtain ⟨p, rfl⟩ : ∃ p : Fin n, j = ix1 p := ⟨j 0, eq_ix1 j⟩
  have e2 : (Shape.Idx.ofFin p : (⟨1, ![n]⟩ : Shape).Idx) = ix1 p := by
    funext a; match a with | ⟨0, _⟩ => exact Fin.ext rfl
  have e1 : (StableHlo.Predicate.ixP p : (⟨2, ![n, 1]⟩ : Shape).Idx) = ix2 p (0 : Fin 1) := by
    funext a; match a with | ⟨0, _⟩ => rfl | ⟨1, _⟩ => rfl
  have hcp : col b0 b1 ext idx (StableHlo.Predicate.ixP p) = idx (ix1 p) := by rw [e1]; exact hc p
  have hg := StableHlo.Predicate.gather_take d hcoll hob hsim hivd x (col b0 b1 ext idx) p hN
  rw [e2] at hg
  unfold takeW
  rw [hm]
  show Scalar.select 1#1 (Host.gather d x (col b0 b1 ext idx) (ix1 p)) (fill (ix1 p)) = _
  rw [select_one, hg]
  refine congrArg x ?_
  funext a
  match a with
  | ⟨0, _⟩ =>
    exact Fin.ext (by
      show min (col b0 b1 ext idx (StableHlo.Predicate.ixP p)).toInt.toNat (N - 1)
        = min (idx (ix1 p)).toInt.toNat (N - 1)
      rw [hcp])

/-- On indices in [0, R) the take of rows is the row selection. -/
theorem takeR_eq {R C : ℕ} (hR : 0 < R) (d : GatherDims ⟨2, ![R, C]⟩ ⟨2, ![n, 1]⟩ ⟨2, ![n, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (b5 : (⟨1, ![n]⟩ : Shape).BroadcastsInDim ⟨2, ![n, C]⟩ (![0] : Fin 1 → Fin 2)) (ext mx : BitVec 32)
    (hmx : (R : ℤ) - 1 ≤ mx.toInt) (x : Mat R C) (idx : Words n) (fill : Mat n C)
    (hidx : ∀ j, 0 ≤ (idx j).toInt ∧ (idx j).toInt < R) :
    takeR b0 b1 b2 b3 b4 hr hu d b5 ext mx x idx fill = rows hR x idx := by
  have hc : ∀ p : Fin n, col b0 b1 ext idx (ix2 p (0 : Fin 1)) = idx (ix1 p) :=
    fun p => col_apply b0 b1 ext idx p (hidx _).1
  have hm : mask b2 b3 b4 hr hu mx (col b0 b1 ext idx) = fun _ => 1#1 :=
    mask_ones b2 b3 b4 hr hu mx _ fun p => by
      rw [hc]; exact ⟨(hidx _).1, by have := (hidx (ix1 p)).2; omega⟩
  funext j
  obtain ⟨p, k, rfl⟩ : ∃ (p : Fin n) (k : Fin C), j = ix2 p k := ⟨j 0, j 1, eq_ix2 j⟩
  unfold takeR
  rw [hm]
  show Scalar.select 1#1 (Host.gather d x (col b0 b1 ext idx) (ix2 p k)) (fill (ix2 p k)) = _
  rw [select_one, Cert.Lib.RowGather.rowGather_apply d h1 h2 h3 h4 h5 h6 h7 x _ p k hR]
  have hcp : col b0 b1 ext idx (ix2 p ⟨0, Nat.one_pos⟩) = idx (ix1 p) := hc p
  refine congrArg x ?_
  funext a
  match a with
  | ⟨0, _⟩ =>
    exact Fin.ext (by
      show min (col b0 b1 ext idx (ix2 p ⟨0, Nat.one_pos⟩)).toInt.toNat (R - 1)
        = min (idx (ix1 p)).toInt.toNat (R - 1)
      rw [hcp])
  | ⟨1, _⟩ => rfl

end Takes

end Cert.Sage.KHost.Take

namespace Cert.Sage.KHost

open Cert.KernelIdeal Cert.KernelIdeal.Gen Idealize.ShloMosaic Idealize.ShloMosaic.TcCoe Idealize.SL.Sem Cert.Sage
open Idealize.ShloMosaic.ValueIdx
open Cert.Sage.KHost.Take

/-! ## Each stretch of host operations, from any valuation: what it leaves in the array it is read for

Stated at any float instance: no stretch computes with a float. -/

section Stretches
variable {F : FTy → Type} [FloatOps F] (W : Valuation τ sig (Elt F))

/-- The fill of a take of words (the least signed word) and of a take of rows (a quiet NaN's bits). -/
abbrev fillW (s : Shape) (b : S_.BroadcastsInDim s (![] : Fin 0 → Fin s.rank)) : IVec s 32 :=
  broadcastInDim s ![] b (constantI S_ 32 2147483648#32)
abbrev fillR (s : Shape) (b : S_.BroadcastsInDim s (![] : Fin 0 → Fin s.rank)) : FVec F s .f32 :=
  broadcastInDim s ![] b (constant (F := F) S_ .f32 0x7FC00000#32)

/-- src_nodes taken at nodes1. -/
theorem stretch0 : (StableHlo.after hostOps0 W (Proc.devRef .tc main_v0) : Words 25600)
    = takeW bcast_S_S25600 bcast_S25600_S25600x1_0 bcast_S_S25600x1 bcast_S1_S1x1_1 bcast_S1x1_S25600x1_0_1 reducesTo_S25600x1_S25600_d1 h_S_ gather_S25600_S25600x1_S25600_n_0_n_n_0_1_1 25600#32 25599#32
        (W main_arg1) (W main_arg3) (fillW S25600 bcast_S_S25600) := by
  after_results_simp
  simp only [StableHlo.TRef.ofBuf, StableHlo.TRef.toBuf, cast_eq]
  rfl

/-- src_nodes taken at neighbors1. -/
theorem stretch0_1 : (StableHlo.after hostOps0_1 W (Proc.devRef .tc main_v1) : Words 5120)
    = takeW bcast_S_S5120 bcast_S5120_S5120x1_0 bcast_S_S5120x1 bcast_S1_S1x1_1 bcast_S1x1_S5120x1_0_1 reducesTo_S5120x1_S5120_d1 h_S_ gather_S25600_S5120x1_S5120_n_0_n_n_0_1_1 25600#32 25599#32
        (W main_arg1) (W main_arg2) (fillW S5120 bcast_S_S5120) := by
  after_results_simp
  simp only [StableHlo.TRef.ofBuf, StableHlo.TRef.toBuf, cast_eq]
  rfl

/-- The feature rows taken at the first composed index vector. -/
theorem stretch0_2 : (StableHlo.after hostOps0_2 W (Proc.devRef .tc main_v2) : FVec F S25600x128 .f32)
    = takeR bcast_S_S25600 bcast_S25600_S25600x1_0 bcast_S_S25600x1 bcast_S1_S1x1_1 bcast_S1x1_S25600x1_0_1 reducesTo_S25600x1_S25600_d1 h_S_ gather_S100000x128_S25600x1_S25600x128_1_0_n_n_0_1_1128 bcast_S25600_S25600x128_0
        100000#32 99999#32 (W main_arg0) (W main_v0) (fillR S25600x128 bcast_S_S25600x128) := by
  after_results_simp
  simp only [StableHlo.TRef.ofBuf, StableHlo.TRef.toBuf, cast_eq]
  rfl

/-- Their narrowing to bf16. -/
theorem stretch0_3 : (StableHlo.after hostOps0_3 W (Proc.devRef .tc main_v3) : FVec F S25600x128 .bf16)
    = truncf .bf16 (W main_v2 : FVec F S25600x128 .f32) bitsLt_bf16_f32 := by
  after_results

/-- The feature rows taken at the second composed index vector. -/
theorem stretch0_4 : (StableHlo.after hostOps0_4 W (Proc.devRef .tc main_v4) : FVec F S5120x128 .f32)
    = takeR bcast_S_S5120 bcast_S5120_S5120x1_0 bcast_S_S5120x1 bcast_S1_S1x1_1 bcast_S1x1_S5120x1_0_1 reducesTo_S5120x1_S5120_d1 h_S_ gather_S100000x128_S5120x1_S5120x128_1_0_n_n_0_1_1128 bcast_S5120_S5120x128_0
        100000#32 99999#32 (W main_arg0) (W main_v1) (fillR S5120x128 bcast_S_S5120x128) := by
  after_results_simp
  simp only [StableHlo.TRef.ofBuf, StableHlo.TRef.toBuf, cast_eq]
  rfl

/-- The two halves of the first projection. -/
theorem stretch0_5a : (StableHlo.after hostOps0_5 W (Proc.devRef .tc main_v5) : FVec F S128x128 .f32)
    = extractStridedSlice S128x128 ![0, 0] (W main_arg8 : FVec F S256x128 .f32) slices_S256x128_S128x128_0_0 := by
  after_results
theorem stretch0_5b : (StableHlo.after hostOps0_5 W (Proc.devRef .tc main_v6) : FVec F S128x128 .f32)
    = extractStridedSlice S128x128 ![128, 0] (W main_arg8 : FVec F S256x128 .f32) slices_S256x128_S128x128_128_0 := by
  after_results

/-- The first region's output rows taken at nodes2. -/
theorem stretch1 : (StableHlo.after hostOps1 W (Proc.devRef .tc main_v8) : FVec F S5120x128 .f32)
    = takeR bcast_S_S5120 bcast_S5120_S5120x1_0 bcast_S_S5120x1 bcast_S1_S1x1_1 bcast_S1x1_S5120x1_0_1 reducesTo_S5120x1_S5120_d1 h_S_ gather_S5120x128_S5120x1_S5120x128_1_0_n_n_0_1_1128 bcast_S5120_S5120x128_0
        5120#32 5119#32 (W main_v7) (W main_arg6) (fillR S5120x128 bcast_S_S5120x128) := by
  after_results_simp
  simp only [StableHlo.TRef.ofBuf, StableHlo.TRef.toBuf, cast_eq]
  rfl

/-- Their narrowing to bf16. -/
theorem stretch1_1 : (StableHlo.after hostOps1_1 W (Proc.devRef .tc main_v9) : FVec F S5120x128 .bf16)
    = truncf .bf16 (W main_v8 : FVec F S5120x128 .f32) bitsLt_bf16_f32 := by
  after_results

/-- The first region's output rows taken at neighbors2. -/
theorem stretch1_2 : (StableHlo.after hostOps1_2 W (Proc.devRef .tc main_v10) : FVec F S512x128 .f32)
    = takeR bcast_S_S512 bcast_S512_S512x1_0 bcast_S_S512x1 bcast_S1_S1x1_1 bcast_S1x1_S512x1_0_1 reducesTo_S512x1_S512_d1 h_S_ gather_S5120x128_S512x1_S512x128_1_0_n_n_0_1_1128 bcast_S512_S512x128_0
        5120#32 5119#32 (W main_v7) (W main_arg5) (fillR S512x128 bcast_S_S512x128) := by
  after_results_simp
  simp only [StableHlo.TRef.ofBuf, StableHlo.TRef.toBuf, cast_eq]
  rfl

/-- The two halves of the second projection. -/
theorem stretch1_3a : (StableHlo.after hostOps1_3 W (Proc.devRef .tc main_v11) : FVec F S128x128 .f32)
    = extractStridedSlice S128x128 ![0, 0] (W main_arg9 : FVec F S256x128 .f32) slices_S256x128_S128x128_0_0 := by
  after_results
theorem stretch1_3b : (StableHlo.after hostOps1_3 W (Proc.devRef .tc main_v12) : FVec F S128x128 .f32)
    = extractStridedSlice S128x128 ![128, 0] (W main_arg9 : FVec F S256x128 .f32) slices_S256x128_S128x128_128_0 := by
  after_results

end Stretches

/-! ## The arrays the two regions are entered with -/

section Entry
variable (m : (ℓ : Loc nD τ sig) → Buf (Elt Ideal) ℓ) (c : Dev nD)

/-- The argument arrays at launch, at the specification's types. -/
abbrev A0 : Mat 100000 128 := m ((c.tc : Thread nD τ).loc main_arg0)
abbrev A1 : Words 25600 := m ((c.tc : Thread nD τ).loc main_arg1)
abbrev A2 : Words 5120 := m ((c.tc : Thread nD τ).loc main_arg2)
abbrev A3 : Words 25600 := m ((c.tc : Thread nD τ).loc main_arg3)
abbrev A5 : Words 512 := m ((c.tc : Thread nD τ).loc main_arg5)
abbrev A6 : Words 5120 := m ((c.tc : Thread nD τ).loc main_arg6)
abbrev A8 : Mat 256 128 := m ((c.tc : Thread nD τ).loc main_arg8)
abbrev A9 : Mat 256 128 := m ((c.tc : Thread nD τ).loc main_arg9)

/-- Narrowing the float format is the identity on extended reals. -/
theorem truncf_ideal {s : Shape} {φ ψ : FTy} (x : FVec Ideal s φ) (h : ψ.bits < φ.bits) :
    (truncf ψ x h : FVec Ideal s ψ) = x := rfl

/-- A reference no stretch before the first region writes holds its launch contents there. -/
theorem V6_keep (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) : V6 m c r = V0 m c r :=
  (V6_of m c r h5).trans <| (V5_of m c r h4).trans <| (V4_of m c r h3).trans <| (V3_of m c r h2).trans <|
    (V2_of m c r h1).trans (V1_of m c r h0)

/-! ### The first region -/

/-- adj1 is as launched. -/
theorem V6_arg4 : V6 m c main_arg4 = m ((c.tc : Thread nD τ).loc main_arg4) :=
  (V6_keep m c main_arg4 (by decide) (by decide) (by decide) (by decide) (by decide) (by decide)).trans rfl

/-- The words src[nodes1], written by the first stretch and still there after the second. -/
theorem V2_v0 (hnd1 : ∀ j, 0 ≤ (A3 m c j).toInt ∧ (A3 m c j).toInt < 25600) :
    (V2 m c main_v0 : Words 25600) = pick (by norm_num) (A1 m c) (A3 m c) :=
  (V2_of m c main_v0 (by decide)).trans <| (stretch0 (V0 m c)).trans <|
    takeW_eq _ _ _ _ _ _ _ (by norm_num) _ rfl rfl rfl rfl _ _ (by decide) (A1 m c) (A3 m c) _
      fun j => ⟨(hnd1 j).1, by have := (hnd1 j).2; omega⟩

/-- The words src[neighbors1], written by the second stretch and still there after the fourth. -/
theorem V4_v1 (hnb1 : ∀ j, 0 ≤ (A2 m c j).toInt ∧ (A2 m c j).toInt < 25600) :
    (V4 m c main_v1 : Words 5120) = pick (by norm_num) (A1 m c) (A2 m c) :=
  (V4_of m c main_v1 (by decide)).trans <| (V3_of m c main_v1 (by decide)).trans <|
    (stretch0_1 (V1 m c)).trans <| by
      rw [show (V1 m c main_arg1 : Words 25600) = A1 m c from V1_of m c main_arg1 (by decide),
        show (V1 m c main_arg2 : Words 5120) = A2 m c from V1_of m c main_arg2 (by decide)]
      exact takeW_eq _ _ _ _ _ _ _ (by norm_num) _ rfl rfl rfl rfl _ _ (by decide) (A1 m c) (A2 m c) _
        fun j => ⟨(hnb1 j).1, by have := (hnb1 j).2; omega⟩

/-- The bf16 rows of features at src[nodes1]. -/
theorem V6_v3 (hsrc : ∀ j, 0 ≤ (A1 m c j).toInt ∧ (A1 m c j).toInt < 100000)
    (hnd1 : ∀ j, 0 ≤ (A3 m c j).toInt ∧ (A3 m c j).toInt < 25600) :
    (V6 m c main_v3 : Mat 25600 128)
      = rows (by norm_num) (rows (by norm_num) (A0 m c) (A1 m c)) (A3 m c) := by
  have ea : (V2 m c main_arg0 : Mat 100000 128) = A0 m c :=
    (V2_of m c main_arg0 (by decide)).trans (V1_of m c main_arg0 (by decide))
  have e2 : (V3 m c main_v2 : Mat 25600 128)
      = rows (by norm_num) (A0 m c) (pick (by norm_num) (A1 m c) (A3 m c)) := by
    refine (stretch0_2 (V2 m c)).trans ?_
    rw [V2_v0 m c hnd1, ea]
    exact takeR_eq _ _ _ _ _ _ _ (by norm_num) _ rfl rfl rfl rfl rfl rfl rfl _ _ _ (by decide) _ _ _
      fun j => hsrc _
  exact ((V6_of m c main_v3 (by decide)).trans (V5_of m c main_v3 (by decide))).trans <|
    (stretch0_3 (V3 m c)).trans <|
      (truncf_ideal (s := S25600x128) (φ := .f32) (ψ := .bf16) (V3 m c main_v2) bitsLt_bf16_f32).trans <|
        e2.trans (rows_pick _ _ _ _ _)

/-- The rows of features at src[neighbors1]. -/
theorem V6_v4 (hsrc : ∀ j, 0 ≤ (A1 m c j).toInt ∧ (A1 m c j).toInt < 100000)
    (hnb1 : ∀ j, 0 ≤ (A2 m c j).toInt ∧ (A2 m c j).toInt < 25600) :
    (V6 m c main_v4 : Mat 5120 128)
      = rows (by norm_num) (rows (by norm_num) (A0 m c) (A1 m c)) (A2 m c) := by
  have ea : (V4 m c main_arg0 : Mat 100000 128) = A0 m c :=
    (V4_of m c main_arg0 (by decide)).trans <| (V3_of m c main_arg0 (by decide)).trans <|
      (V2_of m c main_arg0 (by decide)).trans (V1_of m c main_arg0 (by decide))
  have e4 : (V5 m c main_v4 : Mat 5120 128)
      = rows (by norm_num) (A0 m c) (pick (by norm_num) (A1 m c) (A2 m c)) := by
    refine (stretch0_4 (V4 m c)).trans ?_
    rw [V4_v1 m c hnb1, ea]
    exact takeR_eq _ _ _ _ _ _ _ (by norm_num) _ rfl rfl rfl rfl rfl rfl rfl _ _ _ (by decide) _ _ _
      fun j => hsrc _
  exact (V6_of m c main_v4 (by decide)).trans <| e4.trans (rows_pick _ _ _ _ _)

/-- w1 through the last stretch before the first region. -/
theorem V5_arg8 : (V5 m c main_arg8 : Mat 256 128) = A8 m c :=
  (V5_of m c main_arg8 (by decide)).trans <| (V4_of m c main_arg8 (by decide)).trans <|
    (V3_of m c main_arg8 (by decide)).trans <| (V2_of m c main_arg8 (by decide)).trans
      (V1_of m c main_arg8 (by decide))

/-- The first 128 rows of w1. -/
theorem V6_v5 : (V6 m c main_v5 : Mat 128 128)
    = fun j : (⟨2, ![128, 128]⟩ : Shape).Idx =>
        (A8 m c) (ix2 ⟨(j 0).val, by have := idx2_lt0 j; omega⟩ (j 1)) := by
  funext j
  refine (congrFun (stretch0_5a (V5 m c)) j).trans ?_
  rw [V5_arg8]
  exact extractStridedSlice_apply _ _ _ j _ fun a => match a with
    | ⟨0, _⟩ => (Nat.zero_add _).symm
    | ⟨1, _⟩ => (Nat.zero_add _).symm

/-- The last 128 rows of w1. -/
theorem V6_v6 : (V6 m c main_v6 : Mat 128 128)
    = fun j : (⟨2, ![128, 128]⟩ : Shape).Idx =>
        (A8 m c) (ix2 ⟨128 + (j 0).val, by have := idx2_lt0 j; omega⟩ (j 1)) := by
  funext j
  refine (congrFun (stretch0_5b (V5 m c)) j).trans ?_
  rw [V5_arg8]
  exact extractStridedSlice_apply _ _ _ j _ fun a => match a with
    | ⟨0, _⟩ => rfl
    | ⟨1, _⟩ => (Nat.zero_add _).symm

/-! ### The second region -/

variable (outs : Outs (F := Ideal))

/-- What the first region left in its output array. -/
abbrev H : Mat 5120 128 := outs 7 main_v7 c

/-- A reference the first region may not change and no stretch between the regions writes. -/
theorem V11_keep (r : Ref sig .tc) (h6 : r ∉ ([main_v7] : List (Ref sig .tc))) (h7 : r ∉ hostOps1_W)
    (h8 : r ∉ hostOps1_1_W) (h9 : r ∉ hostOps1_2_W) (h10 : r ∉ hostOps1_3_W) :
    V11 m outs c r = V6 m c r :=
  (V11_of m outs c r h10).trans <| (V10_of m outs c r h9).trans <| (V9_of m outs c r h8).trans <|
    (V8_of m outs c r h7).trans (V7_of m outs c r h6)

/-- adj2 is as launched. -/
theorem V11_arg7 : V11 m outs c main_arg7 = m ((c.tc : Thread nD τ).loc main_arg7) :=
  (V11_keep m c outs main_arg7 (by decide) (by decide) (by decide) (by decide) (by decide)).trans <|
    (V6_keep m c main_arg7 (by decide) (by decide) (by decide) (by decide) (by decide) (by decide)).trans rfl

/-- After the first region its output array holds what the region left. -/
theorem V7_v7 : (V7 m outs c main_v7 : Mat 5120 128) = H c outs := Function.update_self _ _ _

/-- The bf16 rows of the first region's output at nodes2. -/
theorem V11_v9 (hnd2 : ∀ j, 0 ≤ (A6 m c j).toInt ∧ (A6 m c j).toInt < 5120) :
    (V11 m outs c main_v9 : Mat 5120 128) = rows (by norm_num) (H c outs) (A6 m c) := by
  have ea : (V7 m outs c main_arg6 : Words 5120) = A6 m c :=
    (V7_of m outs c main_arg6 (by decide)).trans <| (V6_keep m c main_arg6 (by decide) (by decide) (by decide) (by decide) (by decide) (by decide)).trans rfl
  have e8 : (V8 m outs c main_v8 : Mat 5120 128) = rows (by norm_num) (H c outs) (A6 m c) := by
    refine (stretch1 (V7 m outs c)).trans ?_
    rw [V7_v7 m c outs, ea]
    exact takeR_eq _ _ _ _ _ _ _ (by norm_num) _ rfl rfl rfl rfl rfl rfl rfl _ _ _ (by decide) _ _ _
      fun j => ⟨(hnd2 j).1, by have := (hnd2 j).2; omega⟩
  exact ((V11_of m outs c main_v9 (by decide)).trans (V10_of m outs c main_v9 (by decide))).trans <|
    (stretch1_1 (V8 m outs c)).trans <|
      (truncf_ideal (s := S5120x128) (φ := .f32) (ψ := .bf16) (V8 m outs c main_v8) bitsLt_bf16_f32).trans e8

/-- The rows of the first region's output at neighbors2. -/
theorem V11_v10 (hnb2 : ∀ j, 0 ≤ (A5 m c j).toInt ∧ (A5 m c j).toInt < 5120) :
    (V11 m outs c main_v10 : Mat 512 128) = rows (by norm_num) (H c outs) (A5 m c) := by
  have e7 : (V9 m outs c main_v7 : Mat 5120 128) = H c outs :=
    (V9_of m outs c main_v7 (by decide)).trans <| (V8_of m outs c main_v7 (by decide)).trans (V7_v7 m c outs)
  have ea : (V9 m outs c main_arg5 : Words 512) = A5 m c :=
    (V9_of m outs c main_arg5 (by decide)).trans <| (V8_of m outs c main_arg5 (by decide)).trans <|
      (V7_of m outs c main_arg5 (by decide)).trans <| (V6_keep m c main_arg5 (by decide) (by decide) (by decide) (by decide) (by decide) (by decide)).trans rfl
  refine (V11_of m outs c main_v10 (by decide)).trans <| (stretch1_2 (V9 m outs c)).trans ?_
  rw [e7, ea]
  exact takeR_eq _ _ _ _ _ _ _ (by norm_num) _ rfl rfl rfl rfl rfl rfl rfl _ _ _ (by decide) _ _ _
    fun j => ⟨(hnb2 j).1, by have := (hnb2 j).2; omega⟩

/-- w2 through the last stretch before the second region. -/
theorem V10_arg9 : (V10 m outs c main_arg9 : Mat 256 128) = A9 m c :=
  (V10_of m outs c main_arg9 (by decide)).trans <| (V9_of m outs c main_arg9 (by decide)).trans <|
    (V8_of m outs c main_arg9 (by decide)).trans <| (V7_of m outs c main_arg9 (by decide)).trans <|
      (V6_keep m c main_arg9 (by decide) (by decide) (by decide) (by decide) (by decide) (by decide)).trans rfl

/-- The first 128 rows of w2. -/
theorem V11_v11 : (V11 m outs c main_v11 : Mat 128 128)
    = fun j : (⟨2, ![128, 128]⟩ : Shape).Idx =>
        (A9 m c) (ix2 ⟨(j 0).val, by have := idx2_lt0 j; omega⟩ (j 1)) := by
  funext j
  refine (congrFun (stretch1_3a (V10 m outs c)) j).trans ?_
  rw [V10_arg9]
  exact extractStridedSlice_apply _ _ _ j _ fun a => match a with
    | ⟨0, _⟩ => (Nat.zero_add _).symm
    | ⟨1, _⟩ => (Nat.zero_add _).symm

/-- The last 128 rows of w2. -/
theorem V11_v12 : (V11 m outs c main_v12 : Mat 128 128)
    = fun j : (⟨2, ![128, 128]⟩ : Shape).Idx =>
        (A9 m c) (ix2 ⟨128 + (j 0).val, by have := idx2_lt0 j; omega⟩ (j 1)) := by
  funext j
  refine (congrFun (stretch1_3b (V10 m outs c)) j).trans ?_
  rw [V10_arg9]
  exact extractStridedSlice_apply _ _ _ j _ fun a => match a with
    | ⟨0, _⟩ => rfl
    | ⟨1, _⟩ => (Nat.zero_add _).symm

end Entry

end Cert.Sage.KHost

end
-- ==== Proof.PreRanges.lean ====
/-
  The precondition `finite_inputs`, decoded into index ranges. The printed predicate is the conjunction (`and` of
  i1 scalars) of ten tests, each a reduce by `and` of an elementwise test over a whole array: five saying that every
  float input is finite and then, for each of the five index vectors idx with the extent n of the axis it indexes,
  that every word has 0 ≤ idx[j] and idx[j] < n, both comparisons signed. If the predicate is 1 then each conjunct
  is 1; a reduce by `and` that is 1 had a 1 at every element; and the element at j is the `and` of the two
  comparisons of idx[j] against the broadcast scalars 0 and n. So, read as signed integers, every index is in [0, n).
-/
import proofs.«429747_j42236708388901_3_alg».proof.Pre_finite_inputs
import Idealize.ShloMosaic.Lib.Affine
import Idealize.ShloMosaic.Lib.ReduceAll
import Idealize.ShloMosaic.Lib.StableHlo.Predicate

namespace Cert.Sage.Pre
open Idealize.ShloMosaic

/-- every index input lies in the range of the axis it indexes -/
structure Ranges (a1 : IVec Cert.Pre_finite_inputs.S25600 32) (a2 : IVec Cert.Pre_finite_inputs.S5120 32) (a3 : IVec Cert.Pre_finite_inputs.S25600 32)
    (a5 : IVec Cert.Pre_finite_inputs.S512 32) (a6 : IVec Cert.Pre_finite_inputs.S5120 32) : Prop where
  src : ∀ j, 0 ≤ (a1 j).toInt ∧ (a1 j).toInt < 100000
  nb1 : ∀ j, 0 ≤ (a2 j).toInt ∧ (a2 j).toInt < 25600
  nd1 : ∀ j, 0 ≤ (a3 j).toInt ∧ (a3 j).toInt < 25600
  nb2 : ∀ j, 0 ≤ (a5 j).toInt ∧ (a5 j).toInt < 5120
  nd2 : ∀ j, 0 ≤ (a6 j).toInt ∧ (a6 j).toInt < 5120

/-- A scalar (rank 0) array has one index. -/
instance scalar_idx_subsingleton : Subsingleton Cert.Pre_finite_inputs.S_.Idx :=
  ⟨fun a b => funext fun d => d.elim0⟩

/-- The elementwise `and` of two i1 arrays is 1 at an index exactly when both are 1 there. -/
theorem andi_apply_eq_one {s : Shape} (x y : IVec s 1) (j : s.Idx) :
    andi x y j = 1#1 ↔ x j = 1#1 ∧ y j = 1#1 :=
  IntOp.andi_eq_one

/-- One range test read back: if the reduce by `and` over all j of (0 ≤ idx[j]) ∧ (idx[j] < n) is 1, then every
    word of idx, read signed, is in [0, N), N the signed reading of the scalar n. -/
theorem range_of_all {s : Shape} {axes : List (Fin s.rank)} (idx : IVec s 32) (n : BitVec 32) (N : Int)
    (hN : n.toInt = N) (hb : Cert.Pre_finite_inputs.S_.BroadcastsInDim s ![])
    (hr : s.ReducesTo axes Cert.Pre_finite_inputs.S_) (hu : 0 < Cert.Pre_finite_inputs.S_.numel)
    (init : IVec Cert.Pre_finite_inputs.S_ 1) (j0 : Cert.Pre_finite_inputs.S_.Idx)
    (e : Host.reduce IntOp.andi
          (andi (cmpi .sge idx (broadcastInDim s ![] hb (constantI Cert.Pre_finite_inputs.S_ 32 0#32)))
                (cmpi .slt idx (broadcastInDim s ![] hb (constantI Cert.Pre_finite_inputs.S_ 32 n))))
          init hr hu j0 = 1#1) (j : s.Idx) :
    0 ≤ (idx j).toInt ∧ (idx j).toInt < N := by
  have hj := Host.reduce_andi_all _ init hr hu j0 e j
  rw [andi_apply_eq_one] at hj
  obtain ⟨h0, h1⟩ := hj
  -- the two elements are the scalar comparisons of idx[j] with the broadcast constants at j
  have h0' : IntOp.cmpi .sge (idx j)
      (broadcastInDim s ![] hb (constantI Cert.Pre_finite_inputs.S_ 32 0#32) j) = 1#1 := h0
  have h1' : IntOp.cmpi .slt (idx j)
      (broadcastInDim s ![] hb (constantI Cert.Pre_finite_inputs.S_ 32 n) j) = 1#1 := h1
  rw [StableHlo.Predicate.bcast_scalar hb hu, IntOp.cmpi_sge] at h0'
  rw [StableHlo.Predicate.bcast_scalar hb hu, IntOp.cmpi_slt] at h1'
  have z : (0#32 : BitVec 32).toInt = 0 := by decide
  change (0#32 : BitVec 32).toInt ≤ (idx j).toInt at h0'
  change (idx j).toInt < n.toInt at h1'
  rw [z] at h0'
  rw [hN] at h1'
  exact ⟨h0', h1'⟩

theorem ranges_of_pre {F : FTy → Type} [FloatOps F] [Cert.Pre_finite_inputs.Facts]
    (a0 : FVec F Cert.Pre_finite_inputs.S100000x128 .f32) (a1 : IVec Cert.Pre_finite_inputs.S25600 32) (a2 : IVec Cert.Pre_finite_inputs.S5120 32)
    (a3 : IVec Cert.Pre_finite_inputs.S25600 32) (a4 : FVec F Cert.Pre_finite_inputs.S5120x25600 .f32) (a5 : IVec Cert.Pre_finite_inputs.S512 32)
    (a6 : IVec Cert.Pre_finite_inputs.S5120 32) (a7 : FVec F Cert.Pre_finite_inputs.S512x5120 .f32) (a8 a9 : FVec F Cert.Pre_finite_inputs.S256x128 .f32)
    (h : Cert.Pre_finite_inputs.fn (F := F) a0 a1 a2 a3 a4 a5 a6 a7 a8 a9 = (fun _ => 1#1)) : Ranges a1 a2 a3 a5 a6 := by
  -- the predicate's one element
  have e := congrFun h (fun d => d.elim0)
  dsimp only [Cert.Pre_finite_inputs.fn, Cert.Pre_finite_inputs.fn_part1, Cert.Pre_finite_inputs.fn_part2,
    Cert.Pre_finite_inputs.fn_part3] at e
  -- ten conjuncts, nested to the left: the five finiteness tests first, then the five range tests
  simp only [andi_apply_eq_one] at e
  obtain ⟨⟨⟨⟨⟨-, h1⟩, h2⟩, h3⟩, h5⟩, h6⟩ := e
  exact
    { src := range_of_all a1 100000#32 100000 (by decide) _ _ _ _ _ h1
      nb1 := range_of_all a2 25600#32 25600 (by decide) _ _ _ _ _ h2
      nd1 := range_of_all a3 25600#32 25600 (by decide) _ _ _ _ _ h3
      nb2 := range_of_all a5 5120#32 5120 (by decide) _ _ _ _ _ h5
      nd2 := range_of_all a6 5120#32 5120 (by decide) _ _ _ _ _ h6 }

end Cert.Sage.Pre
-- ==== Proof.KFinal.lean ====
/-
  The idealized kernel program's result is the network's function of its arguments.

  The second region's output array is the layer over the rows of what the first region left; the first region's
  output array is the rectified layer over the feature rows picked through the composed index vectors; the host
  stretches before each region put exactly those gathered rows, and the two halves of the projection, in the
  regions' input arrays when every index lies in range. Reading the chain of buffer contents back from the result
  array therefore gives the two-layer network of the specification, entry by entry.
-/
import proofs.«429747_j42236708388901_3_alg».proof.Proof.KI.KRun
import proofs.«429747_j42236708388901_3_alg».proof.Proof.KVal0
import proofs.«429747_j42236708388901_3_alg».proof.Proof.KVal1
import proofs.«429747_j42236708388901_3_alg».proof.Proof.KHost
import proofs.«429747_j42236708388901_3_alg».proof.Proof.PreRanges
import proofs.«429747_j42236708388901_3_alg».proof.Proof.Spec

open scoped BigOperators

noncomputable section

namespace Cert.Sage.Final

open Cert.KernelIdeal Cert.KernelIdeal.Gen Cert.KernelIdeal.Sage Cert.Sage
open Idealize.ShloMosaic Idealize.ShloMosaic.TcCoe Idealize.ShloMosaic.ValueIdx Idealize.SL.Sem

variable (m : (ℓ : Loc nD τ sig) → Buf (Elt Ideal) ℓ) (c : Dev nD)

/-- What the first region leaves in its output array is the first layer's output: its entry arrays are the dense
    weighting, the feature rows picked through src at nodes1 and at neighbors1, and the two halves of w1. -/
theorem hidden_eq (Rg : Pre.Ranges (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))) :
    ((dat0 (F := Ideal) (Ve0 m) c).arrAt 5 cfg0.N : Mat 5120 128)
      = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) := by
  have hA : KVal0.adjArr (Ve0 m) c = (m ((c.tc : Thread nD τ).loc main_arg4)) := KHost.V6_arg4 m c
  have hX : (KVal0.xgArr (Ve0 m) c : Mat 25600 128) = rows (by norm_num) (rows (by norm_num) (KHost.A0 m c) (KHost.A1 m c)) (KHost.A3 m c) :=
    KHost.V6_v3 m c Rg.src Rg.nd1
  have hN : (KVal0.xnArr (Ve0 m) c : Mat 5120 128) = rows (by norm_num) (rows (by norm_num) (KHost.A0 m c) (KHost.A1 m c)) (KHost.A2 m c) :=
    KHost.V6_v4 m c Rg.src Rg.nb1
  have hW1 := KHost.V6_v5 m c
  have hW2 := KHost.V6_v6 m c
  refine (KVal0.region0_value (Ve0 m) c).trans ?_
  funext j
  show max ((∑ k : Fin 128, agg (KVal0.adjArr (Ve0 m) c) (KVal0.xgArr (Ve0 m) c) (ix2 (j 0) k) * KVal0.waArr (Ve0 m) c (ix2 k (j 1)))
      + ∑ k : Fin 128, KVal0.xnArr (Ve0 m) c (ix2 (j 0) k) * KVal0.wbArr (Ve0 m) c (ix2 k (j 1))) 0 = _
  rw [hA, hX, hN]
  rw [show KVal0.waArr (Ve0 m) c = _ from hW1, show KVal0.wbArr (Ve0 m) c = _ from hW2]
  rfl

/-- The result array holds the network's function of the arguments: the second region's entry arrays are the second
    dense weighting, the first layer's output rows at nodes2 and at neighbors2, and the two halves of w2. -/
theorem kernel_result (Rg : Pre.Ranges (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))) :
    V12 m (OUTS m) c main_v13
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have e12 : V12 m (OUTS m) c main_v13 = (dat1 (F := Ideal) (Ve1 m) c).arrAt 5 cfg1.N := by
    show Function.update (V11 m (OUTS m) c) (Proc.devRef .tc main_v13) (OUTS m 12 main_v13 c) (Proc.devRef .tc main_v13) = _
    rw [Function.update_self]; exact OUTS_12 m c
  have eH : (X7 m 7 main_v7 c : Mat 5120 128) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) := by
    refine Eq.trans ?_ (hidden_eq m c Rg)
    unfold X7
    exact Pipeline.withArrays_arr spec0 launch0.win.arr_inj c _ _ 5
  have hA : KVal1.arrA (Ve1 m) c = (m ((c.tc : Thread nD τ).loc main_arg7)) := KHost.V11_arg7 m c (X7 m)
  have hX : KVal1.arrX (Ve1 m) c = rows (by norm_num) (KHost.H c (X7 m)) (KHost.A6 m c) := KHost.V11_v9 m c (X7 m) Rg.nd2
  have hN : KVal1.arrN (Ve1 m) c = rows (by norm_num) (KHost.H c (X7 m)) (KHost.A5 m c) := KHost.V11_v10 m c (X7 m) Rg.nb2
  have hW1 := KHost.V11_v11 m c (X7 m)
  have hW2 := KHost.V11_v12 m c (X7 m)
  refine e12.trans ((KVal1.region1_value (Ve1 m) c).trans ?_)
  funext j
  show (∑ k : Fin 128, agg (KVal1.arrA (Ve1 m) c) (KVal1.arrX (Ve1 m) c) (ix2 (j 0) k) * KVal1.arrW1 (Ve1 m) c (ix2 k (j 1)))
      + ∑ k : Fin 128, KVal1.arrN (Ve1 m) c (ix2 (j 0) k) * KVal1.arrW2 (Ve1 m) c (ix2 k (j 1)) = _
  rw [hA, hX, hN]
  rw [show KVal1.arrW1 (Ve1 m) c = _ from hW1, show KVal1.arrW2 (Ve1 m) c = _ from hW2]
  rw [show KHost.H c (X7 m) = _ from eH]
  rfl

end Cert.Sage.Final

end
-- ==== Proof.RefStages.lean ====
/-
  The reference's operations, each read as the operation of the specification it computes.

  Five facts, each generic in the extents. A vector of non-negative words, normalised the way a
  negative index is (the table's length added where the word is negative) and laid as an [N, 1]
  column, still reads the word itself. A gather of whole rows at such a column is the specification's
  row selection. A rows-by-columns product is the specification's weighted sum of rows. A
  rows-by-columns product whose left operand is two [N, 128] pieces joined along the columns splits, at
  column 128 of the contraction, into the two sums of the specification's projection. A maximum
  against a broadcast zero is the rectifier.
-/
import proofs.«429747_j42236708388901_3_alg».proof.Proof.Spec
import proofs.«429747_j42236708388901_3_alg».proof.Proof.LibRowGather
import proofs.«429747_j42236708388901_3_alg».proof.Proof.LibDot
import proofs.«429747_j42236708388901_3_alg».proof.Proof.LibClampIndex
import Idealize.ShloMosaic.Lib.Pipeline.Value
import Idealize.ShloMosaic.PureOps.Ideal.Laws

open scoped BigOperators

noncomputable section

namespace Cert.Sage.Ref

open Idealize.ShloMosaic
open Idealize.ShloMosaic.ValueIdx

/-- A vector x of non-negative words, with c added where a word is negative, laid as an [N, 1] column: the
    column reads, at (n, 0), the word x n. -/
theorem normCol_apply {N : ℕ} (hb0 : (⟨0, ![]⟩ : Shape).BroadcastsInDim ⟨1, ![N]⟩ (![] : Fin 0 → Fin 1))
    (hb1 : (⟨1, ![N]⟩ : Shape).BroadcastsInDim ⟨2, ![N, 1]⟩ (![0] : Fin 1 → Fin 2)) (c : BitVec 32)
    (x : Words N) (hx : ∀ j, 0 ≤ (x j).toInt) (n : Fin N) (z : Fin 1) :
    broadcastInDim ⟨2, ![N, 1]⟩ ![0] hb1
      (select (cmpi .slt x (broadcastInDim ⟨1, ![N]⟩ ![] hb0 (constantI ⟨0, ![]⟩ 32 0#32)))
        (addi x (broadcastInDim ⟨1, ![N]⟩ ![] hb0 (constantI ⟨0, ![]⟩ 32 c))) x) (ix2 n z) = x (ix1 n) := by
  rw [broadcastInDim_apply _ hb1 _ (ix2 n z) (ix1 n) (fun a => by
    match a with
    | ⟨0, _⟩ =>
      show n.val = if N = 1 then 0 else n.val
      split
      · next h => have := n.isLt; omega
      · rfl)]
  show Scalar.select (IntOp.cmpi .slt (x (ix1 n)) 0#32) (IntOp.addi (x (ix1 n)) c) (x (ix1 n)) = x (ix1 n)
  exact Cert.Lib.ClampIndex.norm_id _ _ (hx _)

/-- A gather of whole rows of x at a column of start indices that reads the words w is the rows of x that w names. -/
theorem gather_rows {R C N : ℕ} (d : GatherDims ⟨2, ![R, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (hR : 0 < R) (x : Mat R C) (col : IVec ⟨2, ![N, 1]⟩ 32) (w : Words N)
    (hw : ∀ (n : Fin N) (z : Fin 1), col (ix2 n z) = w (ix1 n)) :
    Host.gather d x col = rows hR x w := by
  funext j
  obtain ⟨n, k, rfl⟩ : ∃ n k, j = ix2 n k := ⟨j 0, j 1, eq_ix2 j⟩
  rw [Cert.Lib.RowGather.rowGather_apply d h1 h2 h3 h4 h5 h6 h7 x col n k hR]
  have e : (⟨min (col (ix2 n ⟨0, Nat.one_pos⟩)).toInt.toNat (R - 1), by omega⟩ : Fin R) = row R hR (w (ix1 n)) :=
    Fin.ext (by show min _ _ = min _ _; rw [hw])
  rw [e]
  rfl

/-- A rows-by-columns product of a weighting and a table of rows is the weighted sums of the rows. -/
theorem dot_agg {N M : ℕ} (d : DotDims ⟨2, ![N, M]⟩ ⟨2, ![M, 128]⟩ ⟨2, ![N, 128]⟩)
    (h : Cert.Lib.Dot.IsRowsCols d) (adj : Mat N M) (xg : Mat M 128) :
    Host.dotGeneral (F := Ideal) (φ₁ := .f32) (φ₂ := .f32) d none adj xg = agg adj xg := by
  funext j
  obtain ⟨p, q, rfl⟩ : ∃ p q, j = ix2 p q := ⟨j 0, j 1, eq_ix2 j⟩
  exact Cert.Lib.Dot.hostDot_rc (φ₁ := .f32) (φ₂ := .f32) d h adj xg p q

/-- Two [N, 128] pieces joined along the columns, against a projection of 256 rows: the contraction splits at 128
    into the first piece against the first 128 rows and the second piece against the last 128. -/
theorem dot_cat_proj {N : ℕ} (d : DotDims ⟨2, ![N, 256]⟩ ⟨2, ![256, 128]⟩ ⟨2, ![N, 128]⟩)
    (h : Cert.Lib.Dot.IsRowsCols d)
    (hc : Shape.Concatenates [(⟨2, ![N, 128]⟩ : Shape), ⟨2, ![N, 128]⟩] ⟨2, ![N, 256]⟩ 1)
    (a xn : Mat N 128) (w : Mat 256 128) :
    Host.dotGeneral (F := Ideal) (φ₁ := .f32) (φ₂ := .f32) d none
      (concatenate ⟨2, ![N, 256]⟩ 1 [⟨⟨2, ![N, 128]⟩, a⟩, ⟨⟨2, ![N, 128]⟩, xn⟩] hc) w = proj a xn w := by
  funext j
  obtain ⟨p, q, rfl⟩ : ∃ p q, j = ix2 p q := ⟨j 0, j 1, eq_ix2 j⟩
  rw [Cert.Lib.Dot.hostDot_rc (φ₁ := .f32) (φ₂ := .f32) d h _ w p q]
  show ∑ k : Fin (128 + 128), _ = _
  rw [Fin.sum_univ_add]
  refine congrArg₂ (· + ·) (Finset.sum_congr rfl fun k _ => ?_) (Finset.sum_congr rfl fun k _ => ?_)
  · rw [concatenate_pair_apply_left (1 : Fin 2) a xn hc (ix2 p (Fin.castAdd 128 k)) rfl (ix2 p k)
      (fun b => by match b with | ⟨0, _⟩ => rfl | ⟨1, _⟩ => rfl)]
    rfl
  · rw [concatenate_pair_apply_right (1 : Fin 2) a xn hc (ix2 p (Fin.natAdd 128 k)) rfl rfl (ix2 p k)
      (fun b hb => by
        match b, hb with
        | ⟨0, _⟩, _ => rfl
        | ⟨1, _⟩, hb => exact absurd rfl hb)
      (by show k.val + 128 = 128 + k.val; omega)]
    rfl

/-- A maximum against a broadcast zero is the rectifier. -/
theorem max_zero_relu {N : ℕ} (hb : (⟨0, ![]⟩ : Shape).BroadcastsInDim ⟨2, ![N, 128]⟩ (![] : Fin 0 → Fin 2))
    (x : Mat N 128) :
    maximumf (F := Ideal) (φ := .f32) x
      (broadcastInDim ⟨2, ![N, 128]⟩ ![] hb (constant (F := Ideal) ⟨0, ![]⟩ .f32 0x00000000#32)) = relu x := by
  funext j
  show max (x j) (Ideal.ofBits .f32 0x00000000#32) = max (x j) 0
  rw [Ideal.ofBits_zero_f32]

end Cert.Sage.Ref

end
-- ==== Proof.RefValue.lean ====
/-
  The reference's result as the network's function of the argument arrays.

  The reference's stages are read in program order over plain arrays. Each of the five index vectors is
  non-negative, so its normalisation is the identity and the column handed to a gather reads the vector
  itself; a gather is then the specification's row selection (both cap a start index at the last row), the
  two products against the dense weightings are its weighted sums, each product of a joined pair of
  [N, 128] pieces against 256 projection rows is its projection, and the maximum against zero is its
  rectifier. The last stage is therefore the specification's result, and the term the run names is that stage.
-/
import proofs.«429747_j42236708388901_3_alg».proof.Proof.RefRead
import proofs.«429747_j42236708388901_3_alg».proof.Proof.Spec
import proofs.«429747_j42236708388901_3_alg».proof.Proof.LibRowGather
import proofs.«429747_j42236708388901_3_alg».proof.Proof.LibDot
import proofs.«429747_j42236708388901_3_alg».proof.Proof.RefStages

noncomputable section

namespace Cert.Sage.Ref

open Idealize.ShloMosaic Idealize.ShloMosaic.ValueIdx
open Cert.ReferenceIdeal Cert.ReferenceIdeal.ReadP

/-! ## The stages over plain arrays

The argument arrays are variables of the specification's own types; each stage of the reference is identified
with the specification's operation on them, in program order. -/

section Stages

variable (x0 : Mat 100000 128) (x1 : Words 25600) (x2 : Words 5120) (x3 : Words 25600) (x4 : Mat 5120 25600)
  (x5 : Words 512) (x6 : Words 5120) (x7 : Mat 512 5120) (x8 x9 : Mat 256 128)

/-! ### The five index columns: a non-negative index vector, normalised and laid as a column, reads itself -/

theorem col_src (h1 : ∀ j, 0 ≤ (x1 j).toInt) (n : Fin 25600) (z : Fin 1) :
    val_main_v5 (F := Ideal) x1 (ix2 n z) = x1 (ix1 n) := by
  unfold val_main_v5 val_main_v4 val_main_v3 val_main_v2 val_main_v1 val_main_v0 val_main_c val_main_c_0
  exact normCol_apply _ _ _ x1 h1 n z

theorem col_nd1 (h3 : ∀ j, 0 ≤ (x3 j).toInt) (n : Fin 25600) (z : Fin 1) :
    val_main_v12 (F := Ideal) x3 (ix2 n z) = x3 (ix1 n) := by
  unfold val_main_v12 val_main_v11 val_main_v10 val_main_v9 val_main_v8 val_main_v7 val_main_c_1 val_main_c_2
  exact normCol_apply _ _ _ x3 h3 n z

theorem col_nb1 (h2 : ∀ j, 0 ≤ (x2 j).toInt) (n : Fin 5120) (z : Fin 1) :
    val_main_v20 (F := Ideal) x2 (ix2 n z) = x2 (ix1 n) := by
  unfold val_main_v20 val_main_v19 val_main_v18 val_main_v17 val_main_v16 val_main_v15 val_main_c_3 val_main_c_4
  exact normCol_apply _ _ _ x2 h2 n z

theorem col_nd2 (h6 : ∀ j, 0 ≤ (x6 j).toInt) (n : Fin 5120) (z : Fin 1) :
    val_main_v30 (F := Ideal) x6 (ix2 n z) = x6 (ix1 n) := by
  unfold val_main_v30 val_main_v29 val_main_v28 val_main_v27 val_main_v26 val_main_v25 val_main_c_5 val_main_c_6
  exact normCol_apply _ _ _ x6 h6 n z

theorem col_nb2 (h5 : ∀ j, 0 ≤ (x5 j).toInt) (n : Fin 512) (z : Fin 1) :
    val_main_v38 (F := Ideal) x5 (ix2 n z) = x5 (ix1 n) := by
  unfold val_main_v38 val_main_v37 val_main_v36 val_main_v35 val_main_v34 val_main_v33 val_main_c_7 val_main_c_8
  exact normCol_apply _ _ _ x5 h5 n z

/-! ### The first layer -/

/-- The feature rows the source nodes name. -/
theorem feat_eq (h1 : ∀ j, 0 ≤ (x1 j).toInt) :
    val_main_v6 (F := Ideal) x0 x1 = rows (by norm_num) x0 x1 := by
  unfold val_main_v6
  exact gather_rows gather_S100000x128_S25600x1_S25600x128_1_0_n_n_0_1_1128 rfl rfl rfl rfl rfl rfl rfl
    (by norm_num) x0 _ x1 (col_src x1 h1)

/-- The rows of those that the first layer aggregates. -/
theorem gath1_eq (h1 : ∀ j, 0 ≤ (x1 j).toInt) (h3 : ∀ j, 0 ≤ (x3 j).toInt) :
    val_main_v13 (F := Ideal) x0 x1 x3 = rows (by norm_num) (rows (by norm_num) x0 x1) x3 := by
  unfold val_main_v13
  rw [feat_eq x0 x1 h1]
  exact gather_rows gather_S25600x128_S25600x1_S25600x128_1_0_n_n_0_1_1128 rfl rfl rfl rfl rfl rfl rfl
    (by norm_num) _ _ x3 (col_nd1 x3 h3)

/-- The first layer's aggregate. -/
theorem agg1_eq (h1 : ∀ j, 0 ≤ (x1 j).toInt) (h3 : ∀ j, 0 ≤ (x3 j).toInt) :
    val_main_v14 (F := Ideal) x0 x1 x3 x4 = agg x4 (rows (by norm_num) (rows (by norm_num) x0 x1) x3) := by
  unfold val_main_v14
  rw [gath1_eq x0 x1 x3 h1 h3]
  exact dot_agg dot_S5120x25600_S25600x128_S5120x128_1_0_0_1_n_n ⟨rfl, rfl, rfl, rfl, rfl, rfl⟩ x4 _

/-- The rows the first layer keeps beside its aggregate. -/
theorem self1_eq (h1 : ∀ j, 0 ≤ (x1 j).toInt) (h2 : ∀ j, 0 ≤ (x2 j).toInt) :
    val_main_v21 (F := Ideal) x0 x1 x2 = rows (by norm_num) (rows (by norm_num) x0 x1) x2 := by
  unfold val_main_v21
  rw [feat_eq x0 x1 h1]
  exact gather_rows gather_S25600x128_S5120x1_S5120x128_1_0_n_n_0_1_1128 rfl rfl rfl rfl rfl rfl rfl
    (by norm_num) _ _ x2 (col_nb1 x2 h2)

/-- The first layer before its rectifier. -/
theorem layer1_eq (h1 : ∀ j, 0 ≤ (x1 j).toInt) (h2 : ∀ j, 0 ≤ (x2 j).toInt) (h3 : ∀ j, 0 ≤ (x3 j).toInt) :
    val_main_v23 (F := Ideal) x0 x1 x2 x3 x4 x8
      = layer x4 (rows (by norm_num) (rows (by norm_num) x0 x1) x3)
          (rows (by norm_num) (rows (by norm_num) x0 x1) x2) x8 := by
  unfold val_main_v23 val_main_v22
  rw [agg1_eq x0 x1 x3 x4 h1 h3, self1_eq x0 x1 x2 h1 h2]
  exact dot_cat_proj dot_S5120x256_S256x128_S5120x128_1_0_0_1_n_n ⟨rfl, rfl, rfl, rfl, rfl, rfl⟩ _ _ _ x8

/-- The first layer's output. -/
theorem hidden_eq (h1 : ∀ j, 0 ≤ (x1 j).toInt) (h2 : ∀ j, 0 ≤ (x2 j).toInt) (h3 : ∀ j, 0 ≤ (x3 j).toInt) :
    val_main_v24 (F := Ideal) x0 x1 x2 x3 x4 x8 = hidden x0 x1 x2 x3 x4 x8 := by
  unfold val_main_v24 val_main_call0_v0 val_main_call0_cst
  rw [layer1_eq x0 x1 x2 x3 x4 x8 h1 h2 h3]
  exact max_zero_relu _ _

/-! ### The second layer -/

/-- The rows of the first layer's output that the second layer aggregates. -/
theorem gath2_eq (h1 : ∀ j, 0 ≤ (x1 j).toInt) (h2 : ∀ j, 0 ≤ (x2 j).toInt) (h3 : ∀ j, 0 ≤ (x3 j).toInt)
    (h6 : ∀ j, 0 ≤ (x6 j).toInt) :
    val_main_v31 (F := Ideal) x0 x1 x2 x3 x4 x6 x8 = rows (by norm_num) (hidden x0 x1 x2 x3 x4 x8) x6 := by
  unfold val_main_v31
  rw [hidden_eq x0 x1 x2 x3 x4 x8 h1 h2 h3]
  exact gather_rows gather_S5120x128_S5120x1_S5120x128_1_0_n_n_0_1_1128 rfl rfl rfl rfl rfl rfl rfl
    (by norm_num) _ _ x6 (col_nd2 x6 h6)

/-- The second layer's aggregate. -/
theorem agg2_eq (h1 : ∀ j, 0 ≤ (x1 j).toInt) (h2 : ∀ j, 0 ≤ (x2 j).toInt) (h3 : ∀ j, 0 ≤ (x3 j).toInt)
    (h6 : ∀ j, 0 ≤ (x6 j).toInt) :
    val_main_v32 (F := Ideal) x0 x1 x2 x3 x4 x6 x7 x8
      = agg x7 (rows (by norm_num) (hidden x0 x1 x2 x3 x4 x8) x6) := by
  unfold val_main_v32
  rw [gath2_eq x0 x1 x2 x3 x4 x6 x8 h1 h2 h3 h6]
  exact dot_agg dot_S512x5120_S5120x128_S512x128_1_0_0_1_n_n ⟨rfl, rfl, rfl, rfl, rfl, rfl⟩ x7 _

/-- The rows the second layer keeps beside its aggregate. -/
theorem self2_eq (h1 : ∀ j, 0 ≤ (x1 j).toInt) (h2 : ∀ j, 0 ≤ (x2 j).toInt) (h3 : ∀ j, 0 ≤ (x3 j).toInt)
    (h5 : ∀ j, 0 ≤ (x5 j).toInt) :
    val_main_v39 (F := Ideal) x0 x1 x2 x3 x4 x5 x8 = rows (by norm_num) (hidden x0 x1 x2 x3 x4 x8) x5 := by
  unfold val_main_v39
  rw [hidden_eq x0 x1 x2 x3 x4 x8 h1 h2 h3]
  exact gather_rows gather_S5120x128_S512x1_S512x128_1_0_n_n_0_1_1128 rfl rfl rfl rfl rfl rfl rfl
    (by norm_num) _ _ x5 (col_nb2 x5 h5)

/-- The reference's last stage is the network's function of the argument arrays. -/
theorem val_eq (h1 : ∀ j, 0 ≤ (x1 j).toInt) (h2 : ∀ j, 0 ≤ (x2 j).toInt) (h3 : ∀ j, 0 ≤ (x3 j).toInt)
    (h5 : ∀ j, 0 ≤ (x5 j).toInt) (h6 : ∀ j, 0 ≤ (x6 j).toInt) :
    val_main_v41 (F := Ideal) x0 x1 x2 x3 x4 x5 x6 x7 x8 x9 = result x0 x1 x2 x3 x4 x5 x6 x7 x8 x9 := by
  unfold val_main_v41 val_main_v40
  rw [agg2_eq x0 x1 x2 x3 x4 x6 x7 x8 h1 h2 h3 h6, self2_eq x0 x1 x2 x3 x4 x5 x8 h1 h2 h3 h5]
  exact dot_cat_proj dot_S512x256_S256x128_S512x128_1_0_0_1_n_n ⟨rfl, rfl, rfl, rfl, rfl, rfl⟩ _ _ _ x9

end Stages

open Idealize.ShloMosaic.TcCoe Idealize.SL.Sem in
/-- under the index ranges, the reference's result term is the network's function of the argument arrays -/
theorem res_eq (m : (ℓ : Loc Cert.ReferenceIdeal.nD Cert.ReferenceIdeal.τ Cert.ReferenceIdeal.sig) → Buf (Elt Ideal) ℓ)
    (c : Dev Cert.ReferenceIdeal.nD)
    (h1 : ∀ j, 0 ≤ ((m ((c.tc : Thread _ _).loc Cert.ReferenceIdeal.main_arg1)) j).toInt)
    (h2 : ∀ j, 0 ≤ ((m ((c.tc : Thread _ _).loc Cert.ReferenceIdeal.main_arg2)) j).toInt)
    (h3 : ∀ j, 0 ≤ ((m ((c.tc : Thread _ _).loc Cert.ReferenceIdeal.main_arg3)) j).toInt)
    (h5 : ∀ j, 0 ≤ ((m ((c.tc : Thread _ _).loc Cert.ReferenceIdeal.main_arg5)) j).toInt)
    (h6 : ∀ j, 0 ≤ ((m ((c.tc : Thread _ _).loc Cert.ReferenceIdeal.main_arg6)) j).toInt) :
    Cert.ReferenceIdeal.ValueP.res_main_v41 (F := Ideal) m c
      = Cert.Sage.result (m ((c.tc : Thread _ _).loc Cert.ReferenceIdeal.main_arg0))
          (m ((c.tc : Thread _ _).loc Cert.ReferenceIdeal.main_arg1))
          (m ((c.tc : Thread _ _).loc Cert.ReferenceIdeal.main_arg2))
          (m ((c.tc : Thread _ _).loc Cert.ReferenceIdeal.main_arg3))
          (m ((c.tc : Thread _ _).loc Cert.ReferenceIdeal.main_arg4))
          (m ((c.tc : Thread _ _).loc Cert.ReferenceIdeal.main_arg5))
          (m ((c.tc : Thread _ _).loc Cert.ReferenceIdeal.main_arg6))
          (m ((c.tc : Thread _ _).loc Cert.ReferenceIdeal.main_arg7))
          (m ((c.tc : Thread _ _).loc Cert.ReferenceIdeal.main_arg8))
          (m ((c.tc : Thread _ _).loc Cert.ReferenceIdeal.main_arg9)) :=
  (Cert.ReferenceIdeal.ReadP.val_main_v41_eq m c).trans (val_eq _ _ _ _ _ _ _ _ _ _ h1 h2 h3 h5 h6)

end Cert.Sage.Ref

end
-- ==== Proof.lean ====
/-
  Two layers of neighbourhood aggregation over a table of feature rows, against their plain array-language reference.

  A layer gathers rows of a table at two index vectors, weights the first gathered set by a dense matrix (an
  aggregate per output row), and projects the aggregate beside the second gathered set through a 256 × 128 matrix.
  The kernel computes the aggregate in a gridded region: a row block's product is accumulated over five column
  tiles in a scratch buffer, and at the last tile the two halves of the projection are applied separately and added
  (the first layer then rectifies). The reference concatenates aggregate and kept rows and projects once. Over the
  extended reals the two are the same function: the sum over 256 contracted positions splits into the sums over
  the first and the last 128, the sum over 25600 into five tiles, and a change of float format is the identity —
  only commutativity and associativity of addition are used, so finiteness of the inputs plays no part. The
  gathers agree where every index lies in the range of the axis it indexes (the stated precondition): the kernel's
  gathers fill out-of-range rows, the reference's clamp them, and in range both read the named row; the kernel
  composes the first layer's two gathers into one, which reads the same rows.

  The three frames: each kernel program's run is the chain of its host stretches and its two regions, every unscoped
  buffer named at every boundary, so the arguments are read back unchanged at the end; the reference is host
  operations only.
-/
import proofs.«429747_j42236708388901_3_alg».proof.Defs
import proofs.«429747_j42236708388901_3_alg».proof.Proof.KB.KRun
import proofs.«429747_j42236708388901_3_alg».proof.Proof.KI.KRun
import proofs.«429747_j42236708388901_3_alg».proof.Proof.KFinal
import proofs.«429747_j42236708388901_3_alg».proof.Proof.RefValue
import proofs.«429747_j42236708388901_3_alg».proof.Proof.PreRanges
import proofs.«429747_j42236708388901_3_alg».proof.Proof.Gen.Pre_finite_inputs
import proofs.«429747_j42236708388901_3_alg».proof.Proof.Gen.ReferenceIdeal
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ =>
  (θ_run Cert.Kernel.defs _ _).mono (fun _ h c => (h c).2) (Cert.Kernel.Sage.run_read (F := Bits) m ρ)

/-- So does the idealized kernel program. -/
theorem frame_kernelIdeal : Cert.frame_KernelIdeal := fun m ρ _ =>
  (θ_run Cert.KernelIdeal.defs _ _).mono (fun _ h c => (h c).2) (Cert.KernelIdeal.Sage.run_read (F := Ideal) m ρ)

/-- And the reference: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments, with every index in range, both programs end with the network's function
    of the arguments in their result arrays. -/
theorem algebraic : Cert.algebraic_KernelIdeal_ReferenceIdeal := by
  intro m ρ m' ρ' hpre hagree
  have Rg : ∀ c : Dev Cert.KernelIdeal.nD, Cert.Sage.Pre.Ranges (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
    fun c => Cert.Sage.Pre.ranges_of_pre _ _ _ _ _ _ _ _ _ _ (hpre c)
  refine ⟨fun c => Cert.Sage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Sage.Final.kernel_result m c (Rg c)), (h c).2⟩)
      (Cert.KernelIdeal.Sage.run_read (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9⟩ := hagree c
    rw [Cert.Sage.Ref.res_eq m' c (fun j => by rw [e1]; exact ((Rg c).src j).1) (fun j => by rw [e2]; exact ((Rg c).nb1 j).1)
      (fun j => by rw [e3]; exact ((Rg c).nd1 j).1) (fun j => by rw [e5]; exact ((Rg c).nb2 j).1) (fun j => by rw [e6]; exact ((Rg c).nd2 j).1),
      e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
